-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x256 : Shape := ⟨3, ![128, 1024, 256]⟩
abbrev S_ : Shape := ⟨0, ![]⟩

class Facts : Prop where
  bcast_S_S128x1024x256 : S_.BroadcastsInDim S128x1024x256 (![] : Fin 0 → Fin S128x1024x256.rank)
  reducesTo_S128x1024x256_S_d0_1_2 : S128x1024x256.ReducesTo [0, 1, 2] S_
  h_S_ : 0 < S_.numel

variable [Facts]

def fn {F : FTy → Type} [FloatOps F] (main_arg0 : FVec F S128x1024x256 .f32) : IVec S_ 1 :=
  let main_v0 : FVec F S128x1024x256 .f32 := Host.absf main_arg0
  let main_cst : FVec F S_ .f32 := constant S_ .f32 0x7F800000#32
  let main_v1 : FVec F S128x1024x256 .f32 := broadcastInDim S128x1024x256 ![] bcast_S_S128x1024x256 main_cst
  let main_v2 : IVec S128x1024x256 1 := cmpf .olt main_v0 main_v1
  let main_c : IVec S_ 1 := constantI S_ 1 1#1
  let main_v3 : IVec S_ 1 := (fun x v => Host.reduce IntOp.andi x v reducesTo_S128x1024x256_S_d0_1_2 h_S_) main_v2 main_c
  main_v3
-- ==== Kernel.lean ====
abbrev S128x1024x256 : Shape := ⟨3, ![128, 1024, 256]⟩
abbrev S4x1024x256 : Shape := ⟨3, ![4, 1024, 256]⟩
abbrev S4x128x8x256 : Shape := ⟨4, ![4, 128, 8, 256]⟩
abbrev S4x128x1x256 : Shape := ⟨4, ![4, 128, 1, 256]⟩
abbrev S4x128x256 : Shape := ⟨3, ![4, 128, 256]⟩
abbrev S4x8x256 : Shape := ⟨3, ![4, 8, 256]⟩
abbrev S4x16x256 : Shape := ⟨3, ![4, 16, 256]⟩
abbrev S4x32x256 : Shape := ⟨3, ![4, 32, 256]⟩
abbrev S4x64x256 : Shape := ⟨3, ![4, 64, 256]⟩
abbrev S4x256x256 : Shape := ⟨3, ![4, 256, 256]⟩
abbrev S4x512x256 : Shape := ⟨3, ![4, 512, 256]⟩

abbrev nBuf : Space → Nat
  | .hbm => 2
  | .vmem => 4
  | .smem => 0
  | _ => 0

abbrev bufTy : (tb : Table) → Fin (tcTables nBuf tb) → BufTy
  | .hbm, ⟨0, _⟩ => ⟨S128x1024x256, .f32⟩
  | .hbm, ⟨1, _⟩ => ⟨S128x1024x256, .f32⟩
  | .local _ .vmem, ⟨0, _⟩ => ⟨S4x1024x256, .f32⟩
  | .local _ .vmem, ⟨1, _⟩ => ⟨S4x1024x256, .f32⟩
  | .local _ .vmem, ⟨2, _⟩ => ⟨S4x1024x256, .f32⟩
  | .local _ .vmem, ⟨3, _⟩ => ⟨S4x1024x256, .f32⟩
  | _, _ => ⟨S128x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c64_i32 : BitVec 32 := 64#32
  let v53 : BitVec 32 := Scalar.addi c0_i32 c64_i32
  let c1_i32 : BitVec 32 := 1#32
  ⟨c0_i32, v53, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c16_i32_31 : BitVec 32 := 16#32
  let v75 : BitVec 32 := Scalar.muli arg3 c16_i32_31
  v75
def k0_mult2 (k0_t1 : Fin k0_t1_loop.trips) : BitVec 32 :=
  let c0_i32 : BitVec 32 := 0#32
  let c1_i32 : BitVec 32 := 1#32
  let arg3 : BitVec 32 := Scf.iv c0_i32 c1_i32 k0_t1
  let c16_i32_31 : BitVec 32 := 16#32
  let v75 : BitVec 32 := Scalar.muli arg3 c16_i32_31
  let v76 : BitVec 32 := v75
  let c8_i32_32 : BitVec 32 := 8#32
  let v77 : BitVec 32 := Scalar.addi v76 c8_i32_32
  v77
def k0_off1 (k0_t1 : Fin k0_t1_loop.trips) : Fin 3 → Nat :=
  let c0_33 : Index := 0#32
  let c0_i32 : BitVec 32 := 0#32
  let c1_i32 : BitVec 32 := 1#32
  let arg3 : BitVec 32 := Scf.iv c0_i32 c1_i32 k0_t1
  let c16_i32_31 : BitVec 32 := 16#32
  let v75 : BitVec 32 := Scalar.muli arg3 c16_i32_31
  let v76 : BitVec 32 := v75
  let v79 : Index := Scalar.indexCast v76
  let c0_34 : Index := 0#32
  ![0, v79.toNat, 0]
def k0_off2 (k0_t1 : Fin k0_t1_loop.trips) : Fin 3 → Nat :=
  let c0_35 : Index := 0#32
  let c0_i32 : BitVec 32 := 0#32
  let c1_i32 : BitVec 32 := 1#32
  let arg3 : BitVec 32 := Scf.iv c0_i32 c1_i32 k0_t1
  let c16_i32_31 : BitVec 32 := 16#32
  let v75 : BitVec 32 := Scalar.muli arg3 c16_i32_31
  let v76 : BitVec 32 := v75
  let c8_i32_32 : BitVec 32 := 8#32
  let v77 : BitVec 32 := Scalar.addi v76 c8_i32_32
  let v78 : BitVec 32 := v77
  let v82 : Index := Scalar.indexCast v78
  let c0_36 : Index := 0#32
  ![0, v82.toNat, 0]
@[reducible] def k0_t2_loop : Scf.Loop 32 :=
  let c0_i32_6 : BitVec 32 := 0#32
  let c32_i32 : BitVec 32 := 32#32
  let v54 : BitVec 32 := Scalar.addi c0_i32_6 c32_i32
  let c1_i32_7 : BitVec 32 := 1#32
  ⟨c0_i32_6, v54, c1_i32_7⟩
def k0_mult3 (k0_t2 : Fin k0_t2_loop.trips) : BitVec 32 :=
  let c0_i32_6 : BitVec 32 := 0#32
  let c1_i32_7 : BitVec 32 := 1#32
  let arg3 : BitVec 32 := Scf.iv c0_i32_6 c1_i32_7 k0_t2
  let c32_i32_31 : BitVec 32 := 32#32
  let v75 : BitVec 32 := Scalar.muli arg3 c32_i32_31
  v75
def k0_mult4 (k0_t2 : Fin k0_t2_loop.trips) : BitVec 32 :=
  let c0_i32_6 : BitVec 32 := 0#32
  let c1_i32_7 : BitVec 32 := 1#32
  let arg3 : BitVec 32 := Scf.iv c0_i32_6 c1_i32_7 k0_t2
  let c32_i32_31 : BitVec 32 := 32#32
  let v75 : BitVec 32 := Scalar.muli arg3 c32_i32_31
  let v76 : BitVec 32 := v75
  let c16_i32_32 : BitVec 32 := 16#32
  let v77 : BitVec 32 := Scalar.addi v76 c16_i32_32
  v77
def k0_off3 (k0_t2 : Fin k0_t2_loop.trips) : Fin 3 → Nat :=
  let c0_33 : Index := 0#32
  let c0_i32_6 : BitVec 32 := 0#32
  let c1_i32_7 : BitVec 32 := 1#32
  let arg3 : BitVec 32 := Scf.iv c0_i32_6 c1_i32_7 k0_t2
  let c32_i32_31 : BitVec 32 := 32#32
  let v75 : BitVec 32 := Scalar.muli arg3 c32_i32_31
  let v76 : BitVec 32 := v75
  let v79 : Index := Scalar.indexCast v76
  let c0_34 : Index := 0#32
  ![0, v79.toNat, 0]
def k0_off4 (k0_t2 : Fin k0_t2_loop.trips) : Fin 3 → Nat :=
  let c0_35 : Index := 0#32
  let c0_i32_6 : BitVec 32 := 0#32
  let c1_i32_7 : BitVec 32 := 1#32
  let arg3 : BitVec 32 := Scf.iv c0_i32_6 c1_i32_7 k0_t2
  let c32_i32_31 : BitVec 32 := 32#32
  let v75 : BitVec 32 := Scalar.muli arg3 c32_i32_31
  let v76 : BitVec 32 := v75
  let c16_i32_32 : BitVec 32 := 16#32
  let v77 : BitVec 32 := Scalar.addi v76 c16_i32_32
  let v78 : BitVec 32 := v77
  let v82 : Index := Scalar.indexCast v78
  let c0_36 : Index := 0#32
  ![0, v82.toNat, 0]
@[reducible] def k0_t3_loop : Scf.Loop 32 :=
  let c0_i32_9 : BitVec 32 := 0#32
  let c16_i32 : BitVec 32 := 16#32
  let v55 : BitVec 32 := Scalar.addi c0_i32_9 c16_i32
  let c1_i32_10 : BitVec 32 := 1#32
  ⟨c0_i32_9, v55, c1_i32_10⟩
def k0_mult5 (k0_t3 : Fin k0_t3_loop.trips) : BitVec 32 :=
  let c0_i32_9 : BitVec 32 := 0#32
  let c1_i32_10 : BitVec 32 := 1#32
  let arg3 : BitVec 32 := Scf.iv c0_i32_9 c1_i32_10 k0_t3
  let c64_i32_31 : BitVec 32 := 64#32
  let v75 : BitVec 32 := Scalar.muli arg3 c64_i32_31
  v75
def k0_mult6 (k0_t3 : Fin k0_t3_loop.trips) : BitVec 32 :=
  let c0_i32_9 : BitVec 32 := 0#32
  let c1_i32_10 : BitVec 32 := 1#32
  let arg3 : BitVec 32 := Scf.iv c0_i32_9 c1_i32_10 k0_t3
  let c64_i32_31 : BitVec 32 := 64#32
  let v75 : BitVec 32 := Scalar.muli arg3 c64_i32_31
  let v76 : BitVec 32 := v75
  let c32_i32_32 : BitVec 32 := 32#32
  let v77 : BitVec 32 := Scalar.addi v76 c32_i32_32
  v77
def k0_off5 (k0_t3 : Fin k0_t3_loop.trips) : Fin 3 → Nat :=
  let c0_33 : Index := 0#32
  let c0_i32_9 : BitVec 32 := 0#32
  let c1_i32_10 : BitVec 32 := 1#32
  let arg3 : BitVec 32 := Scf.iv c0_i32_9 c1_i32_10 k0_t3
  let c64_i32_31 : BitVec 32 := 64#32
  let v75 : BitVec 32 := Scalar.muli arg3 c64_i32_31
  let v76 : BitVec 32 := v75
  let v79 : Index := Scalar.indexCast v76
  let c0_34 : Index := 0#32
  ![0, v79.toNat, 0]
def k0_off6 (k0_t3 : Fin k0_t3_loop.trips) : Fin 3 → Nat :=
  let c0_35 : Index := 0#32
  let c0_i32_9 : BitVec 32 := 0#32
  let c1_i32_10 : BitVec 32 := 1#32
  let arg3 : BitVec 32 := Scf.iv c0_i32_9 c1_i32_10 k0_t3
  let c64_i32_31 : BitVec 32 := 64#32
  let v75 : BitVec 32 := Scalar.muli arg3 c64_i32_31
  let v76 : BitVec 32 := v75
  let c32_i32_32 : BitVec 32 := 32#32
  let v77 : BitVec 32 := Scalar.addi v76 c32_i32_32
  let v78 : BitVec 32 := v77
  let v82 : Index := Scalar.indexCast v78
  let c0_36 : Index := 0#32
  ![0, v82.toNat, 0]
@[reducible] def k0_t4_loop : Scf.Loop 32 :=
  let c0_i32_12 : BitVec 32 := 0#32
  let c8_i32 : BitVec 32 := 8#32
  let v56 : BitVec 32 := Scalar.addi c0_i32_12 c8_i32
  let c1_i32_13 : BitVec 32 := 1#32
  ⟨c0_i32_12, v56, c1_i32_13⟩
def k0_mult7 (k0_t4 : Fin k0_t4_loop.trips) : BitVec 32 :=
  let c0_i32_12 : BitVec 32 := 0#32
  let c1_i32_13 : BitVec 32 := 1#32
  let arg3 : BitVec 32 := Scf.iv c0_i32_12 c1_i32_13 k0_t4
  let c128_i32 : BitVec 32 := 128#32
  let v75 : BitVec 32 := Scalar.muli arg3 c128_i32
  v75
def k0_mult8 (k0_t4 : Fin k0_t4_loop.trips) : BitVec 32 :=
  let c0_i32_12 : BitVec 32 := 0#32
  let c1_i32_13 : BitVec 32 := 1#32
  let arg3 : BitVec 32 := Scf.iv c0_i32_12 c1_i32_13 k0_t4
  let c128_i32 : BitVec 32 := 128#32
  let v75 : BitVec 32 := Scalar.muli arg3 c128_i32
  let v76 : BitVec 32 := v75
  let c64_i32_31 : BitVec 32 := 64#32
  let v77 : BitVec 32 := Scalar.addi v76 c64_i32_31
  v77
def k0_off7 (k0_t4 : Fin k0_t4_loop.trips) : Fin 3 → Nat :=
  let c0_32 : Index := 0#32
  let c0_i32_12 : BitVec 32 := 0#32
  let c1_i32_13 : BitVec 32 := 1#32
  let arg3 : BitVec 32 := Scf.iv c0_i32_12 c1_i32_13 k0_t4
  let c128_i32 : BitVec 32 := 128#32
  let v75 : BitVec 32 := Scalar.muli arg3 c128_i32
  let v76 : BitVec 32 := v75
  let v79 : Index := Scalar.indexCast v76
  let c0_33 : Index := 0#32
  ![0, v79.toNat, 0]
def k0_off8 (k0_t4 : Fin k0_t4_loop.trips) : Fin 3 → Nat :=
  let c0_34 : Index := 0#32
  let c0_i32_12 : BitVec 32 := 0#32
  let c1_i32_13 : BitVec 32 := 1#32
  let arg3 : BitVec 32 := Scf.iv c0_i32_12 c1_i32_13 k0_t4
  let c128_i32 : BitVec 32 := 128#32
  let v75 : BitVec 32 := Scalar.muli arg3 c128_i32
  let v76 : BitVec 32 := v75
  let c64_i32_31 : BitVec 32 := 64#32
  let v77 : BitVec 32 := Scalar.addi v76 c64_i32_31
  let v78 : BitVec 32 := v77
  let v82 : Index := Scalar.indexCast v78
  let c0_35 : Index := 0#32
  ![0, v82.toNat, 0]
@[reducible] def k0_t5_loop : Scf.Loop 32 :=
  let c0_i32_15 : BitVec 32 := 0#32
  let c4_i32 : BitVec 32 := 4#32
  let v57 : BitVec 32 := Scalar.addi c0_i32_15 c4_i32
  let c1_i32_16 : BitVec 32 := 1#32
  ⟨c0_i32_15, v57, c1_i32_16⟩
def k0_mult9 (k0_t5 : Fin k0_t5_loop.trips) : BitVec 32 :=
  let c0_i32_15 : BitVec 32 := 0#32
  let c1_i32_16 : BitVec 32 := 1#32
  let arg3 : BitVec 32 := Scf.iv c0_i32_15 c1_i32_16 k0_t5
  let c256_i32 : BitVec 32 := 256#32
  let v75 : BitVec 32 := Scalar.muli arg3 c256_i32
  v75
def k0_mult10 (k0_t5 : Fin k0_t5_loop.trips) : BitVec 32 :=
  let c0_i32_15 : BitVec 32 := 0#32
  let c1_i32_16 : BitVec 32 := 1#32
  let arg3 : BitVec 32 := Scf.iv c0_i32_15 c1_i32_16 k0_t5
  let c256_i32 : BitVec 32 := 256#32
  let v75 : BitVec 32 := Scalar.muli arg3 c256_i32
  let v76 : BitVec 32 := v75
  let c128_i32 : BitVec 32 := 128#32
  let v77 : BitVec 32 := Scalar.addi v76 c128_i32
  v77
def k0_off9 (k0_t5 : Fin k0_t5_loop.trips) : Fin 3 → Nat :=
  let c0_31 : Index := 0#32
  let c0_i32_15 : BitVec 32 := 0#32
  let c1_i32_16 : BitVec 32 := 1#32
  let arg3 : BitVec 32 := Scf.iv c0_i32_15 c1_i32_16 k0_t5
  let c256_i32 : BitVec 32 := 256#32
  let v75 : BitVec 32 := Scalar.muli arg3 c256_i32
  let v76 : BitVec 32 := v75
  let v79 : Index := Scalar.indexCast v76
  let c0_32 : Index := 0#32
  ![0, v79.toNat, 0]
def k0_off10 (k0_t5 : Fin k0_t5_loop.trips) : Fin 3 → Nat :=
  let c0_33 : Index := 0#32
  let c0_i32_15 : BitVec 32 := 0#32
  let c1_i32_16 : BitVec 32 := 1#32
  let arg3 : BitVec 32 := Scf.iv c0_i32_15 c1_i32_16 k0_t5
  let c256_i32 : BitVec 32 := 256#32
  let v75 : BitVec 32 := Scalar.muli arg3 c256_i32
  let v76 : BitVec 32 := v75
  let c128_i32 : BitVec 32 := 128#32
  let v77 : BitVec 32 := Scalar.addi v76 c128_i32
  let v78 : BitVec 32 := v77
  let v82 : Index := Scalar.indexCast v78
  let c0_34 : Index := 0#32
  ![0, v82.toNat, 0]
@[reducible] def k0_t6_loop : Scf.Loop 32 :=
  let c0_i32_18 : BitVec 32 := 0#32
  let c2_i32 : BitVec 32 := 2#32
  let v58 : BitVec 32 := Scalar.addi c0_i32_18 c2_i32
  let c1_i32_19 : BitVec 32 := 1#32
  ⟨c0_i32_18, v58, c1_i32_19⟩
def k0_mult11 (k0_t6 : Fin k0_t6_loop.trips) : BitVec 32 :=
  let c0_i32_18 : BitVec 32 := 0#32
  let c1_i32_19 : BitVec 32 := 1#32
  let arg3 : BitVec 32 := Scf.iv c0_i32_18 c1_i32_19 k0_t6
  let c512_i32_31 : BitVec 32 := 512#32
  let v75 : BitVec 32 := Scalar.muli arg3 c512_i32_31
  v75
def k0_mult12 (k0_t6 : Fin k0_t6_loop.trips) : BitVec 32 :=
  let c0_i32_18 : BitVec 32 := 0#32
  let c1_i32_19 : BitVec 32 := 1#32
  let arg3 : BitVec 32 := Scf.iv c0_i32_18 c1_i32_19 k0_t6
  let c512_i32_31 : BitVec 32 := 512#32
  let v75 : BitVec 32 := Scalar.muli arg3 c512_i32_31
  let v76 : BitVec 32 := v75
  let c256_i32 : BitVec 32 := 256#32
  let v77 : BitVec 32 := Scalar.addi v76 c256_i32
  v77
def k0_off11 (k0_t6 : Fin k0_t6_loop.trips) : Fin 3 → Nat :=
  let c0_32 : Index := 0#32
  let c0_i32_18 : BitVec 32 := 0#32
  let c1_i32_19 : BitVec 32 := 1#32
  let arg3 : BitVec 32 := Scf.iv c0_i32_18 c1_i32_19 k0_t6
  let c512_i32_31 : BitVec 32 := 512#32
  let v75 : BitVec 32 := Scalar.muli arg3 c512_i32_31
  let v76 : BitVec 32 := v75
  let v79 : Index := Scalar.indexCast v76
  let c0_33 : Index := 0#32
  ![0, v79.toNat, 0]
def k0_off12 (k0_t6 : Fin k0_t6_loop.trips) : Fin 3 → Nat :=
  let c0_34 : Index := 0#32
  let c0_i32_18 : BitVec 32 := 0#32
  let c1_i32_19 : BitVec 32 := 1#32
  let arg3 : BitVec 32 := Scf.iv c0_i32_18 c1_i32_19 k0_t6
  let c512_i32_31 : BitVec 32 := 512#32
  let v75 : BitVec 32 := Scalar.muli arg3 c512_i32_31
  let v76 : BitVec 32 := v75
  let c256_i32 : BitVec 32 := 256#32
  let v77 : BitVec 32 := Scalar.addi v76 c256_i32
  let v78 : BitVec 32 := v77
  let v82 : Index := Scalar.indexCast v78
  let c0_35 : Index := 0#32
  ![0, v82.toNat, 0]
def k0_mult13 : BitVec 32 :=
  let c0_i32_21 : BitVec 32 := 0#32
  let c1024_i32 : BitVec 32 := 1024#32
  let v59 : BitVec 32 := Scalar.muli c0_i32_21 c1024_i32
  v59
def k0_mult14 : BitVec 32 :=
  let c0_i32_21 : BitVec 32 := 0#32
  let c1024_i32 : BitVec 32 := 1024#32
  let v59 : BitVec 32 := Scalar.muli c0_i32_21 c1024_i32
  let v60 : BitVec 32 := v59
  let c512_i32 : BitVec 32 := 512#32
  let v61 : BitVec 32 := Scalar.addi v60 c512_i32
  v61
def k0_off13 : Fin 3 → Nat :=
  let c0_22 : Index := 0#32
  let c0_i32_21 : BitVec 32 := 0#32
  let c1024_i32 : BitVec 32 := 1024#32
  let v59 : BitVec 32 := Scalar.muli c0_i32_21 c1024_i32
  let v60 : BitVec 32 := v59
  let v63 : Index := Scalar.indexCast v60
  let c0_23 : Index := 0#32
  ![0, v63.toNat, 0]
def k0_off14 : Fin 3 → Nat :=
  let c0_24 : Index := 0#32
  let c0_i32_21 : BitVec 32 := 0#32
  let c1024_i32 : BitVec 32 := 1024#32
  let v59 : BitVec 32 := Scalar.muli c0_i32_21 c1024_i32
  let v60 : BitVec 32 := v59
  let c512_i32 : BitVec 32 := 512#32
  let v61 : BitVec 32 := Scalar.addi v60 c512_i32
  let v62 : BitVec 32 := v61
  let v66 : Index := Scalar.indexCast v62
  let c0_25 : Index := 0#32
  ![0, v66.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x1024x256_S4x1024x256_0_0_0 : ∀ a, (![0, 0, 0] : Fin 3 → Nat) a + S4x1024x256.size a ≤ S4x1024x256.size a
  h_S4x1024x256 : 0 < S4x1024x256.numel
  shapeCasts_S4x1024x256_S4x128x8x256 : S4x1024x256.ShapeCasts S4x128x8x256
  slices_S4x128x8x256_o0_0_0_0_S4x128x1x256 : S4x128x8x256.Slices ![0, 0, 0, 0] S4x128x1x256
  shapeCasts_S4x128x1x256_S4x128x256 : S4x128x1x256.ShapeCasts S4x128x256
  slices_S4x128x8x256_o0_0_1_0_S4x128x1x256 : S4x128x8x256.Slices ![0, 0, 1, 0] S4x128x1x256
  slices_S4x128x8x256_o0_0_2_0_S4x128x1x256 : S4x128x8x256.Slices ![0, 0, 2, 0] S4x128x1x256
  slices_S4x128x8x256_o0_0_3_0_S4x128x1x256 : S4x128x8x256.Slices ![0, 0, 3, 0] S4x128x1x256
  slices_S4x128x8x256_o0_0_4_0_S4x128x1x256 : S4x128x8x256.Slices ![0, 0, 4, 0] S4x128x1x256
  slices_S4x128x8x256_o0_0_5_0_S4x128x1x256 : S4x128x8x256.Slices ![0, 0, 5, 0] S4x128x1x256
  slices_S4x128x8x256_o0_0_6_0_S4x128x1x256 : S4x128x8x256.Slices ![0, 0, 6, 0] S4x128x1x256
  slices_S4x128x8x256_o0_0_7_0_S4x128x1x256 : S4x128x8x256.Slices ![0, 0, 7, 0] S4x128x1x256
  shapeCasts_S4x128x256_S4x128x1x256 : S4x128x256.ShapeCasts S4x128x1x256
  concatenates_S4x128x1x256_S4x128x1x256_S4x128x1x256_S4x128x1x256_S4x128x1x256_S4x128x1x256_S4x128x1x256_S4x128x1x256_S4x128x8x256_d2 : Shape.Concatenates [S4x128x1x256, S4x128x1x256, S4x128x1x256, S4x128x1x256, S4x128x1x256, S4x128x1x256, S4x128x1x256, S4x128x1x256] S4x128x8x256 2
  shapeCasts_S4x128x8x256_S4x1024x256 : S4x128x8x256.ShapeCasts S4x1024x256
  h_S4x8x256 : 0 < S4x8x256.numel
  shapeCasts_S4x8x256_S4x8x256 : S4x8x256.ShapeCasts S4x8x256
  h_S4x16x256 : 0 < S4x16x256.numel
  shapeCasts_S4x16x256_S4x16x256 : S4x16x256.ShapeCasts S4x16x256
  h_S4x32x256 : 0 < S4x32x256.numel
  shapeCasts_S4x32x256_S4x32x256 : S4x32x256.ShapeCasts S4x32x256
  h_S4x64x256 : 0 < S4x64x256.numel
  shapeCasts_S4x64x256_S4x64x256 : S4x64x256.ShapeCasts S4x64x256
  h_S4x128x256 : 0 < S4x128x256.numel
  shapeCasts_S4x128x256_S4x128x256 : S4x128x256.ShapeCasts S4x128x256
  h_S4x256x256 : 0 < S4x256x256.numel
  shapeCasts_S4x256x256_S4x256x256 : S4x256x256.ShapeCasts S4x256x256
  h_S4x512x256 : 0 < S4x512x256.numel
  shapeCasts_S4x512x256_S4x512x256 : S4x512x256.ShapeCasts S4x512x256
  hrank0 : 0 < grid0.rank
  k0_t1_ok : k0_t1_loop.OK
  k0_mult1_dvd : ∀ k0_t1 : Fin k0_t1_loop.trips, 16 ∣ (k0_mult1 k0_t1).toNat
  k0_mult2_dvd : ∀ k0_t1 : Fin k0_t1_loop.trips, 8 ∣ (k0_mult2 k0_t1).toNat
  k0_off1_inb : ∀ k0_t1 : Fin k0_t1_loop.trips, ∀ a, (k0_off1 k0_t1) a + S4x8x256.size a ≤ S4x1024x256.size a
  k0_off2_inb : ∀ k0_t1 : Fin k0_t1_loop.trips, ∀ a, (k0_off2 k0_t1) a + S4x8x256.size a ≤ S4x1024x256.size a
  k0_t2_ok : k0_t2_loop.OK
  k0_mult3_dvd : ∀ k0_t2 : Fin k0_t2_loop.trips, 32 ∣ (k0_mult3 k0_t2).toNat
  k0_mult4_dvd : ∀ k0_t2 : Fin k0_t2_loop.trips, 16 ∣ (k0_mult4 k0_t2).toNat
  k0_off3_inb : ∀ k0_t2 : Fin k0_t2_loop.trips, ∀ a, (k0_off3 k0_t2) a + S4x16x256.size a ≤ S4x1024x256.size a
  k0_off4_inb : ∀ k0_t2 : Fin k0_t2_loop.trips, ∀ a, (k0_off4 k0_t2) a + S4x16x256.size a ≤ S4x1024x256.size a
  k0_t3_ok : k0_t3_loop.OK
  k0_mult5_dvd : ∀ k0_t3 : Fin k0_t3_loop.trips, 64 ∣ (k0_mult5 k0_t3).toNat
  k0_mult6_dvd : ∀ k0_t3 : Fin k0_t3_loop.trips, 32 ∣ (k0_mult6 k0_t3).toNat
  k0_off5_inb : ∀ k0_t3 : Fin k0_t3_loop.trips, ∀ a, (k0_off5 k0_t3) a + S4x32x256.size a ≤ S4x1024x256.size a
  k0_off6_inb : ∀ k0_t3 : Fin k0_t3_loop.trips, ∀ a, (k0_off6 k0_t3) a + S4x32x256.size a ≤ S4x1024x256.size a
  k0_t4_ok : k0_t4_loop.OK
  k0_mult7_dvd : ∀ k0_t4 : Fin k0_t4_loop.trips, 128 ∣ (k0_mult7 k0_t4).toNat
  k0_mult8_dvd : ∀ k0_t4 : Fin k0_t4_loop.trips, 64 ∣ (k0_mult8 k0_t4).toNat
  k0_off7_inb : ∀ k0_t4 : Fin k0_t4_loop.trips, ∀ a, (k0_off7 k0_t4) a + S4x64x256.size a ≤ S4x1024x256.size a
  k0_off8_inb : ∀ k0_t4 : Fin k0_t4_loop.trips, ∀ a, (k0_off8 k0_t4) a + S4x64x256.size a ≤ S4x1024x256.size a
  k0_t5_ok : k0_t5_loop.OK
  k0_mult9_dvd : ∀ k0_t5 : Fin k0_t5_loop.trips, 256 ∣ (k0_mult9 k0_t5).toNat
  k0_mult10_dvd : ∀ k0_t5 : Fin k0_t5_loop.trips, 128 ∣ (k0_mult10 k0_t5).toNat
  k0_off9_inb : ∀ k0_t5 : Fin k0_t5_loop.trips, ∀ a, (k0_off9 k0_t5) a + S4x128x256.size a ≤ S4x1024x256.size a
  k0_off10_inb : ∀ k0_t5 : Fin k0_t5_loop.trips, ∀ a, (k0_off10 k0_t5) a + S4x128x256.size a ≤ S4x1024x256.size a
  k0_t6_ok : k0_t6_loop.OK
  k0_mult11_dvd : ∀ k0_t6 : Fin k0_t6_loop.trips, 512 ∣ (k0_mult11 k0_t6).toNat
  k0_mult12_dvd : ∀ k0_t6 : Fin k0_t6_loop.trips, 256 ∣ (k0_mult12 k0_t6).toNat
  k0_off11_inb : ∀ k0_t6 : Fin k0_t6_loop.trips, ∀ a, (k0_off11 k0_t6) a + S4x256x256.size a ≤ S4x1024x256.size a
  k0_off12_inb : ∀ k0_t6 : Fin k0_t6_loop.trips, ∀ a, (k0_off12 k0_t6) a + S4x256x256.size a ≤ S4x1024x256.size a
  k0_mult13_dvd : 1024 ∣ k0_mult13.toNat
  k0_mult14_dvd : 512 ∣ k0_mult14.toNat
  k0_off13_inb : ∀ a, k0_off13 a + S4x512x256.size a ≤ S4x1024x256.size a
  k0_off14_inb : ∀ a, k0_off14 a + S4x512x256.size a ≤ S4x1024x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x256.size a ≤ S128x1024x256.size a
  hwx0_0 : ∀ i : grid0.Coords, EltTy.bits .f32 = 32 ∨ (Rect.block (s := S128x1024x256) S4x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x256.size a ≤ S128x1024x256.size a
  hwx0_1 : ∀ i : grid0.Coords, EltTy.bits .f32 = 32 ∨ (Rect.block (s := S128x1024x256) S4x1024x256.size (cc0_transform_1 i) (hinb0_1 i)).WholeWords (EltTy.packing .f32)

variable [Facts₀]

abbrev win0_0 : Pipeline.Window sig grid0 :=
  Pipeline.Window.ofSpec (Memref.whole main_arg0) S4x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x1024x256 : Shape := ⟨3, ![128, 1024, 256]⟩
abbrev S128x512x2x1x256 : Shape := ⟨5, ![128, 512, 2, 1, 256]⟩
abbrev S128x512x1x1x256 : Shape := ⟨5, ![128, 512, 1, 1, 256]⟩
abbrev S128x512x1x256 : Shape := ⟨4, ![128, 512, 1, 256]⟩
abbrev S128x256x2x2x256 : Shape := ⟨5, ![128, 256, 2, 2, 256]⟩
abbrev S128x256x1x2x256 : Shape := ⟨5, ![128, 256, 1, 2, 256]⟩
abbrev S128x256x2x256 : Shape := ⟨4, ![128, 256, 2, 256]⟩
abbrev S128x128x2x4x256 : Shape := ⟨5, ![128, 128, 2, 4, 256]⟩
abbrev S128x128x1x4x256 : Shape := ⟨5, ![128, 128, 1, 4, 256]⟩
abbrev S128x128x4x256 : Shape := ⟨4, ![128, 128, 4, 256]⟩
abbrev S128x64x2x8x256 : Shape := ⟨5, ![128, 64, 2, 8, 256]⟩
abbrev S128x64x1x8x256 : Shape := ⟨5, ![128, 64, 1, 8, 256]⟩
abbrev S128x64x8x256 : Shape := ⟨4, ![128, 64, 8, 256]⟩
abbrev S128x32x2x16x256 : Shape := ⟨5, ![128, 32, 2, 16, 256]⟩
abbrev S128x32x1x16x256 : Shape := ⟨5, ![128, 32, 1, 16, 256]⟩
abbrev S128x32x16x256 : Shape := ⟨4, ![128, 32, 16, 256]⟩
abbrev S128x16x2x32x256 : Shape := ⟨5, ![128, 16, 2, 32, 256]⟩
abbrev S128x16x1x32x256 : Shape := ⟨5, ![128, 16, 1, 32, 256]⟩
abbrev S128x16x32x256 : Shape := ⟨4, ![128, 16, 32, 256]⟩
abbrev S128x8x2x64x256 : Shape := ⟨5, ![128, 8, 2, 64, 256]⟩
abbrev S128x8x1x64x256 : Shape := ⟨5, ![128, 8, 1, 64, 256]⟩
abbrev S128x8x64x256 : Shape := ⟨4, ![128, 8, 64, 256]⟩
abbrev S128x4x2x128x256 : Shape := ⟨5, ![128, 4, 2, 128, 256]⟩
abbrev S128x4x1x128x256 : Shape := ⟨5, ![128, 4, 1, 128, 256]⟩
abbrev S128x4x128x256 : Shape := ⟨4, ![128, 4, 128, 256]⟩
abbrev S128x2x2x256x256 : Shape := ⟨5, ![128, 2, 2, 256, 256]⟩
abbrev S128x2x1x256x256 : Shape := ⟨5, ![128, 2, 1, 256, 256]⟩
abbrev S128x2x256x256 : Shape := ⟨4, ![128, 2, 256, 256]⟩
abbrev S128x1x2x512x256 : Shape := ⟨5, ![128, 1, 2, 512, 256]⟩
abbrev S128x1x1x512x256 : Shape := ⟨5, ![128, 1, 1, 512, 256]⟩
abbrev S128x1x512x256 : Shape := ⟨4, ![128, 1, 512, 256]⟩

abbrev nBuf : Space → Nat
  | .hbm => 111
  | .vmem => 0
  | .smem => 0
  | _ => 0

abbrev bufTy : (tb : Table) → Fin (tcTables nBuf tb) → BufTy
  | .hbm, ⟨0, _⟩ => ⟨S128x1024x256, .f32⟩
  | .hbm, ⟨1, _⟩ => ⟨S128x512x2x1x256, .f32⟩
  | .hbm, ⟨2, _⟩ => ⟨S128x512x1x1x256, .f32⟩
  | .hbm, ⟨3, _⟩ => ⟨S128x512x1x256, .f32⟩
  | .hbm, ⟨4, _⟩ => ⟨S128x512x1x1x256, .f32⟩
  | .hbm, ⟨5, _⟩ => ⟨S128x512x1x256, .f32⟩
  | .hbm, ⟨6, _⟩ => ⟨S128x512x1x256, .f32⟩
  | .hbm, ⟨7, _⟩ => ⟨S128x512x1x256, .f32⟩
  | .hbm, ⟨8, _⟩ => ⟨S128x512x1x1x256, .f32⟩
  | .hbm, ⟨9, _⟩ => ⟨S128x512x1x1x256, .f32⟩
  | .hbm, ⟨10, _⟩ => ⟨S128x512x2x1x256, .f32⟩
  | .hbm, ⟨11, _⟩ => ⟨S128x1024x256, .f32⟩
  | .hbm, ⟨12, _⟩ => ⟨S128x256x2x2x256, .f32⟩
  | .hbm, ⟨13, _⟩ => ⟨S128x256x1x2x256, .f32⟩
  | .hbm, ⟨14, _⟩ => ⟨S128x256x2x256, .f32⟩
  | .hbm, ⟨15, _⟩ => ⟨S128x256x1x2x256, .f32⟩
  | .hbm, ⟨16, _⟩ => ⟨S128x256x2x256, .f32⟩
  | .hbm, ⟨17, _⟩ => ⟨S128x256x2x256, .f32⟩
  | .hbm, ⟨18, _⟩ => ⟨S128x256x2x256, .f32⟩
  | .hbm, ⟨19, _⟩ => ⟨S128x256x1x2x256, .f32⟩
  | .hbm, ⟨20, _⟩ => ⟨S128x256x1x2x256, .f32⟩
  | .hbm, ⟨21, _⟩ => ⟨S128x256x2x2x256, .f32⟩
  | .hbm, ⟨22, _⟩ => ⟨S128x1024x256, .f32⟩
  | .hbm, ⟨23, _⟩ => ⟨S128x128x2x4x256, .f32⟩
  | .hbm, ⟨24, _⟩ => ⟨S128x128x1x4x256, .f32⟩
  | .hbm, ⟨25, _⟩ => ⟨S128x128x4x256, .f32⟩
  | .hbm, ⟨26, _⟩ => ⟨S128x128x1x4x256, .f32⟩
  | .hbm, ⟨27, _⟩ => ⟨S128x128x4x256, .f32⟩
  | .hbm, ⟨28, _⟩ => ⟨S128x128x4x256, .f32⟩
  | .hbm, ⟨29, _⟩ => ⟨S128x128x4x256, .f32⟩
  | .hbm, ⟨30, _⟩ => ⟨S128x128x1x4x256, .f32⟩
  | .hbm, ⟨31, _⟩ => ⟨S128x128x1x4x256, .f32⟩
  | .hbm, ⟨32, _⟩ => ⟨S128x128x2x4x256, .f32⟩
  | .hbm, ⟨33, _⟩ => ⟨S128x1024x256, .f32⟩
  | .hbm, ⟨34, _⟩ => ⟨S128x64x2x8x256, .f32⟩
  | .hbm, ⟨35, _⟩ => ⟨S128x64x1x8x256, .f32⟩
  | .hbm, ⟨36, _⟩ => ⟨S128x64x8x256, .f32⟩
  | .hbm, ⟨37, _⟩ => ⟨S128x64x1x8x256, .f32⟩
  | .hbm, ⟨38, _⟩ => ⟨S128x64x8x256, .f32⟩
  | .hbm, ⟨39, _⟩ => ⟨S128x64x8x256, .f32⟩
  | .hbm, ⟨40, _⟩ => ⟨S128x64x8x256, .f32⟩
  | .hbm, ⟨41, _⟩ => ⟨S128x64x1x8x256, .f32⟩
  | .hbm, ⟨42, _⟩ => ⟨S128x64x1x8x256, .f32⟩
  | .hbm, ⟨43, _⟩ => ⟨S128x64x2x8x256, .f32⟩
  | .hbm, ⟨44, _⟩ => ⟨S128x1024x256, .f32⟩
  | .hbm, ⟨45, _⟩ => ⟨S128x32x2x16x256, .f32⟩
  | .hbm, ⟨46, _⟩ => ⟨S128x32x1x16x256, .f32⟩
  | .hbm, ⟨47, _⟩ => ⟨S128x32x16x256, .f32⟩
  | .hbm, ⟨48, _⟩ => ⟨S128x32x1x16x256, .f32⟩
  | .hbm, ⟨49, _⟩ => ⟨S128x32x16x256, .f32⟩
  | .hbm, ⟨50, _⟩ => ⟨S128x32x16x256, .f32⟩
  | .hbm, ⟨51, _⟩ => ⟨S128x32x16x256, .f32⟩
  | .hbm, ⟨52, _⟩ => ⟨S128x32x1x16x256, .f32⟩
  | .hbm, ⟨53, _⟩ => ⟨S128x32x1x16x256, .f32⟩
  | .hbm, ⟨54, _⟩ => ⟨S128x32x2x16x256, .f32⟩
  | .hbm, ⟨55, _⟩ => ⟨S128x1024x256, .f32⟩
  | .hbm, ⟨56, _⟩ => ⟨S128x16x2x32x256, .f32⟩
  | .hbm, ⟨57, _⟩ => ⟨S128x16x1x32x256, .f32⟩
  | .hbm, ⟨58, _⟩ => ⟨S128x16x32x256, .f32⟩
  | .hbm, ⟨59, _⟩ => ⟨S128x16x1x32x256, .f32⟩
  | .hbm, ⟨60, _⟩ => ⟨S128x16x32x256, .f32⟩
  | .hbm, ⟨61, _⟩ => ⟨S128x16x32x256, .f32⟩
  | .hbm, ⟨62, _⟩ => ⟨S128x16x32x256, .f32⟩
  | .hbm, ⟨63, _⟩ => ⟨S128x16x1x32x256, .f32⟩
  | .hbm, ⟨64, _⟩ => ⟨S128x16x1x32x256, .f32⟩
  | .hbm, ⟨65, _⟩ => ⟨S128x16x2x32x256, .f32⟩
  | .hbm, ⟨66, _⟩ => ⟨S128x1024x256, .f32⟩
  | .hbm, ⟨67, _⟩ => ⟨S128x8x2x64x256, .f32⟩
  | .hbm, ⟨68, _⟩ => ⟨S128x8x1x64x256, .f32⟩
  | .hbm, ⟨69, _⟩ => ⟨S128x8x64x256, .f32⟩
  | .hbm, ⟨70, _⟩ => ⟨S128x8x1x64x256, .f32⟩
  | .hbm, ⟨71, _⟩ => ⟨S128x8x64x256, .f32⟩
  | .hbm, ⟨72, _⟩ => ⟨S128x8x64x256, .f32⟩
  | .hbm, ⟨73, _⟩ => ⟨S128x8x64x256, .f32⟩
  | .hbm, ⟨74, _⟩ => ⟨S128x8x1x64x256, .f32⟩
  | .hbm, ⟨75, _⟩ => ⟨S128x8x1x64x256, .f32⟩
  | .hbm, ⟨76, _⟩ => ⟨S128x8x2x64x256, .f32⟩
  | .hbm, ⟨77, _⟩ => ⟨S128x1024x256, .f32⟩
  | .hbm, ⟨78, _⟩ => ⟨S128x4x2x128x256, .f32⟩
  | .hbm, ⟨79, _⟩ => ⟨S128x4x1x128x256, .f32⟩
  | .hbm, ⟨80, _⟩ => ⟨S128x4x128x256, .f32⟩
  | .hbm, ⟨81, _⟩ => ⟨S128x4x1x128x256, .f32⟩
  | .hbm, ⟨82, _⟩ => ⟨S128x4x128x256, .f32⟩
  | .hbm, ⟨83, _⟩ => ⟨S128x4x128x256, .f32⟩
  | .hbm, ⟨84, _⟩ => ⟨S128x4x128x256, .f32⟩
  | .hbm, ⟨85, _⟩ => ⟨S128x4x1x128x256, .f32⟩
  | .hbm, ⟨86, _⟩ => ⟨S128x4x1x128x256, .f32⟩
  | .hbm, ⟨87, _⟩ => ⟨S128x4x2x128x256, .f32⟩
  | .hbm, ⟨88, _⟩ => ⟨S128x1024x256, .f32⟩
  | .hbm, ⟨89, _⟩ => ⟨S128x2x2x256x256, .f32⟩
  | .hbm, ⟨90, _⟩ => ⟨S128x2x1x256x256, .f32⟩
  | .hbm, ⟨91, _⟩ => ⟨S128x2x256x256, .f32⟩
  | .hbm, ⟨92, _⟩ => ⟨S128x2x1x256x256, .f32⟩
  | .hbm, ⟨93, _⟩ => ⟨S128x2x256x256, .f32⟩
  | .hbm, ⟨94, _⟩ => ⟨S128x2x256x256, .f32⟩
  | .hbm, ⟨95, _⟩ => ⟨S128x2x256x256, .f32⟩
  | .hbm, ⟨96, _⟩ => ⟨S128x2x1x256x256, .f32⟩
  | .hbm, ⟨97, _⟩ => ⟨S128x2x1x256x256, .f32⟩
  | .hbm, ⟨98, _⟩ => ⟨S128x2x2x256x256, .f32⟩
  | .hbm, ⟨99, _⟩ => ⟨S128x1024x256, .f32⟩
  | .hbm, ⟨100, _⟩ => ⟨S128x1x2x512x256, .f32⟩
  | .hbm, ⟨101, _⟩ => ⟨S128x1x1x512x256, .f32⟩
  | .hbm, ⟨102, _⟩ => ⟨S128x1x512x256, .f32⟩
  | .hbm, ⟨103, _⟩ => ⟨S128x1x1x512x256, .f32⟩
  | .hbm, ⟨104, _⟩ => ⟨S128x1x512x256, .f32⟩
  | .hbm, ⟨105, _⟩ => ⟨S128x1x512x256, .f32⟩
  | .hbm, ⟨106, _⟩ => ⟨S128x1x512x256, .f32⟩
  | .hbm, ⟨107, _⟩ => ⟨S128x1x1x512x256, .f32⟩
  | .hbm, ⟨108, _⟩ => ⟨S128x1x1x512x256, .f32⟩
  | .hbm, ⟨109, _⟩ => ⟨S128x1x2x512x256, .f32⟩
  | .hbm, ⟨110, _⟩ => ⟨S128x1024x256, .f32⟩
  | _, _ => ⟨S128x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v90 : Ref sig .tc := ⟨.hbm, 91, rfl⟩
abbrev main_v91 : Ref sig .tc := ⟨.hbm, 92, rfl⟩
abbrev main_v92 : Ref sig .tc := ⟨.hbm, 93, rfl⟩
abbrev main_v93 : Ref sig .tc := ⟨.hbm, 94, rfl⟩
abbrev main_v94 : Ref sig .tc := ⟨.hbm, 95, rfl⟩
abbrev main_v95 : Ref sig .tc := ⟨.hbm, 96, rfl⟩
abbrev main_v96 : Ref sig .tc := ⟨.hbm, 97, rfl⟩
abbrev main_v97 : Ref sig .tc := ⟨.hbm, 98, rfl⟩
abbrev main_v98 : Ref sig .tc := ⟨.hbm, 99, rfl⟩
abbrev main_v99 : Ref sig .tc := ⟨.hbm, 100, rfl⟩
abbrev main_v100 : Ref sig .tc := ⟨.hbm, 101, rfl⟩
abbrev main_v101 : Ref sig .tc := ⟨.hbm, 102, rfl⟩
abbrev main_v102 : Ref sig .tc := ⟨.hbm, 103, rfl⟩
abbrev main_v103 : Ref sig .tc := ⟨.hbm, 104, rfl⟩
abbrev main_v104 : Ref sig .tc := ⟨.hbm, 105, rfl⟩
abbrev main_v105 : Ref sig .tc := ⟨.hbm, 106, rfl⟩
abbrev main_v106 : Ref sig .tc := ⟨.hbm, 107, rfl⟩
abbrev main_v107 : Ref sig .tc := ⟨.hbm, 108, rfl⟩
abbrev main_v108 : Ref sig .tc := ⟨.hbm, 109, rfl⟩
abbrev main_v109 : Ref sig .tc := ⟨.hbm, 110, rfl⟩

abbrev nD : Nat := 1
abbrev τ : Topo := Topo.v7x

variable {F : FTy → Type} [FloatOps F]

class Facts₀ : Prop where
  shapeCasts_S128x1024x256_S128x512x2x1x256 : S128x1024x256.ShapeCasts S128x512x2x1x256
  slices_S128x512x2x1x256_S128x512x1x1x256_0_0_0_0_0 : S128x512x2x1x256.Slices ![0, 0, 0, 0, 0] S128x512x1x1x256
  shapeCasts_S128x512x1x1x256_S128x512x1x256 : S128x512x1x1x256.ShapeCasts S128x512x1x256
  slices_S128x512x2x1x256_S128x512x1x1x256_0_0_1_0_0 : S128x512x2x1x256.Slices ![0, 0, 1, 0, 0] S128x512x1x1x256
  bcast_S128x512x1x256_S128x512x1x1x256_0_1_3_4 : S128x512x1x256.BroadcastsInDim S128x512x1x1x256 (![0, 1, 3, 4] : Fin 4 → Fin S128x512x1x1x256.rank)
  concatenates_S128x512x1x1x256_S128x512x1x1x256_S128x512x2x1x256_d2 : Shape.Concatenates [S128x512x1x1x256, S128x512x1x1x256] S128x512x2x1x256 2
  shapeCasts_S128x512x2x1x256_S128x1024x256 : S128x512x2x1x256.ShapeCasts S128x1024x256
  shapeCasts_S128x1024x256_S128x256x2x2x256 : S128x1024x256.ShapeCasts S128x256x2x2x256
  slices_S128x256x2x2x256_S128x256x1x2x256_0_0_0_0_0 : S128x256x2x2x256.Slices ![0, 0, 0, 0, 0] S128x256x1x2x256
  shapeCasts_S128x256x1x2x256_S128x256x2x256 : S128x256x1x2x256.ShapeCasts S128x256x2x256
  slices_S128x256x2x2x256_S128x256x1x2x256_0_0_1_0_0 : S128x256x2x2x256.Slices ![0, 0, 1, 0, 0] S128x256x1x2x256
  bcast_S128x256x2x256_S128x256x1x2x256_0_1_3_4 : S128x256x2x256.BroadcastsInDim S128x256x1x2x256 (![0, 1, 3, 4] : Fin 4 → Fin S128x256x1x2x256.rank)
  concatenates_S128x256x1x2x256_S128x256x1x2x256_S128x256x2x2x256_d2 : Shape.Concatenates [S128x256x1x2x256, S128x256x1x2x256] S128x256x2x2x256 2
  shapeCasts_S128x256x2x2x256_S128x1024x256 : S128x256x2x2x256.ShapeCasts S128x1024x256
  shapeCasts_S128x1024x256_S128x128x2x4x256 : S128x1024x256.ShapeCasts S128x128x2x4x256
  slices_S128x128x2x4x256_S128x128x1x4x256_0_0_0_0_0 : S128x128x2x4x256.Slices ![0, 0, 0, 0, 0] S128x128x1x4x256
  shapeCasts_S128x128x1x4x256_S128x128x4x256 : S128x128x1x4x256.ShapeCasts S128x128x4x256
  slices_S128x128x2x4x256_S128x128x1x4x256_0_0_1_0_0 : S128x128x2x4x256.Slices ![0, 0, 1, 0, 0] S128x128x1x4x256
  bcast_S128x128x4x256_S128x128x1x4x256_0_1_3_4 : S128x128x4x256.BroadcastsInDim S128x128x1x4x256 (![0, 1, 3, 4] : Fin 4 → Fin S128x128x1x4x256.rank)
  concatenates_S128x128x1x4x256_S128x128x1x4x256_S128x128x2x4x256_d2 : Shape.Concatenates [S128x128x1x4x256, S128x128x1x4x256] S128x128x2x4x256 2
  shapeCasts_S128x128x2x4x256_S128x1024x256 : S128x128x2x4x256.ShapeCasts S128x1024x256
  shapeCasts_S128x1024x256_S128x64x2x8x256 : S128x1024x256.ShapeCasts S128x64x2x8x256
  slices_S128x64x2x8x256_S128x64x1x8x256_0_0_0_0_0 : S128x64x2x8x256.Slices ![0, 0, 0, 0, 0] S128x64x1x8x256
  shapeCasts_S128x64x1x8x256_S128x64x8x256 : S128x64x1x8x256.ShapeCasts S128x64x8x256
  slices_S128x64x2x8x256_S128x64x1x8x256_0_0_1_0_0 : S128x64x2x8x256.Slices ![0, 0, 1, 0, 0] S128x64x1x8x256
  bcast_S128x64x8x256_S128x64x1x8x256_0_1_3_4 : S128x64x8x256.BroadcastsInDim S128x64x1x8x256 (![0, 1, 3, 4] : Fin 4 → Fin S128x64x1x8x256.rank)
  concatenates_S128x64x1x8x256_S128x64x1x8x256_S128x64x2x8x256_d2 : Shape.Concatenates [S128x64x1x8x256, S128x64x1x8x256] S128x64x2x8x256 2
  shapeCasts_S128x64x2x8x256_S128x1024x256 : S128x64x2x8x256.ShapeCasts S128x1024x256
  shapeCasts_S128x1024x256_S128x32x2x16x256 : S128x1024x256.ShapeCasts S128x32x2x16x256
  slices_S128x32x2x16x256_S128x32x1x16x256_0_0_0_0_0 : S128x32x2x16x256.Slices ![0, 0, 0, 0, 0] S128x32x1x16x256
  shapeCasts_S128x32x1x16x256_S128x32x16x256 : S128x32x1x16x256.ShapeCasts S128x32x16x256
  slices_S128x32x2x16x256_S128x32x1x16x256_0_0_1_0_0 : S128x32x2x16x256.Slices ![0, 0, 1, 0, 0] S128x32x1x16x256
  bcast_S128x32x16x256_S128x32x1x16x256_0_1_3_4 : S128x32x16x256.BroadcastsInDim S128x32x1x16x256 (![0, 1, 3, 4] : Fin 4 → Fin S128x32x1x16x256.rank)
  concatenates_S128x32x1x16x256_S128x32x1x16x256_S128x32x2x16x256_d2 : Shape.Concatenates [S128x32x1x16x256, S128x32x1x16x256] S128x32x2x16x256 2
  shapeCasts_S128x32x2x16x256_S128x1024x256 : S128x32x2x16x256.ShapeCasts S128x1024x256
  shapeCasts_S128x1024x256_S128x16x2x32x256 : S128x1024x256.ShapeCasts S128x16x2x32x256
  slices_S128x16x2x32x256_S128x16x1x32x256_0_0_0_0_0 : S128x16x2x32x256.Slices ![0, 0, 0, 0, 0] S128x16x1x32x256
  shapeCasts_S128x16x1x32x256_S128x16x32x256 : S128x16x1x32x256.ShapeCasts S128x16x32x256
  slices_S128x16x2x32x256_S128x16x1x32x256_0_0_1_0_0 : S128x16x2x32x256.Slices ![0, 0, 1, 0, 0] S128x16x1x32x256
  bcast_S128x16x32x256_S128x16x1x32x256_0_1_3_4 : S128x16x32x256.BroadcastsInDim S128x16x1x32x256 (![0, 1, 3, 4] : Fin 4 → Fin S128x16x1x32x256.rank)
  concatenates_S128x16x1x32x256_S128x16x1x32x256_S128x16x2x32x256_d2 : Shape.Concatenates [S128x16x1x32x256, S128x16x1x32x256] S128x16x2x32x256 2
  shapeCasts_S128x16x2x32x256_S128x1024x256 : S128x16x2x32x256.ShapeCasts S128x1024x256
  shapeCasts_S128x1024x256_S128x8x2x64x256 : S128x1024x256.ShapeCasts S128x8x2x64x256
  slices_S128x8x2x64x256_S128x8x1x64x256_0_0_0_0_0 : S128x8x2x64x256.Slices ![0, 0, 0, 0, 0] S128x8x1x64x256
  shapeCasts_S128x8x1x64x256_S128x8x64x256 : S128x8x1x64x256.ShapeCasts S128x8x64x256
  slices_S128x8x2x64x256_S128x8x1x64x256_0_0_1_0_0 : S128x8x2x64x256.Slices ![0, 0, 1, 0, 0] S128x8x1x64x256
  bcast_S128x8x64x256_S128x8x1x64x256_0_1_3_4 : S128x8x64x256.BroadcastsInDim S128x8x1x64x256 (![0, 1, 3, 4] : Fin 4 → Fin S128x8x1x64x256.rank)
  concatenates_S128x8x1x64x256_S128x8x1x64x256_S128x8x2x64x256_d2 : Shape.Concatenates [S128x8x1x64x256, S128x8x1x64x256] S128x8x2x64x256 2
  shapeCasts_S128x8x2x64x256_S128x1024x256 : S128x8x2x64x256.ShapeCasts S128x1024x256
  shapeCasts_S128x1024x256_S128x4x2x128x256 : S128x1024x256.ShapeCasts S128x4x2x128x256
  slices_S128x4x2x128x256_S128x4x1x128x256_0_0_0_0_0 : S128x4x2x128x256.Slices ![0, 0, 0, 0, 0] S128x4x1x128x256
  shapeCasts_S128x4x1x128x256_S128x4x128x256 : S128x4x1x128x256.ShapeCasts S128x4x128x256
  slices_S128x4x2x128x256_S128x4x1x128x256_0_0_1_0_0 : S128x4x2x128x256.Slices ![0, 0, 1, 0, 0] S128x4x1x128x256
  bcast_S128x4x128x256_S128x4x1x128x256_0_1_3_4 : S128x4x128x256.BroadcastsInDim S128x4x1x128x256 (![0, 1, 3, 4] : Fin 4 → Fin S128x4x1x128x256.rank)
  concatenates_S128x4x1x128x256_S128x4x1x128x256_S128x4x2x128x256_d2 : Shape.Concatenates [S128x4x1x128x256, S128x4x1x128x256] S128x4x2x128x256 2
  shapeCasts_S128x4x2x128x256_S128x1024x256 : S128x4x2x128x256.ShapeCasts S128x1024x256
  shapeCasts_S128x1024x256_S128x2x2x256x256 : S128x1024x256.ShapeCasts S128x2x2x256x256
  slices_S128x2x2x256x256_S128x2x1x256x256_0_0_0_0_0 : S128x2x2x256x256.Slices ![0, 0, 0, 0, 0] S128x2x1x256x256
  shapeCasts_S128x2x1x256x256_S128x2x256x256 : S128x2x1x256x256.ShapeCasts S128x2x256x256
  slices_S128x2x2x256x256_S128x2x1x256x256_0_0_1_0_0 : S128x2x2x256x256.Slices ![0, 0, 1, 0, 0] S128x2x1x256x256
  bcast_S128x2x256x256_S128x2x1x256x256_0_1_3_4 : S128x2x256x256.BroadcastsInDim S128x2x1x256x256 (![0, 1, 3, 4] : Fin 4 → Fin S128x2x1x256x256.rank)
  concatenates_S128x2x1x256x256_S128x2x1x256x256_S128x2x2x256x256_d2 : Shape.Concatenates [S128x2x1x256x256, S128x2x1x256x256] S128x2x2x256x256 2
  shapeCasts_S128x2x2x256x256_S128x1024x256 : S128x2x2x256x256.ShapeCasts S128x1024x256
  shapeCasts_S128x1024x256_S128x1x2x512x256 : S128x1024x256.ShapeCasts S128x1x2x512x256
  slices_S128x1x2x512x256_S128x1x1x512x256_0_0_0_0_0 : S128x1x2x512x256.Slices ![0, 0, 0, 0, 0] S128x1x1x512x256
  shapeCasts_S128x1x1x512x256_S128x1x512x256 : S128x1x1x512x256.ShapeCasts S128x1x512x256
  slices_S128x1x2x512x256_S128x1x1x512x256_0_0_1_0_0 : S128x1x2x512x256.Slices ![0, 0, 1, 0, 0] S128x1x1x512x256
  bcast_S128x1x512x256_S128x1x1x512x256_0_1_3_4 : S128x1x512x256.BroadcastsInDim S128x1x1x512x256 (![0, 1, 3, 4] : Fin 4 → Fin S128x1x1x512x256.rank)
  concatenates_S128x1x1x512x256_S128x1x1x512x256_S128x1x2x512x256_d2 : Shape.Concatenates [S128x1x1x512x256, S128x1x1x512x256] S128x1x2x512x256 2
  shapeCasts_S128x1x2x512x256_S128x1024x256 : S128x1x2x512x256.ShapeCasts S128x1024x256

variable [Facts₀]

class Facts : Prop extends Facts₀ where

variable [Facts]
-- ==== Proof.Spec.lean ====
/-
  The unnormalised Walsh–Hadamard transform along axis 1 of an array of shape [B, 1024, 256] over the extended reals,
  written as its ten butterfly stages. Stage `h` (h = 1, 2, 4, …, 512) pairs row `r` with row `r + h` inside each
  group of `2 h` consecutive rows: the lower row of a pair receives the sum, the upper row the difference
  (lower minus upper). Rows are grouped by `r / (2 h)`, and a row is the lower one of its pair exactly when
  `(r / h) % 2 = 0`. Axes 0 and 2 are carried along unchanged, so a stage commutes with every re-indexing that keeps
  the row and acts on the other two axes only — in particular with taking a block of consecutive slabs along axis 0.

  A stage can be performed one group at a time: doing group `k` after groups `0 … k-1` gives groups `0 … k`, because
  a pair never leaves its group. `stageUpTo h k` is the stage done on the groups below `k`; it is the identity at
  `k = 0` and the whole stage once `k` passes the last group.
-/
import Idealize.ShloMosaic.PureOps.Ideal
import Idealize.ShloMosaic.Lib.ValueIdx

noncomputable section

namespace Cert.Fwht

open Idealize.ShloMosaic Idealize.ShloMosaic.ValueIdx

/-- The shape [B, 1024, 256]. -/
abbrev Sh (B : ℕ) : Shape := ⟨3, ![B, 1024, 256]⟩

/-- The index with the coordinates of `i` on axes 0 and 2 and row `r` (taken modulo 1024, so that it is total). -/
def atRow {B : ℕ} (i : (Sh B).Idx) (r : ℕ) : (Sh B).Idx :=
  ix3 (n0 := B) (n1 := 1024) (n2 := 256) (i 0) ⟨r % 1024, Nat.mod_lt _ (by norm_num)⟩ (i 2)

theorem atRow_row {B : ℕ} (i : (Sh B).Idx) (r : ℕ) : ((atRow i r) 1).val = r % 1024 := rfl

theorem atRow_atRow {B : ℕ} (i : (Sh B).Idx) (r r' : ℕ) : atRow (atRow i r) r' = atRow i r' := rfl

/-- An index is itself at its own row. -/
theorem atRow_self {B : ℕ} (i : (Sh B).Idx) : atRow i (i 1).val = i := by
  funext a
  match a with
  | ⟨0, _⟩ => rfl
  | ⟨1, _⟩ => exact Fin.ext (Nat.mod_eq_of_lt (i 1).isLt)
  | ⟨2, _⟩ => rfl

/-- ONE BUTTERFLY STAGE of half-width `h`: the lower row of each pair gets lower + upper, the upper row lower − upper. -/
def stage {B : ℕ} (h : ℕ) (v : (Sh B).Idx → EReal) : (Sh B).Idx → EReal := fun i =>
  if ((i 1).val / h) % 2 = 0 then v i + v (atRow i ((i 1).val + h)) else v (atRow i ((i 1).val - h)) - v i

/-- The stage done only on the groups of `2 h` rows below group `k`. -/
def stageUpTo {B : ℕ} (h k : ℕ) (v : (Sh B).Idx → EReal) : (Sh B).Idx → EReal := fun i =>
  if (i 1).val / (2 * h) < k then stage h v i else v i

/-- The stage done only on group `k`. -/
def stageAt {B : ℕ} (h k : ℕ) (v : (Sh B).Idx → EReal) : (Sh B).Idx → EReal := fun i =>
  if (i 1).val / (2 * h) = k then stage h v i else v i

/-- The transform: the ten stages, narrowest first. -/
def fwht {B : ℕ} (v : (Sh B).Idx → EReal) : (Sh B).Idx → EReal :=
  stage 512 (stage 256 (stage 128 (stage 64 (stage 32 (stage 16 (stage 8 (stage 4 (stage 2 (stage 1 v)))))))))

/-- What the row arithmetic of a half-width must provide: the partner of a row is a row of the array, in the same group. -/
structure Half (h : ℕ) : Prop where
  up : ∀ r, r < 1024 → (r / h) % 2 = 0 → (r + h) % 1024 = r + h ∧ (r + h) / (2 * h) = r / (2 * h)
  down : ∀ r, r < 1024 → ¬ (r / h) % 2 = 0 → (r - h) % 1024 = r - h ∧ (r - h) / (2 * h) = r / (2 * h)

theorem half_1 : Half 1 := ⟨fun r hr he => by omega, fun r hr he => by omega⟩
theorem half_2 : Half 2 := ⟨fun r hr he => by omega, fun r hr he => by omega⟩
theorem half_4 : Half 4 := ⟨fun r hr he => by omega, fun r hr he => by omega⟩
theorem half_8 : Half 8 := ⟨fun r hr he => by omega, fun r hr he => by omega⟩
theorem half_16 : Half 16 := ⟨fun r hr he => by omega, fun r hr he => by omega⟩
theorem half_32 : Half 32 := ⟨fun r hr he => by omega, fun r hr he => by omega⟩
theorem half_64 : Half 64 := ⟨fun r hr he => by omega, fun r hr he => by omega⟩
theorem half_128 : Half 128 := ⟨fun r hr he => by omega, fun r hr he => by omega⟩
theorem half_256 : Half 256 := ⟨fun r hr he => by omega, fun r hr he => by omega⟩
theorem half_512 : Half 512 := ⟨fun r hr he => by omega, fun r hr he => by omega⟩

theorem stageUpTo_zero {B : ℕ} (h : ℕ) (v : (Sh B).Idx → EReal) : stageUpTo h 0 v = v := by
  funext i; unfold stageUpTo; rw [if_neg (Nat.not_lt_zero _)]

/-- Past the last group the partial stage is the stage. -/
theorem stageUpTo_all {B : ℕ} (h T : ℕ) (hT : ∀ r, r < 1024 → r / (2 * h) < T) (v : (Sh B).Idx → EReal) :
    stageUpTo h T v = stage h v := by
  funext i; unfold stageUpTo; rw [if_pos (hT _ (i 1).isLt)]

/-- Doing group `k` after the groups below it gives the groups up to `k`: a pair stays inside its group, so group
    `k` still holds the input when its turn comes. -/
theorem stageAt_stageUpTo {B : ℕ} {h : ℕ} (hh : Half h) (k : ℕ) (v : (Sh B).Idx → EReal) :
    stageAt h k (stageUpTo h k v) = stageUpTo h (k + 1) v := by
  funext i
  have hr : (i 1).val < 1024 := (i 1).isLt
  unfold stageAt
  by_cases hk : (i 1).val / (2 * h) = k
  · rw [if_pos hk]
    have e1 : stageUpTo h (k + 1) v i = stage h v i := by
      unfold stageUpTo; rw [if_pos (by omega)]
    rw [e1]
    have own : stageUpTo h k v i = v i := by
      unfold stageUpTo; rw [if_neg (by omega)]
    unfold stage
    by_cases he : ((i 1).val / h) % 2 = 0
    · rw [if_pos he, if_pos he, own]
      obtain ⟨m1, m2⟩ := hh.up _ hr he
      have : stageUpTo h k v (atRow i ((i 1).val + h)) = v (atRow i ((i 1).val + h)) := by
        unfold stageUpTo; rw [atRow_row, m1, m2, if_neg (by omega)]
      rw [this]
    · rw [if_neg he, if_neg he, own]
      obtain ⟨m1, m2⟩ := hh.down _ hr he
      have : stageUpTo h k v (atRow i ((i 1).val - h)) = v (atRow i ((i 1).val - h)) := by
        unfold stageUpTo; rw [atRow_row, m1, m2, if_neg (by omega)]
      rw [this]
  · rw [if_neg hk]
    unfold stageUpTo
    by_cases hlt : (i 1).val / (2 * h) < k
    · rw [if_pos hlt, if_pos (by omega)]
    · rw [if_neg hlt, if_neg (by omega)]

/-- A stage commutes with a re-indexing that keeps the row and moves with `atRow`. -/
theorem stage_reindex {B B' : ℕ} (h : ℕ) (X : (Sh B').Idx → EReal) (e : (Sh B).Idx → (Sh B').Idx)
    (he1 : ∀ y, ((e y) 1).val = (y 1).val) (he : ∀ y r, e (atRow y r) = atRow (e y) r) :
    stage h (fun y => X (e y)) = fun y => stage h X (e y) := by
  funext y
  unfold stage
  simp only [he1, he]

/-- So does the whole transform. -/
theorem fwht_reindex {B B' : ℕ} (X : (Sh B').Idx → EReal) (e : (Sh B).Idx → (Sh B').Idx)
    (he1 : ∀ y, ((e y) 1).val = (y 1).val) (he : ∀ y r, e (atRow y r) = atRow (e y) r) :
    fwht (fun y => X (e y)) = fun y => fwht X (e y) := by
  unfold fwht
  rw [stage_reindex 1 X e he1 he, stage_reindex 2 _ e he1 he, stage_reindex 4 _ e he1 he, stage_reindex 8 _ e he1 he,
    stage_reindex 16 _ e he1 he, stage_reindex 32 _ e he1 he, stage_reindex 64 _ e he1 he, stage_reindex 128 _ e he1 he,
    stage_reindex 256 _ e he1 he, stage_reindex 512 _ e he1 he]

end Cert.Fwht

end
-- ==== Proof.Fused.lean ====
/-
  The kernel's first pass does the three narrowest butterfly stages at once: it regroups the 1024 rows as 128 groups
  of 8, takes the eight rows of a group apart, combines them by the radix-2 recursion of half-widths 1, 2 and 4, and
  puts the eight results back in order. Row by row this is stage 4 after stage 2 after stage 1.

  Write a row as r = 8 g + c with c < 8. Three facts are put together.
  (1) Slab c of the regrouped input, read at (b, g, d), is the input at (b, 8 g + c, d): both positions are the same
      place ((b * 128 + g) * 8 + c) * 256 + d in row-major order.
  (2) The regrouped output, read at row 8 g + c, is the c-th of the eight pieces laid side by side, read at (b, g, d).
  (3) A stage of half-width h ∈ {1, 2, 4} never leaves a group of 8 rows: at row 8 g + c it adds row 8 g + (c + h)
      when (c / h) % 2 = 0 and subtracts from row 8 g + (c - h) otherwise.
  For each of the eight values of c the two sides are then the same tree of sums and differences of the eight rows
  8 g, …, 8 g + 7 of the input, term for term.
-/
import proofs.«174154_j901943132182_2_alg».proof.Proof.Spec
import proofs.«174154_j901943132182_2_alg».proof.Proof.Gen.KernelIdeal.Skeleton
import Idealize.ShloMosaic.Lib.Pipeline.Value
import Idealize.ShloMosaic.Lib.ValueIdx

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.Fwht (Sh atRow stage atRow_row atRow_atRow atRow_self)

/-! ## (1) A slab of the regrouped input -/

/-- Slab c of the input regrouped as 128 groups of 8 rows, read at (b, g, d), is the input at row 8 g + c. -/
theorem slab_apply (x0 : Vec Ideal S4x1024x256 .f32) (c : ℕ)
    (hS : S4x128x8x256.Slices ![0, 0, c, 0] S4x128x1x256) (i : (Sh 4).Idx) (g : ℕ) (hg : g < 128) :
    shapeCast S4x128x256
        (extractStridedSlice S4x128x1x256 ![0, 0, c, 0]
          (shapeCast S4x128x8x256 x0 shapeCasts_S4x1024x256_S4x128x8x256) hS)
        shapeCasts_S4x128x1x256_S4x128x256 (ix3 (n0 := 4) (n1 := 128) (n2 := 256) (i 0) ⟨g, hg⟩ (i 2))
      = x0 (atRow i (8 * g + c)) := by
  have hc : c < 8 := by
    have h := hS.2 ⟨2, by decide⟩
    change c + 1 ≤ 8 at h
    omega
  have h0 : (i 0).val < 4 := (i 0).isLt
  have h2 : (i 2).val < 256 := (i 2).isLt
  -- dropping the unit axis keeps the row-major position
  refine (shapeCast_apply _ _ _
    (ix4 (n0 := 4) (n1 := 128) (n2 := 1) (n3 := 256) (i 0) ⟨g, hg⟩ ⟨0, Nat.one_pos⟩ (i 2)) ?_).trans ?_
  · rw [Shape.rowMajor_val_four, Shape.rowMajor_val_three]
    show (((i 0).val * 128 + g) * 1 + 0) * 256 + (i 2).val = ((i 0).val * 128 + g) * 256 + (i 2).val
    omega
  -- the slice shifts the coordinate within the group by c
  refine (extractStridedSlice_apply _ _ hS _
    (ix4 (n0 := 4) (n1 := 128) (n2 := 8) (n3 := 256) (i 0) ⟨g, hg⟩ ⟨c, hc⟩ (i 2)) ?_).trans ?_
  · intro a
    match a with
    | ⟨0, _⟩ => show (i 0).val = 0 + (i 0).val; omega
    | ⟨1, _⟩ => show g = 0 + g; omega
    | ⟨2, _⟩ => show c = c + 0; omega
    | ⟨3, _⟩ => show (i 2).val = 0 + (i 2).val; omega
  -- group g, place c is row 8 g + c
  refine shapeCast_apply _ _ _ (atRow i (8 * g + c)) ?_
  rw [Shape.rowMajor_val_three, Shape.rowMajor_val_four]
  show ((i 0).val * 1024 + (8 * g + c) % 1024) * 256 + (i 2).val
    = (((i 0).val * 128 + g) * 8 + c) * 256 + (i 2).val
  omega

/-! ## (2) The regrouped output at a row -/

/-- Eight pieces of one row per group laid side by side and regrouped as 1024 rows: row 8 g + k reads piece k
    at (b, g, d). -/
theorem out_apply (xs : List ((s : Shape) × (s.Idx → Ideal .f32)))
    (hcat : Shape.Concatenates (xs.map (·.1)) S4x128x8x256 2) (k : ℕ) (hk8 : k < 8) (hk : k < xs.length)
    (p : FVec Ideal S4x128x256 .f32)
    (hxk : xs[k] = ⟨S4x128x1x256, shapeCast S4x128x1x256 p shapeCasts_S4x128x256_S4x128x1x256⟩)
    (hpre : (((xs.take k).map (·.1)).map fun s =>
      if h : s.rank = S4x128x8x256.rank then s.size ((2 : Fin S4x128x8x256.rank).cast h.symm) else 0).sum = k)
    (i : (Sh 4).Idx) (g : ℕ) (hg : g < 128) :
    shapeCast S4x1024x256 (concatenate S4x128x8x256 2 xs hcat) shapeCasts_S4x128x8x256_S4x1024x256
        (atRow i (8 * g + k))
      = p (ix3 (n0 := 4) (n1 := 128) (n2 := 256) (i 0) ⟨g, hg⟩ (i 2)) := by
  have h0 : (i 0).val < 4 := (i 0).isLt
  have h2 : (i 2).val < 256 := (i 2).isLt
  refine (shapeCast_apply _ _ _
    (ix4 (n0 := 4) (n1 := 128) (n2 := 8) (n3 := 256) (i 0) ⟨g, hg⟩ ⟨k, hk8⟩ (i 2)) ?_).trans ?_
  · rw [Shape.rowMajor_val_four, Shape.rowMajor_val_three]
    show (((i 0).val * 128 + g) * 8 + k) * 256 + (i 2).val
      = ((i 0).val * 1024 + (8 * g + k) % 1024) * 256 + (i 2).val
    omega
  refine (concatenate_apply_piece 2 xs hcat _ k hk S4x128x1x256 _ hxk rfl k hpre
    (ix4 (n0 := 4) (n1 := 128) (n2 := 1) (n3 := 256) (i 0) ⟨g, hg⟩ ⟨0, Nat.one_pos⟩ (i 2)) ?_ ?_).trans ?_
  · intro b hb
    match b with
    | ⟨0, _⟩ => rfl
    | ⟨1, _⟩ => rfl
    | ⟨2, _⟩ => exact absurd rfl hb
    | ⟨3, _⟩ => rfl
  · show k + 0 = k
    omega
  refine shapeCast_apply _ _ _ _ ?_
  rw [Shape.rowMajor_val_three, Shape.rowMajor_val_four]
  show ((i 0).val * 128 + g) * 256 + (i 2).val = (((i 0).val * 128 + g) * 1 + 0) * 256 + (i 2).val
  omega

/-! ## (3) A narrow stage inside a group of eight rows -/

/-- At the lower row of a pair a stage adds the partner h rows further on. -/
theorem stage_lower (h : ℕ) (v : (Sh 4).Idx → EReal) (i : (Sh 4).Idx) (r : ℕ) (hr : r + h < 1024)
    (hlo : (r / h) % 2 = 0) : stage h v (atRow i r) = v (atRow i r) + v (atRow i (r + h)) := by
  unfold stage
  rw [atRow_row, Nat.mod_eq_of_lt (by omega : r < 1024), if_pos hlo, atRow_atRow]

/-- At the upper row of a pair a stage subtracts from the partner h rows back. -/
theorem stage_upper (h : ℕ) (v : (Sh 4).Idx → EReal) (i : (Sh 4).Idx) (r : ℕ) (hr : r < 1024)
    (hhi : ¬ (r / h) % 2 = 0) : stage h v (atRow i r) = v (atRow i (r - h)) - v (atRow i r) := by
  unfold stage
  rw [atRow_row, Nat.mod_eq_of_lt hr, if_neg hhi, atRow_atRow]

/-- A stage of half-width 1, 2 or 4 at place c of group g: the partner is at place c + h or c - h of the
    same group. -/
theorem stage_group (h : ℕ) (hh : h = 1 ∨ h = 2 ∨ h = 4) (v : (Sh 4).Idx → EReal) (i : (Sh 4).Idx) (g : ℕ)
    (hg : g < 128) (c : ℕ) (hc : c < 8) :
    stage h v (atRow i (8 * g + c))
      = if (c / h) % 2 = 0 then v (atRow i (8 * g + c)) + v (atRow i (8 * g + (c + h)))
        else v (atRow i (8 * g + (c - h))) - v (atRow i (8 * g + c)) := by
  by_cases hlo : (c / h) % 2 = 0
  · rw [if_pos hlo, stage_lower h v i (8 * g + c) (by rcases hh with rfl | rfl | rfl <;> omega)
      (by rcases hh with rfl | rfl | rfl <;> omega), Nat.add_assoc]
  · have hle : h ≤ c := by rcases hh with rfl | rfl | rfl <;> omega
    rw [if_neg hlo, stage_upper h v i (8 * g + c) (by omega)
      (by rcases hh with rfl | rfl | rfl <;> omega), Nat.add_sub_assoc hle]

/-! ## The three stages at once -/

theorem pay2_eq (x0 : Vec Ideal S4x1024x256 .f32) :
    k0_pay2 (F := Ideal) x0 = Cert.Fwht.stage 4 (Cert.Fwht.stage 2 (Cert.Fwht.stage 1 x0)) := by
  funext j
  have hr : (j 1).val < 1024 := (j 1).isLt
  obtain ⟨g, c, hg, hc, hj⟩ : ∃ g c, g < 128 ∧ c < 8 ∧ (j 1).val = 8 * g + c :=
    ⟨(j 1).val / 8, (j 1).val % 8, by omega, by omega, by omega⟩
  have ej : j = atRow j (8 * g + c) := by rw [← hj]; exact (atRow_self j).symm
  rw [ej]
  clear ej hj
  -- for each place c of the group: the row reads piece c, a tree of sums and differences of the eight slabs at
  -- (b, g, d), that is of the input's rows 8 g, …, 8 g + 7; the three nested stages unfold to the same tree
  interval_cases c
  · refine (out_apply _ _ 0 (by norm_num) (by simp) _ (by rfl) (by rfl) j g hg).trans ?_
    simp only [addf_apply, subf_apply, slab_apply x0 _ _ j g hg,
      stage_group 4 (by simp) _ j g hg, stage_group 2 (by simp) _ j g hg, stage_group 1 (by simp) _ j g hg,
      Nat.reduceDiv, Nat.reduceMod, Nat.reduceAdd, Nat.reduceSub, Nat.reduceLT, Nat.reduceEqDiff, ↓reduceIte]
  · refine (out_apply _ _ 1 (by norm_num) (by simp) _ (by rfl) (by rfl) j g hg).trans ?_
    simp only [addf_apply, subf_apply, slab_apply x0 _ _ j g hg,
      stage_group 4 (by simp) _ j g hg, stage_group 2 (by simp) _ j g hg, stage_group 1 (by simp) _ j g hg,
      Nat.reduceDiv, Nat.reduceMod, Nat.reduceAdd, Nat.reduceSub, Nat.reduceLT, Nat.reduceEqDiff, ↓reduceIte]
  · refine (out_apply _ _ 2 (by norm_num) (by simp) _ (by rfl) (by rfl) j g hg).trans ?_
    simp only [addf_apply, subf_apply, slab_apply x0 _ _ j g hg,
      stage_group 4 (by simp) _ j g hg, stage_group 2 (by simp) _ j g hg, stage_group 1 (by simp) _ j g hg,
      Nat.reduceDiv, Nat.reduceMod, Nat.reduceAdd, Nat.reduceSub, Nat.reduceLT, Nat.reduceEqDiff, ↓reduceIte]
  · refine (out_apply _ _ 3 (by norm_num) (by simp) _ (by rfl) (by rfl) j g hg).trans ?_
    simp only [addf_apply, subf_apply, slab_apply x0 _ _ j g hg,
      stage_group 4 (by simp) _ j g hg, stage_group 2 (by simp) _ j g hg, stage_group 1 (by simp) _ j g hg,
      Nat.reduceDiv, Nat.reduceMod, Nat.reduceAdd, Nat.reduceSub, Nat.reduceLT, Nat.reduceEqDiff, ↓reduceIte]
  · refine (out_apply _ _ 4 (by norm_num) (by simp) _ (by rfl) (by rfl) j g hg).trans ?_
    simp only [addf_apply, subf_apply, slab_apply x0 _ _ j g hg,
      stage_group 4 (by simp) _ j g hg, stage_group 2 (by simp) _ j g hg, stage_group 1 (by simp) _ j g hg,
      Nat.reduceDiv, Nat.reduceMod, Nat.reduceAdd, Nat.reduceSub, Nat.reduceLT, Nat.reduceEqDiff, ↓reduceIte]
  · refine (out_apply _ _ 5 (by norm_num) (by simp) _ (by rfl) (by rfl) j g hg).trans ?_
    simp only [addf_apply, subf_apply, slab_apply x0 _ _ j g hg,
      stage_group 4 (by simp) _ j g hg, stage_group 2 (by simp) _ j g hg, stage_group 1 (by simp) _ j g hg,
      Nat.reduceDiv, Nat.reduceMod, Nat.reduceAdd, Nat.reduceSub, Nat.reduceLT, Nat.reduceEqDiff, ↓reduceIte]
  · refine (out_apply _ _ 6 (by norm_num) (by simp) _ (by rfl) (by rfl) j g hg).trans ?_
    simp only [addf_apply, subf_apply, slab_apply x0 _ _ j g hg,
      stage_group 4 (by simp) _ j g hg, stage_group 2 (by simp) _ j g hg, stage_group 1 (by simp) _ j g hg,
      Nat.reduceDiv, Nat.reduceMod, Nat.reduceAdd, Nat.reduceSub, Nat.reduceLT, Nat.reduceEqDiff, ↓reduceIte]
  · refine (out_apply _ _ 7 (by norm_num) (by simp) _ (by rfl) (by rfl) j g hg).trans ?_
    simp only [addf_apply, subf_apply, slab_apply x0 _ _ j g hg,
      stage_group 4 (by simp) _ j g hg, stage_group 2 (by simp) _ j g hg, stage_group 1 (by simp) _ j g hg,
      Nat.reduceDiv, Nat.reduceMod, Nat.reduceAdd, Nat.reduceSub, Nat.reduceLT, Nat.reduceEqDiff, ↓reduceIte]

end Cert.KernelIdeal.Gen

end
-- ==== Proof.Pair.lean ====
/-
  One group of a butterfly stage done in place, and a stage done group by group.

  A buffer of shape [4, 1024, 256] is updated through two rectangles that lie one above the other on axis 1: rows
  `o … o+h-1` (the lower half of group `k`) and rows `o+h … o+2h-1` (the upper half). If the lower rectangle receives
  lower + upper and the upper rectangle lower − upper, both computed from the contents before either store, then the
  buffer afterwards is the stage done on group `k` alone (`read_writes_pair`): an index in the upper rectangle reads the
  last store, one in the lower rectangle is off the upper one and reads the store before, and every other index is off
  both and keeps its contents.

  If a list of stores grows trip by trip, trip `k` adding such a pair computed from what the earlier trips left, then
  after all trips the buffer is the whole stage of its contents at entry (`loop_of_trips`), by `stageAt_stageUpTo`.
-/
import proofs.«174154_j901943132182_2_alg».proof.Proof.Spec
import Idealize.ShloMosaic.Lib.Writes

noncomputable section

namespace Cert.Fwht

open Idealize.ShloMosaic

variable {sig : RefSig} {κ : Kind} {sp : Space}

/-- The stage done on group `k`, read at a lower row of that group: the row plus its partner `h` rows above. -/
theorem stageAt_lower {B : ℕ} {h k : ℕ} (u : (Sh B).Idx → EReal) (i : (Sh B).Idx)
    (hk : (i 1).val / (2 * h) = k) (he : ((i 1).val / h) % 2 = 0) :
    stageAt h k u i = u i + u (atRow i ((i 1).val + h)) := by
  unfold stageAt
  rw [if_pos hk]
  unfold stage
  rw [if_pos he]

/-- The stage done on group `k`, read at an upper row of that group: the partner `h` rows below minus the row. -/
theorem stageAt_upper {B : ℕ} {h k : ℕ} (u : (Sh B).Idx → EReal) (i : (Sh B).Idx)
    (hk : (i 1).val / (2 * h) = k) (he : ¬ ((i 1).val / h) % 2 = 0) :
    stageAt h k u i = u (atRow i ((i 1).val - h)) - u i := by
  unfold stageAt
  rw [if_pos hk]
  unfold stage
  rw [if_neg he]

/-- The stage done on group `k` leaves every row of another group alone. -/
theorem stageAt_off {B : ℕ} {h k : ℕ} (u : (Sh B).Idx → EReal) (i : (Sh B).Idx)
    (hk : ¬ (i 1).val / (2 * h) = k) : stageAt h k u i = u i := by
  unfold stageAt
  rw [if_neg hk]

theorem read_writes_pair (v : View sig κ sp (Sh 4) EltTy.f32) (f : v.ty.Contents (Elt Ideal))
    (h k o : ℕ) (hh : Half h)
    (hA : ∀ r, r < 1024 → (r / (2 * h) = k ↔ o ≤ r ∧ r < o + 2 * h))
    (hB : ∀ r, o ≤ r → r < o + 2 * h → ((r / h) % 2 = 0 ↔ r < o + h))
    (off1 off2 sz : Fin 3 → ℕ) (ho1 : off1 = ![0, o, 0]) (ho2 : off2 = ![0, o + h, 0]) (hsz : sz = ![4, h, 256])
    (inb1 : ∀ a, off1 a + sz a ≤ (Sh 4).size a) (inb2 : ∀ a, off2 a + sz a ≤ (Sh 4).size a)
    (w1 : (Rect.unit (s := Sh 4) off1 sz inb1).shape.Idx → EReal) (w2 : (Rect.unit (s := Sh 4) off2 sz inb2).shape.Idx → EReal)
    (hw1 : ∀ x, w1 x = v.read (Elt Ideal) f ((Rect.unit (s := Sh 4) off1 sz inb1).emb x) + v.read (Elt Ideal) f ((Rect.unit (s := Sh 4) off2 sz inb2).emb x))
    (hw2 : ∀ x, w2 x = v.read (Elt Ideal) f ((Rect.unit (s := Sh 4) off1 sz inb1).emb x) - v.read (Elt Ideal) f ((Rect.unit (s := Sh 4) off2 sz inb2).emb x)) :
    v.read (Elt Ideal) (v.writes (Elt Ideal) f ([⟨Rect.unit (s := Sh 4) off2 sz inb2, w2⟩, ⟨Rect.unit (s := Sh 4) off1 sz inb1, w1⟩] : List (View.Piece (Elt Ideal) (Sh 4) EltTy.f32)))
      = stageAt h k (v.read (Elt Ideal) f) := by
  subst ho1 ho2 hsz
  funext y
  have hr : (y 1).val < 1024 := (y 1).isLt
  have h0 : (y 0).val < 4 := (y 0).isLt
  have h2 : (y 2).val < 256 := (y 2).isLt
  have hA' := hA (y 1).val hr
  by_cases hin : o ≤ (y 1).val ∧ (y 1).val < o + 2 * h
  · obtain ⟨hlo, hhi⟩ := hin
    have hk : (y 1).val / (2 * h) = k := hA'.mpr ⟨hlo, hhi⟩
    have hB' := hB (y 1).val hlo hhi
    by_cases hup : (y 1).val < o + h
    · -- a lower row of the group: off the upper rectangle, so it reads the earlier store, the sum
      have he : ((y 1).val / h) % 2 = 0 := hB'.mpr hup
      obtain ⟨m1, -⟩ := hh.up _ hr he
      obtain ⟨x, hx1, hx2⟩ : ∃ x : (Rect.unit (s := Sh 4) ![0, o, 0] ![4, h, 256] inb1).shape.Idx,
          y = (Rect.unit (s := Sh 4) ![0, o, 0] ![4, h, 256] inb1).emb x ∧
          atRow y ((y 1).val + h) = (Rect.unit (s := Sh 4) ![0, o + h, 0] ![4, h, 256] inb2).emb x := by
        refine ⟨ValueIdx.ix3 (n0 := 4) (n1 := h) (n2 := 256) ⟨(y 0).val, h0⟩ ⟨(y 1).val - o, by omega⟩ ⟨(y 2).val, h2⟩, ?_, ?_⟩
        · funext a
          match a with
          | ⟨0, _⟩ => apply Fin.ext; show (y 0).val = 0 + 1 * (y 0).val; omega
          | ⟨1, _⟩ => apply Fin.ext; show (y 1).val = o + 1 * ((y 1).val - o); omega
          | ⟨2, _⟩ => apply Fin.ext; show (y 2).val = 0 + 1 * (y 2).val; omega
        · funext a
          match a with
          | ⟨0, _⟩ => apply Fin.ext; show (y 0).val = 0 + 1 * (y 0).val; omega
          | ⟨1, _⟩ => apply Fin.ext; show ((y 1).val + h) % 1024 = (o + h) + 1 * ((y 1).val - o); omega
          | ⟨2, _⟩ => apply Fin.ext; show (y 2).val = 0 + 1 * (y 2).val; omega
      have hnm : y ∉ Finset.univ.map (Rect.unit (s := Sh 4) ![0, o + h, 0] ![4, h, 256] inb2).emb := by
        rw [Rect.map_emb_univ, Rect.mem_set_unit]
        intro hm
        have h1 : o + h ≤ (y 1).val ∧ (y 1).val < o + h + h := hm 1
        omega
      rw [stageAt_lower _ y hk he, hx2, View.writes_cons, View.read_slice_write_of_not_mem _ _ _ _ hnm, hx1,
        View.read_writes_cons_emb, hw1]
    · -- an upper row of the group: under the last store, the difference
      have he : ¬ ((y 1).val / h) % 2 = 0 := fun e => hup (hB'.mp e)
      obtain ⟨m1, -⟩ := hh.down _ hr he
      obtain ⟨x, hx1, hx2⟩ : ∃ x : (Rect.unit (s := Sh 4) ![0, o + h, 0] ![4, h, 256] inb2).shape.Idx,
          y = (Rect.unit (s := Sh 4) ![0, o + h, 0] ![4, h, 256] inb2).emb x ∧
          atRow y ((y 1).val - h) = (Rect.unit (s := Sh 4) ![0, o, 0] ![4, h, 256] inb1).emb x := by
        refine ⟨ValueIdx.ix3 (n0 := 4) (n1 := h) (n2 := 256) ⟨(y 0).val, h0⟩ ⟨(y 1).val - (o + h), by omega⟩ ⟨(y 2).val, h2⟩, ?_, ?_⟩
        · funext a
          match a with
          | ⟨0, _⟩ => apply Fin.ext; show (y 0).val = 0 + 1 * (y 0).val; omega
          | ⟨1, _⟩ => apply Fin.ext; show (y 1).val = (o + h) + 1 * ((y 1).val - (o + h)); omega
          | ⟨2, _⟩ => apply Fin.ext; show (y 2).val = 0 + 1 * (y 2).val; omega
        · funext a
          match a with
          | ⟨0, _⟩ => apply Fin.ext; show (y 0).val = 0 + 1 * (y 0).val; omega
          | ⟨1, _⟩ => apply Fin.ext; show ((y 1).val - h) % 1024 = o + 1 * ((y 1).val - (o + h)); omega
          | ⟨2, _⟩ => apply Fin.ext; show (y 2).val = 0 + 1 * (y 2).val; omega
      rw [stageAt_upper _ y hk he, hx2, hx1, View.read_writes_cons_emb, hw2]
  · -- a row of another group: off both rectangles, it keeps its contents
    have hk : ¬ (y 1).val / (2 * h) = k := fun e => hin (hA'.mp e)
    rw [stageAt_off _ y hk]
    refine View.read_writes_apply_of_forall_not_mem v f y _ ?_
    intro p hp
    rcases List.mem_cons.mp hp with rfl | hp
    · show y ∉ (Rect.unit (s := Sh 4) ![0, o + h, 0] ![4, h, 256] inb2).set
      rw [Rect.mem_set_unit]
      intro hm
      have h1 : o + h ≤ (y 1).val ∧ (y 1).val < o + h + h := hm 1
      omega
    · rcases List.mem_cons.mp hp with rfl | hp
      · show y ∉ (Rect.unit (s := Sh 4) ![0, o, 0] ![4, h, 256] inb1).set
        rw [Rect.mem_set_unit]
        intro hm
        have h1 : o ≤ (y 1).val ∧ (y 1).val < o + h := hm 1
        omega
      · exact absurd hp List.not_mem_nil

theorem loop_of_trips (v : View sig κ sp (Sh 4) EltTy.f32) (G : v.ty.Contents (Elt Ideal)) (h T : ℕ) (hh : Half h)
    (hT : ∀ r, r < 1024 → r / (2 * h) < T)
    (pb : ℕ → List (View.Piece (Elt Ideal) (Sh 4) EltTy.f32))
    (tripL : Fin T → v.ty.Contents (Elt Ideal) → List (View.Piece (Elt Ideal) (Sh 4) EltTy.f32))
    (pb0 : pb 0 = [])
    (pbS : ∀ k : Fin T, pb (k.val + 1) = tripL k (v.writes (Elt Ideal) G (pb k.val)) ++ pb k.val)
    (htrip : ∀ (k : Fin T) (f : v.ty.Contents (Elt Ideal)),
      v.read (Elt Ideal) (v.writes (Elt Ideal) f (tripL k f)) = stageAt h k.val (v.read (Elt Ideal) f)) :
    v.read (Elt Ideal) (v.writes (Elt Ideal) G (pb T)) = stage h (v.read (Elt Ideal) G) := by
  -- after the first n trips the buffer holds the stage done on the groups below n
  have key : ∀ n, n ≤ T →
      v.read (Elt Ideal) (v.writes (Elt Ideal) G (pb n)) = stageUpTo h n (v.read (Elt Ideal) G) := by
    intro n
    induction n with
    | zero =>
      intro _
      rw [pb0, View.writes_nil, stageUpTo_zero]
    | succ n ih =>
      intro hn
      have hlt : n < T := hn
      have e1 : pb (n + 1) = tripL ⟨n, hlt⟩ (v.writes (Elt Ideal) G (pb n)) ++ pb n := pbS ⟨n, hlt⟩
      have e2 : v.read (Elt Ideal) (v.writes (Elt Ideal) (v.writes (Elt Ideal) G (pb n)) (tripL ⟨n, hlt⟩ (v.writes (Elt Ideal) G (pb n))))
          = stageAt h n (v.read (Elt Ideal) (v.writes (Elt Ideal) G (pb n))) := htrip ⟨n, hlt⟩ _
      rw [e1, View.writes_append, e2, ih (Nat.le_of_lt hlt), stageAt_stageUpTo hh]
  rw [key T (Nat.le_refl T), stageUpTo_all h T hT]

end Cert.Fwht

end
-- ==== Proof.LoopT1.lean ====
/-
  Butterfly stage 8 of the transform, as the kernel performs it: a counted loop over the 64 groups of 16 rows, each trip
  replacing the two halves of its group by their sum and their difference. After the loop the buffer holds the stage of
  what it held at loop entry.
-/
import proofs.«174154_j901943132182_2_alg».proof.Proof.Pair
import proofs.«174154_j901943132182_2_alg».proof.Proof.Gen.KernelIdeal.Loops
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The two stores of trip `k`: last the upper half of group `k` (rows `16 k + 8 … 16 k + 15`), receiving the difference,
    before it the lower half (rows `16 k … 16 k + 7`), receiving the sum; both computed from the two halves as loaded
    before either store. -/
theorem trip_pieces_t1 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32)
    (k : Fin k0_t1_loop.trips) (f : BufTy.Contents (Elt Ideal) arg2.view.ty) :
    tripL_k0_t1 (F := Ideal) 𝒱 c bd i arg1 harg1 arg2 harg2 v51 k f
      = ([⟨(Rect.unit (s := S4x1024x256) (k0_off2 k) S4x8x256.size (k0_off2_inb k)), k0_pay6 (F := Ideal) (arg2.view.readAt (Elt Ideal) (Rect.unit (s := S4x1024x256) (k0_off1 k) S4x8x256.size (k0_off1_inb k)).toLoadRect f) (arg2.view.readAt (Elt Ideal) (Rect.unit (s := S4x1024x256) (k0_off2 k) S4x8x256.size (k0_off2_inb k)).toLoadRect f)⟩,
          ⟨(Rect.unit (s := S4x1024x256) (k0_off1 k) S4x8x256.size (k0_off1_inb k)), k0_pay5 (F := Ideal) (arg2.view.readAt (Elt Ideal) (Rect.unit (s := S4x1024x256) (k0_off1 k) S4x8x256.size (k0_off1_inb k)).toLoadRect f) (arg2.view.readAt (Elt Ideal) (Rect.unit (s := S4x1024x256) (k0_off2 k) S4x8x256.size (k0_off2_inb k)).toLoadRect f)⟩] : List (View.Piece (Elt Ideal) S4x1024x256 .f32)) := by
  unfold tripL_k0_t1 trip_k0_t1
  rfl

/-- One trip performs the stage on its own group: the lower rectangle receives lower + upper, the upper rectangle
    lower − upper (the two casts to the same shape change nothing), and group `k` is rows `16 k … 16 k + 15`. -/
theorem trip_value_t1 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32)
    (k : Fin k0_t1_loop.trips) (f : BufTy.Contents (Elt Ideal) arg2.view.ty) :
    arg2.view.read (Elt Ideal) (arg2.view.writes (Elt Ideal) f (tripL_k0_t1 (F := Ideal) 𝒱 c bd i arg1 harg1 arg2 harg2 v51 k f))
      = Cert.Fwht.stageAt 8 k.val (arg2.view.read (Elt Ideal) f) := by
  rw [trip_pieces_t1]
  refine Cert.Fwht.read_writes_pair arg2.view f 8 k.val (16 * k.val) Cert.Fwht.half_8
    (fun r hr => by omega) (fun r h1 h2 => by omega)
    (k0_off1 k) (k0_off2 k) S4x8x256.size (k0_off1_eq k) (k0_off2_eq k) rfl (k0_off1_inb k) (k0_off2_inb k)
    (k0_pay5 (F := Ideal) (arg2.view.readAt (Elt Ideal) (Rect.unit (s := S4x1024x256) (k0_off1 k) S4x8x256.size (k0_off1_inb k)).toLoadRect f) (arg2.view.readAt (Elt Ideal) (Rect.unit (s := S4x1024x256) (k0_off2 k) S4x8x256.size (k0_off2_inb k)).toLoadRect f)) (k0_pay6 (F := Ideal) (arg2.view.readAt (Elt Ideal) (Rect.unit (s := S4x1024x256) (k0_off1 k) S4x8x256.size (k0_off1_inb k)).toLoadRect f) (arg2.view.readAt (Elt Ideal) (Rect.unit (s := S4x1024x256) (k0_off2 k) S4x8x256.size (k0_off2_inb k)).toLoadRect f)) ?_ ?_
  · intro x
    unfold k0_pay5 k0_pay3 k0_pay4
    rw [shapeCast_self, shapeCast_self]
    rfl
  · intro x
    unfold k0_pay6 k0_pay3 k0_pay4
    rw [shapeCast_self, shapeCast_self]
    rfl

/-- The loop makes 64 trips, one per group of 16 rows. -/
theorem trips_t1 : k0_t1_loop.trips = 64 := by decide +kernel

theorem loop_t1 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32) (G : BufTy.Contents (Elt Ideal) arg2.view.ty) :
    arg2.view.read (Elt Ideal) (arg2.view.writes (Elt Ideal) G
        (pb_k0_t1 (F := Ideal) 𝒱 c bd i arg1 harg1 arg2 harg2 v51 G k0_t1_loop.trips))
      = Cert.Fwht.stage 8 (arg2.view.read (Elt Ideal) G) := by
  refine Cert.Fwht.loop_of_trips arg2.view G 8 k0_t1_loop.trips Cert.Fwht.half_8
    (fun r hr => by rw [trips_t1]; omega)
    (fun n => pb_k0_t1 (F := Ideal) 𝒱 c bd i arg1 harg1 arg2 harg2 v51 G n)
    (fun k f => tripL_k0_t1 (F := Ideal) 𝒱 c bd i arg1 harg1 arg2 harg2 v51 k f)
    rfl
    (fun k => pb_k0_t1_succ (F := Ideal) 𝒱 c bd i arg1 harg1 arg2 harg2 v51 G k)
    (fun k f => trip_value_t1 𝒱 c bd i arg1 harg1 arg2 harg2 v51 k f)

end Cert.KernelIdeal.Gen

end
-- ==== Proof.LoopT2.lean ====
/-
  Butterfly stage 16 of the transform, as the kernel performs it: a counted loop over the 32 groups of 32 rows, each trip
  replacing the two halves of its group by their sum and their difference. After the loop the buffer holds the stage of
  what it held at loop entry.
-/
import proofs.«174154_j901943132182_2_alg».proof.Proof.Pair
import proofs.«174154_j901943132182_2_alg».proof.Proof.Gen.KernelIdeal.Loops
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The two stores of trip `k`: last the upper half of group `k` (rows `32 k + 16 … 32 k + 31`), receiving the difference,
    before it the lower half (rows `32 k … 32 k + 15`), receiving the sum; both computed from the two halves as loaded
    before either store. -/
theorem trip_pieces_t2 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32)
    (k : Fin k0_t2_loop.trips) (f : BufTy.Contents (Elt Ideal) arg2.view.ty) :
    tripL_k0_t2 (F := Ideal) 𝒱 c bd i arg1 harg1 arg2 harg2 v51 k f
      = ([⟨(Rect.unit (s := S4x1024x256) (k0_off4 k) S4x16x256.size (k0_off4_inb k)), k0_pay10 (F := Ideal) (arg2.view.readAt (Elt Ideal) (Rect.unit (s := S4x1024x256) (k0_off3 k) S4x16x256.size (k0_off3_inb k)).toLoadRect f) (arg2.view.readAt (Elt Ideal) (Rect.unit (s := S4x1024x256) (k0_off4 k) S4x16x256.size (k0_off4_inb k)).toLoadRect f)⟩,
          ⟨(Rect.unit (s := S4x1024x256) (k0_off3 k) S4x16x256.size (k0_off3_inb k)), k0_pay9 (F := Ideal) (arg2.view.readAt (Elt Ideal) (Rect.unit (s := S4x1024x256) (k0_off3 k) S4x16x256.size (k0_off3_inb k)).toLoadRect f) (arg2.view.readAt (Elt Ideal) (Rect.unit (s := S4x1024x256) (k0_off4 k) S4x16x256.size (k0_off4_inb k)).toLoadRect f)⟩] : List (View.Piece (Elt Ideal) S4x1024x256 .f32)) := by
  unfold tripL_k0_t2 trip_k0_t2
  rfl

/-- One trip performs the stage on its own group: the lower rectangle receives lower + upper, the upper rectangle
    lower − upper (the two casts to the same shape change nothing), and group `k` is rows `32 k … 32 k + 31`. -/
theorem trip_value_t2 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32)
    (k : Fin k0_t2_loop.trips) (f : BufTy.Contents (Elt Ideal) arg2.view.ty) :
    arg2.view.read (Elt Ideal) (arg2.view.writes (Elt Ideal) f (tripL_k0_t2 (F := Ideal) 𝒱 c bd i arg1 harg1 arg2 harg2 v51 k f))
      = Cert.Fwht.stageAt 16 k.val (arg2.view.read (Elt Ideal) f) := by
  rw [trip_pieces_t2]
  refine Cert.Fwht.read_writes_pair arg2.view f 16 k.val (32 * k.val) Cert.Fwht.half_16
    (fun r hr => by omega) (fun r h1 h2 => by omega)
    (k0_off3 k) (k0_off4 k) S4x16x256.size (k0_off3_eq k) (k0_off4_eq k) rfl (k0_off3_inb k) (k0_off4_inb k)
    (k0_pay9 (F := Ideal) (arg2.view.readAt (Elt Ideal) (Rect.unit (s := S4x1024x256) (k0_off3 k) S4x16x256.size (k0_off3_inb k)).toLoadRect f) (arg2.view.readAt (Elt Ideal) (Rect.unit (s := S4x1024x256) (k0_off4 k) S4x16x256.size (k0_off4_inb k)).toLoadRect f)) (k0_pay10 (F := Ideal) (arg2.view.readAt (Elt Ideal) (Rect.unit (s := S4x1024x256) (k0_off3 k) S4x16x256.size (k0_off3_inb k)).toLoadRect f) (arg2.view.readAt (Elt Ideal) (Rect.unit (s := S4x1024x256) (k0_off4 k) S4x16x256.size (k0_off4_inb k)).toLoadRect f)) ?_ ?_
  · intro x
    unfold k0_pay9 k0_pay7 k0_pay8
    rw [shapeCast_self, shapeCast_self]
    rfl
  · intro x
    unfold k0_pay10 k0_pay7 k0_pay8
    rw [shapeCast_self, shapeCast_self]
    rfl

/-- The loop makes 32 trips, one per group of 32 rows. -/
theorem trips_t2 : k0_t2_loop.trips = 32 := by decide +kernel

theorem loop_t2 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32) (G : BufTy.Contents (Elt Ideal) arg2.view.ty) :
    arg2.view.read (Elt Ideal) (arg2.view.writes (Elt Ideal) G
        (pb_k0_t2 (F := Ideal) 𝒱 c bd i arg1 harg1 arg2 harg2 v51 G k0_t2_loop.trips))
      = Cert.Fwht.stage 16 (arg2.view.read (Elt Ideal) G) := by
  refine Cert.Fwht.loop_of_trips arg2.view G 16 k0_t2_loop.trips Cert.Fwht.half_16
    (fun r hr => by rw [trips_t2]; omega)
    (fun n => pb_k0_t2 (F := Ideal) 𝒱 c bd i arg1 harg1 arg2 harg2 v51 G n)
    (fun k f => tripL_k0_t2 (F := Ideal) 𝒱 c bd i arg1 harg1 arg2 harg2 v51 k f)
    rfl
    (fun k => pb_k0_t2_succ (F := Ideal) 𝒱 c bd i arg1 harg1 arg2 harg2 v51 G k)
    (fun k f => trip_value_t2 𝒱 c bd i arg1 harg1 arg2 harg2 v51 k f)

end Cert.KernelIdeal.Gen

end
-- ==== Proof.LoopT3.lean ====
/-
  Butterfly stage 32 of the transform, as the kernel performs it: a counted loop over the 16 groups of 64 rows, each trip
  replacing the two halves of its group by their sum and their difference. After the loop the buffer holds the stage of
  what it held at loop entry.
-/
import proofs.«174154_j901943132182_2_alg».proof.Proof.Pair
import proofs.«174154_j901943132182_2_alg».proof.Proof.Gen.KernelIdeal.Loops
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The two stores of trip `k`: last the upper half of group `k` (rows `64 k + 32 … 64 k + 63`), receiving the difference,
    before it the lower half (rows `64 k … 64 k + 31`), receiving the sum; both computed from the two halves as loaded
    before either store. -/
theorem trip_pieces_t3 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32)
    (k : Fin k0_t3_loop.trips) (f : BufTy.Contents (Elt Ideal) arg2.view.ty) :
    tripL_k0_t3 (F := Ideal) 𝒱 c bd i arg1 harg1 arg2 harg2 v51 k f
      = ([⟨(Rect.unit (s := S4x1024x256) (k0_off6 k) S4x32x256.size (k0_off6_inb k)), k0_pay14 (F := Ideal) (arg2.view.readAt (Elt Ideal) (Rect.unit (s := S4x1024x256) (k0_off5 k) S4x32x256.size (k0_off5_inb k)).toLoadRect f) (arg2.view.readAt (Elt Ideal) (Rect.unit (s := S4x1024x256) (k0_off6 k) S4x32x256.size (k0_off6_inb k)).toLoadRect f)⟩,
          ⟨(Rect.unit (s := S4x1024x256) (k0_off5 k) S4x32x256.size (k0_off5_inb k)), k0_pay13 (F := Ideal) (arg2.view.readAt (Elt Ideal) (Rect.unit (s := S4x1024x256) (k0_off5 k) S4x32x256.size (k0_off5_inb k)).toLoadRect f) (arg2.view.readAt (Elt Ideal) (Rect.unit (s := S4x1024x256) (k0_off6 k) S4x32x256.size (k0_off6_inb k)).toLoadRect f)⟩] : List (View.Piece (Elt Ideal) S4x1024x256 .f32)) := by
  unfold tripL_k0_t3 trip_k0_t3
  rfl

/-- One trip performs the stage on its own group: the lower rectangle receives lower + upper, the upper rectangle
    lower − upper (the two casts to the same shape change nothing), and group `k` is rows `64 k … 64 k + 63`. -/
theorem trip_value_t3 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32)
    (k : Fin k0_t3_loop.trips) (f : BufTy.Contents (Elt Ideal) arg2.view.ty) :
    arg2.view.read (Elt Ideal) (arg2.view.writes (Elt Ideal) f (tripL_k0_t3 (F := Ideal) 𝒱 c bd i arg1 harg1 arg2 harg2 v51 k f))
      = Cert.Fwht.stageAt 32 k.val (arg2.view.read (Elt Ideal) f) := by
  rw [trip_pieces_t3]
  refine Cert.Fwht.read_writes_pair arg2.view f 32 k.val (64 * k.val) Cert.Fwht.half_32
    (fun r hr => by omega) (fun r h1 h2 => by omega)
    (k0_off5 k) (k0_off6 k) S4x32x256.size (k0_off5_eq k) (k0_off6_eq k) rfl (k0_off5_inb k) (k0_off6_inb k)
    (k0_pay13 (F := Ideal) (arg2.view.readAt (Elt Ideal) (Rect.unit (s := S4x1024x256) (k0_off5 k) S4x32x256.size (k0_off5_inb k)).toLoadRect f) (arg2.view.readAt (Elt Ideal) (Rect.unit (s := S4x1024x256) (k0_off6 k) S4x32x256.size (k0_off6_inb k)).toLoadRect f)) (k0_pay14 (F := Ideal) (arg2.view.readAt (Elt Ideal) (Rect.unit (s := S4x1024x256) (k0_off5 k) S4x32x256.size (k0_off5_inb k)).toLoadRect f) (arg2.view.readAt (Elt Ideal) (Rect.unit (s := S4x1024x256) (k0_off6 k) S4x32x256.size (k0_off6_inb k)).toLoadRect f)) ?_ ?_
  · intro x
    unfold k0_pay13 k0_pay11 k0_pay12
    rw [shapeCast_self, shapeCast_self]
    rfl
  · intro x
    unfold k0_pay14 k0_pay11 k0_pay12
    rw [shapeCast_self, shapeCast_self]
    rfl

/-- The loop makes 16 trips, one per group of 64 rows. -/
theorem trips_t3 : k0_t3_loop.trips = 16 := by decide +kernel

theorem loop_t3 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32) (G : BufTy.Contents (Elt Ideal) arg2.view.ty) :
    arg2.view.read (Elt Ideal) (arg2.view.writes (Elt Ideal) G
        (pb_k0_t3 (F := Ideal) 𝒱 c bd i arg1 harg1 arg2 harg2 v51 G k0_t3_loop.trips))
      = Cert.Fwht.stage 32 (arg2.view.read (Elt Ideal) G) := by
  refine Cert.Fwht.loop_of_trips arg2.view G 32 k0_t3_loop.trips Cert.Fwht.half_32
    (fun r hr => by rw [trips_t3]; omega)
    (fun n => pb_k0_t3 (F := Ideal) 𝒱 c bd i arg1 harg1 arg2 harg2 v51 G n)
    (fun k f => tripL_k0_t3 (F := Ideal) 𝒱 c bd i arg1 harg1 arg2 harg2 v51 k f)
    rfl
    (fun k => pb_k0_t3_succ (F := Ideal) 𝒱 c bd i arg1 harg1 arg2 harg2 v51 G k)
    (fun k f => trip_value_t3 𝒱 c bd i arg1 harg1 arg2 harg2 v51 k f)

end Cert.KernelIdeal.Gen

end
-- ==== Proof.LoopT4.lean ====
/-
  Butterfly stage 64 of the transform, as the kernel performs it: a counted loop over the 8 groups of 128 rows, each trip
  replacing the two halves of its group by their sum and their difference. After the loop the buffer holds the stage of
  what it held at loop entry.
-/
import proofs.«174154_j901943132182_2_alg».proof.Proof.Pair
import proofs.«174154_j901943132182_2_alg».proof.Proof.Gen.KernelIdeal.Loops
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The two stores of trip `k`: last the upper half of group `k` (rows `128 k + 64 … 128 k + 127`), receiving the difference,
    before it the lower half (rows `128 k … 128 k + 63`), receiving the sum; both computed from the two halves as loaded
    before either store. -/
theorem trip_pieces_t4 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32)
    (k : Fin k0_t4_loop.trips) (f : BufTy.Contents (Elt Ideal) arg2.view.ty) :
    tripL_k0_t4 (F := Ideal) 𝒱 c bd i arg1 harg1 arg2 harg2 v51 k f
      = ([⟨(Rect.unit (s := S4x1024x256) (k0_off8 k) S4x64x256.size (k0_off8_inb k)), k0_pay18 (F := Ideal) (arg2.view.readAt (Elt Ideal) (Rect.unit (s := S4x1024x256) (k0_off7 k) S4x64x256.size (k0_off7_inb k)).toLoadRect f) (arg2.view.readAt (Elt Ideal) (Rect.unit (s := S4x1024x256) (k0_off8 k) S4x64x256.size (k0_off8_inb k)).toLoadRect f)⟩,
          ⟨(Rect.unit (s := S4x1024x256) (k0_off7 k) S4x64x256.size (k0_off7_inb k)), k0_pay17 (F := Ideal) (arg2.view.readAt (Elt Ideal) (Rect.unit (s := S4x1024x256) (k0_off7 k) S4x64x256.size (k0_off7_inb k)).toLoadRect f) (arg2.view.readAt (Elt Ideal) (Rect.unit (s := S4x1024x256) (k0_off8 k) S4x64x256.size (k0_off8_inb k)).toLoadRect f)⟩] : List (View.Piece (Elt Ideal) S4x1024x256 .f32)) := by
  unfold tripL_k0_t4 trip_k0_t4
  rfl

/-- One trip performs the stage on its own group: the lower rectangle receives lower + upper, the upper rectangle
    lower − upper (the two casts to the same shape change nothing), and group `k` is rows `128 k … 128 k + 127`. -/
theorem trip_value_t4 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32)
    (k : Fin k0_t4_loop.trips) (f : BufTy.Contents (Elt Ideal) arg2.view.ty) :
    arg2.view.read (Elt Ideal) (arg2.view.writes (Elt Ideal) f (tripL_k0_t4 (F := Ideal) 𝒱 c bd i arg1 harg1 arg2 harg2 v51 k f))
      = Cert.Fwht.stageAt 64 k.val (arg2.view.read (Elt Ideal) f) := by
  rw [trip_pieces_t4]
  refine Cert.Fwht.read_writes_pair arg2.view f 64 k.val (128 * k.val) Cert.Fwht.half_64
    (fun r hr => by omega) (fun r h1 h2 => by omega)
    (k0_off7 k) (k0_off8 k) S4x64x256.size (k0_off7_eq k) (k0_off8_eq k) rfl (k0_off7_inb k) (k0_off8_inb k)
    (k0_pay17 (F := Ideal) (arg2.view.readAt (Elt Ideal) (Rect.unit (s := S4x1024x256) (k0_off7 k) S4x64x256.size (k0_off7_inb k)).toLoadRect f) (arg2.view.readAt (Elt Ideal) (Rect.unit (s := S4x1024x256) (k0_off8 k) S4x64x256.size (k0_off8_inb k)).toLoadRect f)) (k0_pay18 (F := Ideal) (arg2.view.readAt (Elt Ideal) (Rect.unit (s := S4x1024x256) (k0_off7 k) S4x64x256.size (k0_off7_inb k)).toLoadRect f) (arg2.view.readAt (Elt Ideal) (Rect.unit (s := S4x1024x256) (k0_off8 k) S4x64x256.size (k0_off8_inb k)).toLoadRect f)) ?_ ?_
  · intro x
    unfold k0_pay17 k0_pay15 k0_pay16
    rw [shapeCast_self, shapeCast_self]
    rfl
  · intro x
    unfold k0_pay18 k0_pay15 k0_pay16
    rw [shapeCast_self, shapeCast_self]
    rfl

/-- The loop makes 8 trips, one per group of 128 rows. -/
theorem trips_t4 : k0_t4_loop.trips = 8 := by decide +kernel

theorem loop_t4 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32) (G : BufTy.Contents (Elt Ideal) arg2.view.ty) :
    arg2.view.read (Elt Ideal) (arg2.view.writes (Elt Ideal) G
        (pb_k0_t4 (F := Ideal) 𝒱 c bd i arg1 harg1 arg2 harg2 v51 G k0_t4_loop.trips))
      = Cert.Fwht.stage 64 (arg2.view.read (Elt Ideal) G) := by
  refine Cert.Fwht.loop_of_trips arg2.view G 64 k0_t4_loop.trips Cert.Fwht.half_64
    (fun r hr => by rw [trips_t4]; omega)
    (fun n => pb_k0_t4 (F := Ideal) 𝒱 c bd i arg1 harg1 arg2 harg2 v51 G n)
    (fun k f => tripL_k0_t4 (F := Ideal) 𝒱 c bd i arg1 harg1 arg2 harg2 v51 k f)
    rfl
    (fun k => pb_k0_t4_succ (F := Ideal) 𝒱 c bd i arg1 harg1 arg2 harg2 v51 G k)
    (fun k f => trip_value_t4 𝒱 c bd i arg1 harg1 arg2 harg2 v51 k f)

end Cert.KernelIdeal.Gen

end
-- ==== Proof.LoopT5.lean ====
/-
  Butterfly stage 128 of the transform, as the kernel performs it: a counted loop over the 4 groups of 256 rows, each trip
  replacing the two halves of its group by their sum and their difference. After the loop the buffer holds the stage of
  what it held at loop entry.
-/
import proofs.«174154_j901943132182_2_alg».proof.Proof.Pair
import proofs.«174154_j901943132182_2_alg».proof.Proof.Gen.KernelIdeal.Loops
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The two stores of trip `k`: last the upper half of group `k` (rows `256 k + 128 … 256 k + 255`), receiving the difference,
    before it the lower half (rows `256 k … 256 k + 127`), receiving the sum; both computed from the two halves as loaded
    before either store. -/
theorem trip_pieces_t5 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32)
    (k : Fin k0_t5_loop.trips) (f : BufTy.Contents (Elt Ideal) arg2.view.ty) :
    tripL_k0_t5 (F := Ideal) 𝒱 c bd i arg1 harg1 arg2 harg2 v51 k f
      = ([⟨(Rect.unit (s := S4x1024x256) (k0_off10 k) S4x128x256.size (k0_off10_inb k)), k0_pay22 (F := Ideal) (arg2.view.readAt (Elt Ideal) (Rect.unit (s := S4x1024x256) (k0_off9 k) S4x128x256.size (k0_off9_inb k)).toLoadRect f) (arg2.view.readAt (Elt Ideal) (Rect.unit (s := S4x1024x256) (k0_off10 k) S4x128x256.size (k0_off10_inb k)).toLoadRect f)⟩,
          ⟨(Rect.unit (s := S4x1024x256) (k0_off9 k) S4x128x256.size (k0_off9_inb k)), k0_pay21 (F := Ideal) (arg2.view.readAt (Elt Ideal) (Rect.unit (s := S4x1024x256) (k0_off9 k) S4x128x256.size (k0_off9_inb k)).toLoadRect f) (arg2.view.readAt (Elt Ideal) (Rect.unit (s := S4x1024x256) (k0_off10 k) S4x128x256.size (k0_off10_inb k)).toLoadRect f)⟩] : List (View.Piece (Elt Ideal) S4x1024x256 .f32)) := by
  unfold tripL_k0_t5 trip_k0_t5
  rfl

/-- One trip performs the stage on its own group: the lower rectangle receives lower + upper, the upper rectangle
    lower − upper (the two casts to the same shape change nothing), and group `k` is rows `256 k … 256 k + 255`. -/
theorem trip_value_t5 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32)
    (k : Fin k0_t5_loop.trips) (f : BufTy.Contents (Elt Ideal) arg2.view.ty) :
    arg2.view.read (Elt Ideal) (arg2.view.writes (Elt Ideal) f (tripL_k0_t5 (F := Ideal) 𝒱 c bd i arg1 harg1 arg2 harg2 v51 k f))
      = Cert.Fwht.stageAt 128 k.val (arg2.view.read (Elt Ideal) f) := by
  rw [trip_pieces_t5]
  refine Cert.Fwht.read_writes_pair arg2.view f 128 k.val (256 * k.val) Cert.Fwht.half_128
    (fun r hr => by omega) (fun r h1 h2 => by omega)
    (k0_off9 k) (k0_off10 k) S4x128x256.size (k0_off9_eq k) (k0_off10_eq k) rfl (k0_off9_inb k) (k0_off10_inb k)
    (k0_pay21 (F := Ideal) (arg2.view.readAt (Elt Ideal) (Rect.unit (s := S4x1024x256) (k0_off9 k) S4x128x256.size (k0_off9_inb k)).toLoadRect f) (arg2.view.readAt (Elt Ideal) (Rect.unit (s := S4x1024x256) (k0_off10 k) S4x128x256.size (k0_off10_inb k)).toLoadRect f)) (k0_pay22 (F := Ideal) (arg2.view.readAt (Elt Ideal) (Rect.unit (s := S4x1024x256) (k0_off9 k) S4x128x256.size (k0_off9_inb k)).toLoadRect f) (arg2.view.readAt (Elt Ideal) (Rect.unit (s := S4x1024x256) (k0_off10 k) S4x128x256.size (k0_off10_inb k)).toLoadRect f)) ?_ ?_
  · intro x
    unfold k0_pay21 k0_pay19 k0_pay20
    rw [shapeCast_self, shapeCast_self]
    rfl
  · intro x
    unfold k0_pay22 k0_pay19 k0_pay20
    rw [shapeCast_self, shapeCast_self]
    rfl

/-- The loop makes 4 trips, one per group of 256 rows. -/
theorem trips_t5 : k0_t5_loop.trips = 4 := by decide +kernel

theorem loop_t5 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32) (G : BufTy.Contents (Elt Ideal) arg2.view.ty) :
    arg2.view.read (Elt Ideal) (arg2.view.writes (Elt Ideal) G
        (pb_k0_t5 (F := Ideal) 𝒱 c bd i arg1 harg1 arg2 harg2 v51 G k0_t5_loop.trips))
      = Cert.Fwht.stage 128 (arg2.view.read (Elt Ideal) G) := by
  refine Cert.Fwht.loop_of_trips arg2.view G 128 k0_t5_loop.trips Cert.Fwht.half_128
    (fun r hr => by rw [trips_t5]; omega)
    (fun n => pb_k0_t5 (F := Ideal) 𝒱 c bd i arg1 harg1 arg2 harg2 v51 G n)
    (fun k f => tripL_k0_t5 (F := Ideal) 𝒱 c bd i arg1 harg1 arg2 harg2 v51 k f)
    rfl
    (fun k => pb_k0_t5_succ (F := Ideal) 𝒱 c bd i arg1 harg1 arg2 harg2 v51 G k)
    (fun k f => trip_value_t5 𝒱 c bd i arg1 harg1 arg2 harg2 v51 k f)

end Cert.KernelIdeal.Gen

end
-- ==== Proof.LoopT6.lean ====
/-
  Butterfly stage 256 of the transform, as the kernel performs it: a counted loop over the 2 groups of 512 rows, each trip
  replacing the two halves of its group by their sum and their difference. After the loop the buffer holds the stage of
  what it held at loop entry.
-/
import proofs.«174154_j901943132182_2_alg».proof.Proof.Pair
import proofs.«174154_j901943132182_2_alg».proof.Proof.Gen.KernelIdeal.Loops
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The two stores of trip `k`: last the upper half of group `k` (rows `512 k + 256 … 512 k + 511`), receiving the difference,
    before it the lower half (rows `512 k … 512 k + 255`), receiving the sum; both computed from the two halves as loaded
    before either store. -/
theorem trip_pieces_t6 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32)
    (k : Fin k0_t6_loop.trips) (f : BufTy.Contents (Elt Ideal) arg2.view.ty) :
    tripL_k0_t6 (F := Ideal) 𝒱 c bd i arg1 harg1 arg2 harg2 v51 k f
      = ([⟨(Rect.unit (s := S4x1024x256) (k0_off12 k) S4x256x256.size (k0_off12_inb k)), k0_pay26 (F := Ideal) (arg2.view.readAt (Elt Ideal) (Rect.unit (s := S4x1024x256) (k0_off11 k) S4x256x256.size (k0_off11_inb k)).toLoadRect f) (arg2.view.readAt (Elt Ideal) (Rect.unit (s := S4x1024x256) (k0_off12 k) S4x256x256.size (k0_off12_inb k)).toLoadRect f)⟩,
          ⟨(Rect.unit (s := S4x1024x256) (k0_off11 k) S4x256x256.size (k0_off11_inb k)), k0_pay25 (F := Ideal) (arg2.view.readAt (Elt Ideal) (Rect.unit (s := S4x1024x256) (k0_off11 k) S4x256x256.size (k0_off11_inb k)).toLoadRect f) (arg2.view.readAt (Elt Ideal) (Rect.unit (s := S4x1024x256) (k0_off12 k) S4x256x256.size (k0_off12_inb k)).toLoadRect f)⟩] : List (View.Piece (Elt Ideal) S4x1024x256 .f32)) := by
  unfold tripL_k0_t6 trip_k0_t6
  rfl

/-- One trip performs the stage on its own group: the lower rectangle receives lower + upper, the upper rectangle
    lower − upper (the two casts to the same shape change nothing), and group `k` is rows `512 k … 512 k + 511`. -/
theorem trip_value_t6 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32)
    (k : Fin k0_t6_loop.trips) (f : BufTy.Contents (Elt Ideal) arg2.view.ty) :
    arg2.view.read (Elt Ideal) (arg2.view.writes (Elt Ideal) f (tripL_k0_t6 (F := Ideal) 𝒱 c bd i arg1 harg1 arg2 harg2 v51 k f))
      = Cert.Fwht.stageAt 256 k.val (arg2.view.read (Elt Ideal) f) := by
  rw [trip_pieces_t6]
  refine Cert.Fwht.read_writes_pair arg2.view f 256 k.val (512 * k.val) Cert.Fwht.half_256
    (fun r hr => by omega) (fun r h1 h2 => by omega)
    (k0_off11 k) (k0_off12 k) S4x256x256.size (k0_off11_eq k) (k0_off12_eq k) rfl (k0_off11_inb k) (k0_off12_inb k)
    (k0_pay25 (F := Ideal) (arg2.view.readAt (Elt Ideal) (Rect.unit (s := S4x1024x256) (k0_off11 k) S4x256x256.size (k0_off11_inb k)).toLoadRect f) (arg2.view.readAt (Elt Ideal) (Rect.unit (s := S4x1024x256) (k0_off12 k) S4x256x256.size (k0_off12_inb k)).toLoadRect f)) (k0_pay26 (F := Ideal) (arg2.view.readAt (Elt Ideal) (Rect.unit (s := S4x1024x256) (k0_off11 k) S4x256x256.size (k0_off11_inb k)).toLoadRect f) (arg2.view.readAt (Elt Ideal) (Rect.unit (s := S4x1024x256) (k0_off12 k) S4x256x256.size (k0_off12_inb k)).toLoadRect f)) ?_ ?_
  · intro x
    unfold k0_pay25 k0_pay23 k0_pay24
    rw [shapeCast_self, shapeCast_self]
    rfl
  · intro x
    unfold k0_pay26 k0_pay23 k0_pay24
    rw [shapeCast_self, shapeCast_self]
    rfl

/-- The loop makes 2 trips, one per group of 512 rows. -/
theorem trips_t6 : k0_t6_loop.trips = 2 := by decide +kernel

theorem loop_t6 (𝒱 : Variants) (c : Dev nD) (bd : Option 𝒱.V) (i : grid0.Coords)
    (arg1 : Memref sig .tc .vmem S4x1024x256 .f32) (harg1 : arg1.IsWhole)
    (arg2 : Memref sig .tc .vmem S4x1024x256 .f32) (harg2 : arg2.IsWhole)
    (v51 : FVec Ideal S4x1024x256 .f32) (G : BufTy.Contents (Elt Ideal) arg2.view.ty) :
    arg2.view.read (Elt Ideal) (arg2.view.writes (Elt Ideal) G
        (pb_k0_t6 (F := Ideal) 𝒱 c bd i arg1 harg1 arg2 harg2 v51 G k0_t6_loop.trips))
      = Cert.Fwht.stage 256 (arg2.view.read (Elt Ideal) G) := by
  refine Cert.Fwht.loop_of_trips arg2.view G 256 k0_t6_loop.trips Cert.Fwht.half_256
    (fun r hr => by rw [trips_t6]; omega)
    (fun n => pb_k0_t6 (F := Ideal) 𝒱 c bd i arg1 harg1 arg2 harg2 v51 G n)
    (fun k f => tripL_k0_t6 (F := Ideal) 𝒱 c bd i arg1 harg1 arg2 harg2 v51 k f)
    rfl
    (fun k => pb_k0_t6_succ (F := Ideal) 𝒱 c bd i arg1 harg1 arg2 harg2 v51 G k)
    (fun k f => trip_value_t6 𝒱 c bd i arg1 harg1 arg2 harg2 v51 k f)

end Cert.KernelIdeal.Gen

end
-- ==== Proof.Body.lean ====
/-
  What one grid point's body leaves in the output block: the transform of the input block. The body stores the fused
  first pass (stages 1, 2, 4) over the whole block, runs the six loops (stages 8 … 256) in place, and does stage 512 by
  one more pair of stores — lower half := lower + upper, upper half := lower − upper, both from the contents the loops
  left. What a list of stores leaves, read over unspecified prior contents, depends on the stores alone; layer by layer
  each loop's stores turn the contents below them into their stage, and the ten stages compose to the transform.
-/
import proofs.«174154_j901943132182_2_alg».proof.Proof.Fused
import proofs.«174154_j901943132182_2_alg».proof.Proof.LoopT1
import proofs.«174154_j901943132182_2_alg».proof.Proof.LoopT2
import proofs.«174154_j901943132182_2_alg».proof.Proof.LoopT3
import proofs.«174154_j901943132182_2_alg».proof.Proof.LoopT4
import proofs.«174154_j901943132182_2_alg».proof.Proof.LoopT5
import proofs.«174154_j901943132182_2_alg».proof.Proof.LoopT6
import proofs.«174154_j901943132182_2_alg».proof.Proof.Gen.KernelIdeal.Frame
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem zero_offsets : (![0, 0, 0] : Fin 3 → Nat) = fun _ => 0 := funext fun a => by fin_cases a <;> rfl

/-- The value the body stores first is the fused pass of the input block: the load of the whole input buffer reads
    its contents. -/
theorem first_value (c : Dev nD) (arg1 : Memref sig .tc .vmem S4x1024x256 .f32) (harg1 : arg1.IsWhole)
    (x0 : Vec Ideal S4x1024x256 .f32) :
    kernelRun0_A.sl.r (F := Ideal) c arg1 harg1 x0 = k0_pay2 (F := Ideal) x0 := by
  unfold kernelRun0_A.sl.r
  rw [View.readAt_eq_ld, harg1.read_unread, View.ld_unit_zero (S := S4x1024x256) zero_offsets]

/-- ONE LOOP LAYER. If a loop's stores turn any contents into their stage, then on top of the stores `Lprev` they
    leave the stage of what `Lprev` left. -/
theorem canon_layer (arg2 : Memref sig .tc .vmem S4x1024x256 .f32) (h : ℕ)
    (pbT : BufTy.Contents (Elt Ideal) arg2.view.ty → List (View.Piece (Elt Ideal) S4x1024x256 .f32))
    (hloop : ∀ G, arg2.view.read (Elt Ideal) (arg2.view.writes (Elt Ideal) G (pbT G))
      = Cert.Fwht.stage h (arg2.view.read (Elt Ideal) G))
    (Lprev : List (View.Piece (Elt Ideal) S4x1024x256 .f32)) :
    View.canon (pbT (arg2.view.writes (Elt Ideal) arg2.view.junk Lprev) ++ Lprev)
      = Cert.Fwht.stage h (View.canon Lprev) := by
  rw [← View.read_writes_junk_eq_canon arg2.view (pbT (arg2.view.writes (Elt Ideal) arg2.view.junk Lprev) ++ Lprev),
    View.writes_append, hloop, View.read_writes_junk_eq_canon]

/-- With one group the stage on group 0 is the stage. -/
theorem stageAt_512 (v : (Cert.Fwht.Sh 4).Idx → EReal) : Cert.Fwht.stageAt 512 0 v = Cert.Fwht.stage 512 v := by
  funext y
  have hy : (y 1).val < 1024 := (y 1).isLt
  unfold Cert.Fwht.stageAt
  rw [if_pos (by omega)]

/-- THE LAST STAGE: the pair of stores of half-width 512 on top of the stores `L` leaves stage 512 of what `L` left. -/
theorem canon_last (arg2 : Memref sig .tc .vmem S4x1024x256 .f32) (L : List (View.Piece (Elt Ideal) S4x1024x256 .f32)) :
    View.canon ((⟨Rect.unit (s := S4x1024x256) k0_off14 S4x512x256.size k0_off14_inb,
          k0_pay1 (F := Ideal)
            (k0_pay27 (View.readAt (Elt Ideal) arg2.view (Rect.unit (s := S4x1024x256) k0_off13 S4x512x256.size k0_off13_inb).toLoadRect
              (arg2.view.writes (Elt Ideal) arg2.view.junk L)))
            (k0_pay28 (View.readAt (Elt Ideal) arg2.view (Rect.unit (s := S4x1024x256) k0_off14 S4x512x256.size k0_off14_inb).toLoadRect
              (arg2.view.writes (Elt Ideal) arg2.view.junk L)))⟩ : View.Piece (Elt Ideal) S4x1024x256 .f32)
        :: ⟨Rect.unit (s := S4x1024x256) k0_off13 S4x512x256.size k0_off13_inb,
          k0_pay29 (F := Ideal)
            (View.readAt (Elt Ideal) arg2.view (Rect.unit (s := S4x1024x256) k0_off13 S4x512x256.size k0_off13_inb).toLoadRect
              (arg2.view.writes (Elt Ideal) arg2.view.junk L))
            (View.readAt (Elt Ideal) arg2.view (Rect.unit (s := S4x1024x256) k0_off14 S4x512x256.size k0_off14_inb).toLoadRect
              (arg2.view.writes (Elt Ideal) arg2.view.junk L))⟩
        :: L)
      = Cert.Fwht.stage 512 (View.canon L) := by
  rw [← View.read_writes_junk_eq_canon arg2.view]
  refine (Cert.Fwht.read_writes_pair arg2.view (arg2.view.writes (Elt Ideal) arg2.view.junk L) 512 0 0 Cert.Fwht.half_512
    (fun r hr => by constructor <;> intro _ <;> omega) (fun r h1 h2 => by constructor <;> intro _ <;> omega)
    k0_off13 k0_off14 S4x512x256.size k0_off13_eq k0_off14_eq rfl k0_off13_inb k0_off14_inb _ _ ?hw1 ?hw2).trans ?_
  case hw1 =>
    intro x
    unfold k0_pay29 k0_pay27 k0_pay28
    dsimp only
    rw [shapeCast_self, shapeCast_self]
    rfl
  case hw2 =>
    intro x
    unfold k0_pay1 k0_pay27 k0_pay28
    dsimp only
    rw [shapeCast_self, shapeCast_self]
    rfl
  rw [View.read_writes_junk_eq_canon]
  exact stageAt_512 _

/-- THE BLOCK A POINT LEAVES is the transform of the block it was given. -/
theorem out_eq (c : Dev nD) (i : grid0.Coords) (arg1 : Memref sig .tc .vmem S4x1024x256 .f32) (harg1 : arg1.IsWhole)
    (arg2 : Memref sig .tc .vmem S4x1024x256 .f32) (harg2 : arg2.IsWhole) (x0 : Vec Ideal S4x1024x256 .f32) :
    out0_A_1 (F := Ideal) c i arg1 harg1 arg2 harg2 x0 = Cert.Fwht.fwht x0 := by
  unfold out0_A_1
  rw [View.read_writes_junk_eq_canon]
  unfold kernelRun0_A
  dsimp only
  unfold kernelRun0_A.sl.r_1 kernelRun0_A.sl.r_2 kernelRun0_A.sl.v64 kernelRun0_A.sl.v67
  refine (canon_last arg2 _).trans ?_
  unfold Cert.Fwht.fwht
  refine congrArg (Cert.Fwht.stage 512) ?_
  refine (canon_layer arg2 256 (fun G => pb_k0_t6 (F := Ideal) Variants.none c none i arg1 harg1 arg2 harg2 _ G k0_t6_loop.trips)
    (fun G => loop_t6 Variants.none c none i arg1 harg1 arg2 harg2 _ G) _).trans ?_
  refine congrArg (Cert.Fwht.stage 256) ?_
  refine (canon_layer arg2 128 (fun G => pb_k0_t5 (F := Ideal) Variants.none c none i arg1 harg1 arg2 harg2 _ G k0_t5_loop.trips)
    (fun G => loop_t5 Variants.none c none i arg1 harg1 arg2 harg2 _ G) _).trans ?_
  refine congrArg (Cert.Fwht.stage 128) ?_
  refine (canon_layer arg2 64 (fun G => pb_k0_t4 (F := Ideal) Variants.none c none i arg1 harg1 arg2 harg2 _ G k0_t4_loop.trips)
    (fun G => loop_t4 Variants.none c none i arg1 harg1 arg2 harg2 _ G) _).trans ?_
  refine congrArg (Cert.Fwht.stage 64) ?_
  refine (canon_layer arg2 32 (fun G => pb_k0_t3 (F := Ideal) Variants.none c none i arg1 harg1 arg2 harg2 _ G k0_t3_loop.trips)
    (fun G => loop_t3 Variants.none c none i arg1 harg1 arg2 harg2 _ G) _).trans ?_
  refine congrArg (Cert.Fwht.stage 32) ?_
  refine (canon_layer arg2 16 (fun G => pb_k0_t2 (F := Ideal) Variants.none c none i arg1 harg1 arg2 harg2 _ G k0_t2_loop.trips)
    (fun G => loop_t2 Variants.none c none i arg1 harg1 arg2 harg2 _ G) _).trans ?_
  refine congrArg (Cert.Fwht.stage 16) ?_
  refine (canon_layer arg2 8 (fun G => pb_k0_t1 (F := Ideal) Variants.none c none i arg1 harg1 arg2 harg2 _ G k0_t1_loop.trips)
    (fun G => loop_t1 Variants.none c none i arg1 harg1 arg2 harg2 _ G) _).trans ?_
  refine congrArg (Cert.Fwht.stage 8) ?_
  unfold kernelRun0_A.sl.H1_1
  rw [View.canon_unit_zero (S := S4x1024x256) zero_offsets, first_value, pay2_eq]

end Cert.KernelIdeal.Gen

end
-- ==== Proof.KernelValue.lean ====
/-
  From blocks to the array. Grid point `t` stages slabs `4 t … 4 t + 3` (axis 0) of the argument, transforms them and
  writes them back to the same slabs of the result. The transform acts along axis 1 only, so the transform of a block
  of slabs is the block of the transform; the 32 points' blocks cover the array, and so the result array is the
  transform of the argument array.
-/
import proofs.«174154_j901943132182_2_alg».proof.Proof.Body
import proofs.«174154_j901943132182_2_alg».proof.Proof.Gen.KernelIdeal.Value
import Idealize.ShloMosaic.Lib.Pipeline.Value

noncomputable section

namespace Cert.KernelIdeal.FwhtValue

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Where a block sits in the array -/

/-- The two index maps, decided once over the 32 grid points: the argument's window and the result's window take the
    same block of slabs, that block is one of the 32, and on axes 1 and 2 both take the one block there is. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 31 :=
  (by decide +kernel : ∀ t : Fin grid0.N, _)

/-- Every one of the 32 blocks of slabs is some grid point's. -/
theorem idx_onto : ∀ q : Fin 32, ∃ t : Fin cfg0.N, win0_1.index t = ![q.val, 0, 0] :=
  (by decide +kernel : ∀ q : Fin 32, ∃ t : Fin grid0.N, win0_1.index t = ![q.val, 0, 0])

/-- Where element `y` of point `t`'s block of the argument sits in the argument array. -/
def embArg (t : Fin cfg0.N) : (Cert.Fwht.Sh 4).Idx → (Cert.Fwht.Sh 128).Idx := ((cfg0.win 0).blk t).view.emb

/-- Where element `y` of point `t`'s block of the result sits in the result array. -/
def embRes (t : Fin cfg0.N) : (Cert.Fwht.Sh 4).Idx → (Cert.Fwht.Sh 128).Idx := ((cfg0.win 1).blk t).view.emb

theorem embArg_0 (t : Fin cfg0.N) (y : (Cert.Fwht.Sh 4).Idx) : ((embArg t y) 0).val = win0_0.index t (0 : Fin 3) * 4 + 1 * (y 0).val := rfl
theorem embArg_1 (t : Fin cfg0.N) (y : (Cert.Fwht.Sh 4).Idx) : ((embArg t y) 1).val = win0_0.index t (1 : Fin 3) * 1024 + 1 * (y 1).val := rfl
theorem embArg_2 (t : Fin cfg0.N) (y : (Cert.Fwht.Sh 4).Idx) : ((embArg t y) 2).val = win0_0.index t (2 : Fin 3) * 256 + 1 * (y 2).val := rfl
theorem embRes_0 (t : Fin cfg0.N) (y : (Cert.Fwht.Sh 4).Idx) : ((embRes t y) 0).val = win0_1.index t (0 : Fin 3) * 4 + 1 * (y 0).val := rfl
theorem embRes_1 (t : Fin cfg0.N) (y : (Cert.Fwht.Sh 4).Idx) : ((embRes t y) 1).val = win0_1.index t (1 : Fin 3) * 1024 + 1 * (y 1).val := rfl
theorem embRes_2 (t : Fin cfg0.N) (y : (Cert.Fwht.Sh 4).Idx) : ((embRes t y) 2).val = win0_1.index t (2 : Fin 3) * 256 + 1 * (y 2).val := rfl

/-! ## The transform of a block is the block of the transform -/

/-- A block holds whole rows: an element of the block keeps its row in the array. -/
theorem embArg_row (t : Fin cfg0.N) (y : (Cert.Fwht.Sh 4).Idx) : ((embArg t y) 1).val = (y 1).val := by
  obtain ⟨e0, e1, e2, e3, e4, e5⟩ := idx_facts t
  rw [embArg_1, e1]; omega

/-- Moving to another row inside the block is moving to that row in the array: axes 0 and 2 are not touched. -/
theorem embArg_atRow (t : Fin cfg0.N) (y : (Cert.Fwht.Sh 4).Idx) (r : ℕ) :
    embArg t (Cert.Fwht.atRow y r) = Cert.Fwht.atRow (embArg t y) r := by
  obtain ⟨e0, e1, e2, e3, e4, e5⟩ := idx_facts t
  funext a
  match a with
  | ⟨0, _⟩ => rfl
  | ⟨1, _⟩ =>
    apply Fin.ext
    show win0_0.index t (1 : Fin 3) * 1024 + 1 * (r % 1024) = r % 1024
    omega
  | ⟨2, _⟩ => rfl

/-- The argument's block and the result's block at one point are the same slabs. -/
theorem embArg_eq_embRes (t : Fin cfg0.N) (y : (Cert.Fwht.Sh 4).Idx) : embArg t y = embRes t y := by
  obtain ⟨e0, e1, e2, e3, e4, e5⟩ := idx_facts t
  funext a
  match a with
  | ⟨0, _⟩ => apply Fin.ext; exact (embArg_0 t y).trans ((congrArg (· * 4 + 1 * (y 0).val) e0).trans (embRes_0 t y).symm)
  | ⟨1, _⟩ => apply Fin.ext; exact (embArg_1 t y).trans ((congrArg (· * 1024 + 1 * (y 1).val) (e1.trans e3.symm)).trans (embRes_1 t y).symm)
  | ⟨2, _⟩ => apply Fin.ext; exact (embArg_2 t y).trans ((congrArg (· * 256 + 1 * (y 2).val) (e2.trans e4.symm)).trans (embRes_2 t y).symm)

/-- THE TRANSFORM OF POINT `t`'s BLOCK of an array is point `t`'s block of the array's transform. -/
theorem fwht_block (t : Fin cfg0.N) (X : (Cert.Fwht.Sh 128).Idx → EReal) :
    Cert.Fwht.fwht (fun y => X (embArg t y)) = fun y => Cert.Fwht.fwht X (embRes t y) := by
  rw [Cert.Fwht.fwht_reindex X (embArg t) (embArg_row t) (embArg_atRow t)]
  funext y
  rw [embArg_eq_embRes]

/-- WHAT POINT `t` WRITES BACK is point `t`'s block of the transform of the argument array. -/
theorem flushed_eq (c : Dev nD) (t : Fin cfg0.N) :
    (dats m 0 c).flushed 1 t = ((cfg0.win 1).blk t).view.read (Elt Ideal) (Cert.Fwht.fwht (V m c main_arg0)) := by
  rw [Value.flushed1_A m c t, out_eq]
  funext j
  show Cert.Fwht.fwht (fun y => V m c main_arg0 (embArg t y)) j = Cert.Fwht.fwht (V m c main_arg0) (embRes t j)
  rw [fwht_block]

/-! ## The blocks cover the array -/

/-- An index of the result array is in point `t`'s block iff each coordinate is in the block's range on its axis. -/
theorem mem_blk (t : Fin cfg0.N) (i : S128x1024x256.Idx) :
    i ∈ ((cfg0.win 1).blk t).view.set ↔ ∀ a : Fin 3, win0_1.index t a * S4x1024x256.size a ≤ (i a).val ∧ (i a).val < win0_1.index t a * S4x1024x256.size a + S4x1024x256.size a := by
  show i ∈ ((View.whole main_v0).slice (win0_1.rect t)).set ↔ _
  rw [View.set_slice_whole, Rect.mem_set_unit]
  exact Iff.rfl

/-- Every index of the result array is in the block of the point that takes its slab's block, `(i 0) / 4`. -/
theorem cover (i : S128x1024x256.Idx) :
    ∃ t : Fin cfg0.N, (cfg0.win 1).flush t = true ∧ i ∈ ((cfg0.win 1).blk t).view.set := by
  have hi0 : (i 0).val < 128 := (i 0).isLt
  have hi1 : (i 1).val < 1024 := (i 1).isLt
  have hi2 : (i 2).val < 256 := (i 2).isLt
  obtain ⟨t, ht⟩ := idx_onto ⟨(i 0).val / 4, by omega⟩
  have q0 : win0_1.index t (0 : Fin 3) = (i 0).val / 4 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 4 ≤ (i 0).val ∧ (i 0).val < win0_1.index t (0 : Fin 3) * 4 + 4; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 256 ≤ (i 2).val ∧ (i 2).val < win0_1.index t (2 : Fin 3) * 256 + 256; omega

/-- THE RESULT ARRAY after the run is the transform of the argument array. -/
theorem final (c : Dev nD) :
    (dats m 0 c).arrAt 1 cfg0.N = Cert.Fwht.fwht (m ((c : Thread nD τ).loc main_arg0)) := by
  rw [(dats m 0 c).arrAt_eq_of_cover 1 (Cert.Fwht.fwht (V m c main_arg0)) (fun t _ => flushed_eq m c t) cover, V_main_arg0]

/-! ## The run, read -/

/-- On every core, every run of the program ends with the result array at the transform of the argument array and the
    argument array as launched. -/
theorem run : θ_run defs (onTc (τ := τ) (main (F := Ideal))) ⟨m, fun _ => 0, ρ⟩ fun r => ∀ c : Dev nD,
      r.2.mem ((c : Thread nD τ).loc main_v0) = Cert.Fwht.fwht (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.FwhtValue

end
-- ==== Proof.RefStage0.lean ====
/-
  Butterfly stage 1 of the transform, as the reference performs it: the 1024 rows are regrouped as 512 groups of
  2 × 1, the two halves of every group are taken apart, their sum and their difference are put back as the lower and
  the upper half, and the rows are flattened again. Row by row this is the stage of half-width 1.
-/
import proofs.«174154_j901943132182_2_alg».proof.Proof.Spec
import proofs.«174154_j901943132182_2_alg».proof.Proof.Gen.ReferenceIdeal
import Idealize.ShloMosaic.Lib.Pipeline.Value

noncomputable section

namespace Cert.ReferenceIdeal.Gen

open Idealize.ShloMosaic Idealize.SL.Sem

theorem ref_stage_0 (z : FVec Ideal S128x512x2x1x256 .f32) :
    shapeCast S128x1024x256 (concatenate S128x512x2x1x256 2 [⟨S128x512x1x1x256, (broadcastInDim S128x512x1x1x256 ![0, 1, 3, 4] bcast_S128x512x1x256_S128x512x1x1x256_0_1_3_4 (addf (shapeCast S128x512x1x256 (extractStridedSlice S128x512x1x1x256 ![0, 0, 0, 0, 0] z slices_S128x512x2x1x256_S128x512x1x1x256_0_0_0_0_0) shapeCasts_S128x512x1x1x256_S128x512x1x256) (shapeCast S128x512x1x256 (extractStridedSlice S128x512x1x1x256 ![0, 0, 1, 0, 0] z slices_S128x512x2x1x256_S128x512x1x1x256_0_0_1_0_0) shapeCasts_S128x512x1x1x256_S128x512x1x256)))⟩, ⟨S128x512x1x1x256, (broadcastInDim S128x512x1x1x256 ![0, 1, 3, 4] bcast_S128x512x1x256_S128x512x1x1x256_0_1_3_4 (subf (shapeCast S128x512x1x256 (extractStridedSlice S128x512x1x1x256 ![0, 0, 0, 0, 0] z slices_S128x512x2x1x256_S128x512x1x1x256_0_0_0_0_0) shapeCasts_S128x512x1x1x256_S128x512x1x256) (shapeCast S128x512x1x256 (extractStridedSlice S128x512x1x1x256 ![0, 0, 1, 0, 0] z slices_S128x512x2x1x256_S128x512x1x1x256_0_0_1_0_0) shapeCasts_S128x512x1x1x256_S128x512x1x256)))⟩] concatenates_S128x512x1x1x256_S128x512x1x1x256_S128x512x2x1x256_d2) shapeCasts_S128x512x2x1x256_S128x1024x256
      = Cert.Fwht.stage 1 (shapeCast S128x1024x256 z shapeCasts_S128x512x2x1x256_S128x1024x256) := by
  funext i
  obtain ⟨b, ⟨r, hr⟩, d, rfl⟩ : ∃ (b : Fin 128) (r : Fin 1024) (d : Fin 256), i = ValueIdx.ix3 b r d :=
    ⟨i 0, i 1, i 2, ValueIdx.eq_ix3 i⟩
  -- Flattening [128, 512, 2, 1, 256] to [128, 1024, 256]: row g·2 + p·1 + q is place (g, p, q).
  have flat : ∀ (w : FVec Ideal S128x512x2x1x256 .f32) (r' : ℕ) (h' : r' < 1024) (g : Fin 512) (p : Fin 2) (q : Fin 1),
      g.val * 2 + p.val * 1 + q.val = r' →
      shapeCast S128x1024x256 w shapeCasts_S128x512x2x1x256_S128x1024x256 (ValueIdx.ix3 b ⟨r', h'⟩ d)
        = w (ValueIdx.ix5 b g p q d) := by
    intro w r' h' g p q e
    refine shapeCast_apply w _ _ _ ?_
    rw [Shape.rowMajor_val_five, Shape.rowMajor_val_three]
    show (((b.val * 512 + g.val) * 2 + p.val) * 1 + q.val) * 256 + d.val = (b.val * 1024 + r') * 256 + d.val
    omega
  -- Dropping the axis of extent one keeps the row-major position.
  have drop : ∀ (w : FVec Ideal S128x512x1x1x256 .f32) (g : Fin 512) (q : Fin 1),
      shapeCast S128x512x1x256 w shapeCasts_S128x512x1x1x256_S128x512x1x256 (ValueIdx.ix4 b g q d)
        = w (ValueIdx.ix5 b g ⟨0, Nat.one_pos⟩ q d) := by
    intro w g q
    refine shapeCast_apply w _ _ _ ?_
    rw [Shape.rowMajor_val_five, Shape.rowMajor_val_four]
    show (((b.val * 512 + g.val) * 1 + 0) * 1 + q.val) * 256 + d.val = ((b.val * 512 + g.val) * 1 + q.val) * 256 + d.val
    omega
  -- The lower half of every group is the slice at offset 0 along the axis of extent two …
  have lower : ∀ (g : Fin 512) (q : Fin 1),
      extractStridedSlice S128x512x1x1x256 ![0, 0, 0, 0, 0] z slices_S128x512x2x1x256_S128x512x1x1x256_0_0_0_0_0
          (ValueIdx.ix5 b g ⟨0, Nat.one_pos⟩ q d)
        = z (ValueIdx.ix5 b g ⟨0, Nat.two_pos⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 0 = 0 + 0; omega
    | ⟨3, _⟩ => show q.val = 0 + q.val; omega
    | ⟨4, _⟩ => show d.val = 0 + d.val; omega
  -- … and the upper half the slice at offset 1.
  have upper : ∀ (g : Fin 512) (q : Fin 1),
      extractStridedSlice S128x512x1x1x256 ![0, 0, 1, 0, 0] z slices_S128x512x2x1x256_S128x512x1x1x256_0_0_1_0_0
          (ValueIdx.ix5 b g ⟨0, Nat.one_pos⟩ q d)
        = z (ValueIdx.ix5 b g ⟨1, Nat.one_lt_two⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 1 = 1 + 0; omega
    | ⟨3, _⟩ => show q.val = 0 + q.val; omega
    | ⟨4, _⟩ => show d.val = 0 + d.val; omega
  -- Putting the axis of extent one back: the new axis is read at 0, the others are kept (an operand axis of extent
  -- one is read at 0, which is where its only coordinate is).
  have unit : ∀ (w : FVec Ideal S128x512x1x256 .f32) (g : Fin 512) (q : Fin 1),
      broadcastInDim S128x512x1x1x256 ![0, 1, 3, 4] bcast_S128x512x1x256_S128x512x1x1x256_0_1_3_4 w
          (ValueIdx.ix5 b g ⟨0, Nat.one_pos⟩ q d)
        = w (ValueIdx.ix4 b g q d) := by
    intro w g q
    refine broadcastInDim_apply _ _ w _ _ fun a => ?_
    match a with
    | ⟨0, _⟩ => show b.val = if (128 : ℕ) = 1 then 0 else b.val; split <;> omega
    | ⟨1, _⟩ => show g.val = if (512 : ℕ) = 1 then 0 else g.val; split <;> omega
    | ⟨2, _⟩ => show q.val = if (1 : ℕ) = 1 then 0 else q.val; split <;> omega
    | ⟨3, _⟩ => show d.val = if (256 : ℕ) = 1 then 0 else d.val; split <;> omega
  -- The concatenation along the axis of extent two reads its first piece at 0 and its second piece at 1.
  have catL : ∀ (w₁ w₂ : FVec Ideal S128x512x1x1x256 .f32) (g : Fin 512) (q : Fin 1),
      concatenate S128x512x2x1x256 2 [⟨S128x512x1x1x256, w₁⟩, ⟨S128x512x1x1x256, w₂⟩]
          concatenates_S128x512x1x1x256_S128x512x1x1x256_S128x512x2x1x256_d2 (ValueIdx.ix5 b g ⟨0, Nat.two_pos⟩ q d)
        = w₁ (ValueIdx.ix5 b g ⟨0, Nat.one_pos⟩ q d) := by
    intro w₁ w₂ g q
    refine concatenate_pair_apply_left (t := S128x512x2x1x256) 2 w₁ w₂ _ _ rfl _ fun a => ?_
    match a with
    | ⟨0, _⟩ => rfl
    | ⟨1, _⟩ => rfl
    | ⟨2, _⟩ => rfl
    | ⟨3, _⟩ => rfl
    | ⟨4, _⟩ => rfl
  have catR : ∀ (w₁ w₂ : FVec Ideal S128x512x1x1x256 .f32) (g : Fin 512) (q : Fin 1),
      concatenate S128x512x2x1x256 2 [⟨S128x512x1x1x256, w₁⟩, ⟨S128x512x1x1x256, w₂⟩]
          concatenates_S128x512x1x1x256_S128x512x1x1x256_S128x512x2x1x256_d2 (ValueIdx.ix5 b g ⟨1, Nat.one_lt_two⟩ q d)
        = w₂ (ValueIdx.ix5 b g ⟨0, Nat.one_pos⟩ q d) := by
    intro w₁ w₂ g q
    refine concatenate_pair_apply_right (t := S128x512x2x1x256) 2 w₁ w₂ _ _ rfl rfl _ (fun a ha => ?_) ?_
    · match a with
      | ⟨0, _⟩ => rfl
      | ⟨1, _⟩ => rfl
      | ⟨2, _⟩ => exact absurd rfl ha
      | ⟨3, _⟩ => rfl
      | ⟨4, _⟩ => rfl
    · show 0 + 1 = 1
      rfl
  -- Row r lies in group r / 2 at place r % 1 of its half, and its half is (r / 1) % 2.
  have hg : r / 2 < 512 := by omega
  have hq : r % 1 < 1 := by omega
  by_cases he : (r / 1) % 2 = 0
  · -- a lower row: the sum of the row and its partner 1 rows further on
    refine Eq.trans ?_ (if_pos he).symm
    have e0 : (⟨r / 2, hg⟩ : Fin 512).val * 2 + (⟨0, Nat.two_pos⟩ : Fin 2).val * 1 + (⟨r % 1, hq⟩ : Fin 1).val = r := by
      show r / 2 * 2 + 0 * 1 + r % 1 = r
      omega
    have e1 : (⟨r / 2, hg⟩ : Fin 512).val * 2 + (⟨1, Nat.one_lt_two⟩ : Fin 2).val * 1 + (⟨r % 1, hq⟩ : Fin 1).val
        = (r + 1) % 1024 := by
      show r / 2 * 2 + 1 * 1 + r % 1 = (r + 1) % 1024
      omega
    refine (flat _ r hr _ _ _ e0).trans ((catL _ _ _ _).trans ((unit _ _ _).trans ((ValueIdx.addf_apply _ _ _).trans ?_)))
    exact congrArg₂ (fun x y : EReal => x + y)
      ((drop _ _ _).trans ((lower _ _).trans (flat z r hr _ _ _ e0).symm))
      ((drop _ _ _).trans ((upper _ _).trans (flat z ((r + 1) % 1024) (Nat.mod_lt _ (by norm_num)) _ _ _ e1).symm))
  · -- an upper row: its partner 1 rows back, less the row
    refine Eq.trans ?_ (if_neg he).symm
    have e0 : (⟨r / 2, hg⟩ : Fin 512).val * 2 + (⟨0, Nat.two_pos⟩ : Fin 2).val * 1 + (⟨r % 1, hq⟩ : Fin 1).val
        = (r - 1) % 1024 := by
      show r / 2 * 2 + 0 * 1 + r % 1 = (r - 1) % 1024
      omega
    have e1 : (⟨r / 2, hg⟩ : Fin 512).val * 2 + (⟨1, Nat.one_lt_two⟩ : Fin 2).val * 1 + (⟨r % 1, hq⟩ : Fin 1).val = r := by
      show r / 2 * 2 + 1 * 1 + r % 1 = r
      omega
    refine (flat _ r hr _ _ _ e1).trans ((catR _ _ _ _).trans ((unit _ _ _).trans ((ValueIdx.subf_apply _ _ _).trans ?_)))
    exact congrArg₂ (fun x y : EReal => x - y)
      ((drop _ _ _).trans ((lower _ _).trans (flat z ((r - 1) % 1024) (Nat.mod_lt _ (by norm_num)) _ _ _ e0).symm))
      ((drop _ _ _).trans ((upper _ _).trans (flat z r hr _ _ _ e1).symm))

end Cert.ReferenceIdeal.Gen

end
-- ==== Proof.RefStage1.lean ====
/-
  Butterfly stage 2 of the transform, as the reference performs it: the 1024 rows are regrouped as 256 groups of
  2 × 2, the two halves of every group are taken apart, their sum and their difference are put back as the lower and
  the upper half, and the rows are flattened again. Row by row this is the stage of half-width 2.
-/
import proofs.«174154_j901943132182_2_alg».proof.Proof.Spec
import proofs.«174154_j901943132182_2_alg».proof.Proof.Gen.ReferenceIdeal
import Idealize.ShloMosaic.Lib.Pipeline.Value

noncomputable section

namespace Cert.ReferenceIdeal.Gen

open Idealize.ShloMosaic Idealize.SL.Sem

theorem ref_stage_1 (z : FVec Ideal S128x256x2x2x256 .f32) :
    shapeCast S128x1024x256 (concatenate S128x256x2x2x256 2 [⟨S128x256x1x2x256, (broadcastInDim S128x256x1x2x256 ![0, 1, 3, 4] bcast_S128x256x2x256_S128x256x1x2x256_0_1_3_4 (addf (shapeCast S128x256x2x256 (extractStridedSlice S128x256x1x2x256 ![0, 0, 0, 0, 0] z slices_S128x256x2x2x256_S128x256x1x2x256_0_0_0_0_0) shapeCasts_S128x256x1x2x256_S128x256x2x256) (shapeCast S128x256x2x256 (extractStridedSlice S128x256x1x2x256 ![0, 0, 1, 0, 0] z slices_S128x256x2x2x256_S128x256x1x2x256_0_0_1_0_0) shapeCasts_S128x256x1x2x256_S128x256x2x256)))⟩, ⟨S128x256x1x2x256, (broadcastInDim S128x256x1x2x256 ![0, 1, 3, 4] bcast_S128x256x2x256_S128x256x1x2x256_0_1_3_4 (subf (shapeCast S128x256x2x256 (extractStridedSlice S128x256x1x2x256 ![0, 0, 0, 0, 0] z slices_S128x256x2x2x256_S128x256x1x2x256_0_0_0_0_0) shapeCasts_S128x256x1x2x256_S128x256x2x256) (shapeCast S128x256x2x256 (extractStridedSlice S128x256x1x2x256 ![0, 0, 1, 0, 0] z slices_S128x256x2x2x256_S128x256x1x2x256_0_0_1_0_0) shapeCasts_S128x256x1x2x256_S128x256x2x256)))⟩] concatenates_S128x256x1x2x256_S128x256x1x2x256_S128x256x2x2x256_d2) shapeCasts_S128x256x2x2x256_S128x1024x256
      = Cert.Fwht.stage 2 (shapeCast S128x1024x256 z shapeCasts_S128x256x2x2x256_S128x1024x256) := by
  funext i
  obtain ⟨b, ⟨r, hr⟩, d, rfl⟩ : ∃ (b : Fin 128) (r : Fin 1024) (d : Fin 256), i = ValueIdx.ix3 b r d :=
    ⟨i 0, i 1, i 2, ValueIdx.eq_ix3 i⟩
  -- Flattening [128, 256, 2, 2, 256] to [128, 1024, 256]: row g·4 + p·2 + q is place (g, p, q).
  have flat : ∀ (w : FVec Ideal S128x256x2x2x256 .f32) (r' : ℕ) (h' : r' < 1024) (g : Fin 256) (p : Fin 2) (q : Fin 2),
      g.val * 4 + p.val * 2 + q.val = r' →
      shapeCast S128x1024x256 w shapeCasts_S128x256x2x2x256_S128x1024x256 (ValueIdx.ix3 b ⟨r', h'⟩ d)
        = w (ValueIdx.ix5 b g p q d) := by
    intro w r' h' g p q e
    refine shapeCast_apply w _ _ _ ?_
    rw [Shape.rowMajor_val_five, Shape.rowMajor_val_three]
    show (((b.val * 256 + g.val) * 2 + p.val) * 2 + q.val) * 256 + d.val = (b.val * 1024 + r') * 256 + d.val
    omega
  -- Dropping the axis of extent one keeps the row-major position.
  have drop : ∀ (w : FVec Ideal S128x256x1x2x256 .f32) (g : Fin 256) (q : Fin 2),
      shapeCast S128x256x2x256 w shapeCasts_S128x256x1x2x256_S128x256x2x256 (ValueIdx.ix4 b g q d)
        = w (ValueIdx.ix5 b g ⟨0, Nat.one_pos⟩ q d) := by
    intro w g q
    refine shapeCast_apply w _ _ _ ?_
    rw [Shape.rowMajor_val_five, Shape.rowMajor_val_four]
    show (((b.val * 256 + g.val) * 1 + 0) * 2 + q.val) * 256 + d.val = ((b.val * 256 + g.val) * 2 + q.val) * 256 + d.val
    omega
  -- The lower half of every group is the slice at offset 0 along the axis of extent two …
  have lower : ∀ (g : Fin 256) (q : Fin 2),
      extractStridedSlice S128x256x1x2x256 ![0, 0, 0, 0, 0] z slices_S128x256x2x2x256_S128x256x1x2x256_0_0_0_0_0
          (ValueIdx.ix5 b g ⟨0, Nat.one_pos⟩ q d)
        = z (ValueIdx.ix5 b g ⟨0, Nat.two_pos⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 0 = 0 + 0; omega
    | ⟨3, _⟩ => show q.val = 0 + q.val; omega
    | ⟨4, _⟩ => show d.val = 0 + d.val; omega
  -- … and the upper half the slice at offset 1.
  have upper : ∀ (g : Fin 256) (q : Fin 2),
      extractStridedSlice S128x256x1x2x256 ![0, 0, 1, 0, 0] z slices_S128x256x2x2x256_S128x256x1x2x256_0_0_1_0_0
          (ValueIdx.ix5 b g ⟨0, Nat.one_pos⟩ q d)
        = z (ValueIdx.ix5 b g ⟨1, Nat.one_lt_two⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 1 = 1 + 0; omega
    | ⟨3, _⟩ => show q.val = 0 + q.val; omega
    | ⟨4, _⟩ => show d.val = 0 + d.val; omega
  -- Putting the axis of extent one back: the new axis is read at 0, the others are kept (an operand axis of extent
  -- one is read at 0, which is where its only coordinate is).
  have unit : ∀ (w : FVec Ideal S128x256x2x256 .f32) (g : Fin 256) (q : Fin 2),
      broadcastInDim S128x256x1x2x256 ![0, 1, 3, 4] bcast_S128x256x2x256_S128x256x1x2x256_0_1_3_4 w
          (ValueIdx.ix5 b g ⟨0, Nat.one_pos⟩ q d)
        = w (ValueIdx.ix4 b g q d) := by
    intro w g q
    refine broadcastInDim_apply _ _ w _ _ fun a => ?_
    match a with
    | ⟨0, _⟩ => show b.val = if (128 : ℕ) = 1 then 0 else b.val; split <;> omega
    | ⟨1, _⟩ => show g.val = if (256 : ℕ) = 1 then 0 else g.val; split <;> omega
    | ⟨2, _⟩ => show q.val = if (2 : ℕ) = 1 then 0 else q.val; split <;> omega
    | ⟨3, _⟩ => show d.val = if (256 : ℕ) = 1 then 0 else d.val; split <;> omega
  -- The concatenation along the axis of extent two reads its first piece at 0 and its second piece at 1.
  have catL : ∀ (w₁ w₂ : FVec Ideal S128x256x1x2x256 .f32) (g : Fin 256) (q : Fin 2),
      concatenate S128x256x2x2x256 2 [⟨S128x256x1x2x256, w₁⟩, ⟨S128x256x1x2x256, w₂⟩]
          concatenates_S128x256x1x2x256_S128x256x1x2x256_S128x256x2x2x256_d2 (ValueIdx.ix5 b g ⟨0, Nat.two_pos⟩ q d)
        = w₁ (ValueIdx.ix5 b g ⟨0, Nat.one_pos⟩ q d) := by
    intro w₁ w₂ g q
    refine concatenate_pair_apply_left (t := S128x256x2x2x256) 2 w₁ w₂ _ _ rfl _ fun a => ?_
    match a with
    | ⟨0, _⟩ => rfl
    | ⟨1, _⟩ => rfl
    | ⟨2, _⟩ => rfl
    | ⟨3, _⟩ => rfl
    | ⟨4, _⟩ => rfl
  have catR : ∀ (w₁ w₂ : FVec Ideal S128x256x1x2x256 .f32) (g : Fin 256) (q : Fin 2),
      concatenate S128x256x2x2x256 2 [⟨S128x256x1x2x256, w₁⟩, ⟨S128x256x1x2x256, w₂⟩]
          concatenates_S128x256x1x2x256_S128x256x1x2x256_S128x256x2x2x256_d2 (ValueIdx.ix5 b g ⟨1, Nat.one_lt_two⟩ q d)
        = w₂ (ValueIdx.ix5 b g ⟨0, Nat.one_pos⟩ q d) := by
    intro w₁ w₂ g q
    refine concatenate_pair_apply_right (t := S128x256x2x2x256) 2 w₁ w₂ _ _ rfl rfl _ (fun a ha => ?_) ?_
    · match a with
      | ⟨0, _⟩ => rfl
      | ⟨1, _⟩ => rfl
      | ⟨2, _⟩ => exact absurd rfl ha
      | ⟨3, _⟩ => rfl
      | ⟨4, _⟩ => rfl
    · show 0 + 1 = 1
      rfl
  -- Row r lies in group r / 4 at place r % 2 of its half, and its half is (r / 2) % 2.
  have hg : r / 4 < 256 := by omega
  have hq : r % 2 < 2 := by omega
  by_cases he : (r / 2) % 2 = 0
  · -- a lower row: the sum of the row and its partner 2 rows further on
    refine Eq.trans ?_ (if_pos he).symm
    have e0 : (⟨r / 4, hg⟩ : Fin 256).val * 4 + (⟨0, Nat.two_pos⟩ : Fin 2).val * 2 + (⟨r % 2, hq⟩ : Fin 2).val = r := by
      show r / 4 * 4 + 0 * 2 + r % 2 = r
      omega
    have e1 : (⟨r / 4, hg⟩ : Fin 256).val * 4 + (⟨1, Nat.one_lt_two⟩ : Fin 2).val * 2 + (⟨r % 2, hq⟩ : Fin 2).val
        = (r + 2) % 1024 := by
      show r / 4 * 4 + 1 * 2 + r % 2 = (r + 2) % 1024
      omega
    refine (flat _ r hr _ _ _ e0).trans ((catL _ _ _ _).trans ((unit _ _ _).trans ((ValueIdx.addf_apply _ _ _).trans ?_)))
    exact congrArg₂ (fun x y : EReal => x + y)
      ((drop _ _ _).trans ((lower _ _).trans (flat z r hr _ _ _ e0).symm))
      ((drop _ _ _).trans ((upper _ _).trans (flat z ((r + 2) % 1024) (Nat.mod_lt _ (by norm_num)) _ _ _ e1).symm))
  · -- an upper row: its partner 2 rows back, less the row
    refine Eq.trans ?_ (if_neg he).symm
    have e0 : (⟨r / 4, hg⟩ : Fin 256).val * 4 + (⟨0, Nat.two_pos⟩ : Fin 2).val * 2 + (⟨r % 2, hq⟩ : Fin 2).val
        = (r - 2) % 1024 := by
      show r / 4 * 4 + 0 * 2 + r % 2 = (r - 2) % 1024
      omega
    have e1 : (⟨r / 4, hg⟩ : Fin 256).val * 4 + (⟨1, Nat.one_lt_two⟩ : Fin 2).val * 2 + (⟨r % 2, hq⟩ : Fin 2).val = r := by
      show r / 4 * 4 + 1 * 2 + r % 2 = r
      omega
    refine (flat _ r hr _ _ _ e1).trans ((catR _ _ _ _).trans ((unit _ _ _).trans ((ValueIdx.subf_apply _ _ _).trans ?_)))
    exact congrArg₂ (fun x y : EReal => x - y)
      ((drop _ _ _).trans ((lower _ _).trans (flat z ((r - 2) % 1024) (Nat.mod_lt _ (by norm_num)) _ _ _ e0).symm))
      ((drop _ _ _).trans ((upper _ _).trans (flat z r hr _ _ _ e1).symm))

end Cert.ReferenceIdeal.Gen

end
-- ==== Proof.RefStage2.lean ====
/-
  Butterfly stage 4 of the transform, as the reference performs it: the 1024 rows are regrouped as 128 groups of
  2 × 4, the two halves of every group are taken apart, their sum and their difference are put back as the lower and
  the upper half, and the rows are flattened again. Row by row this is the stage of half-width 4.
-/
import proofs.«174154_j901943132182_2_alg».proof.Proof.Spec
import proofs.«174154_j901943132182_2_alg».proof.Proof.Gen.ReferenceIdeal
import Idealize.ShloMosaic.Lib.Pipeline.Value

noncomputable section

namespace Cert.ReferenceIdeal.Gen

open Idealize.ShloMosaic Idealize.SL.Sem

theorem ref_stage_2 (z : FVec Ideal S128x128x2x4x256 .f32) :
    shapeCast S128x1024x256 (concatenate S128x128x2x4x256 2 [⟨S128x128x1x4x256, (broadcastInDim S128x128x1x4x256 ![0, 1, 3, 4] bcast_S128x128x4x256_S128x128x1x4x256_0_1_3_4 (addf (shapeCast S128x128x4x256 (extractStridedSlice S128x128x1x4x256 ![0, 0, 0, 0, 0] z slices_S128x128x2x4x256_S128x128x1x4x256_0_0_0_0_0) shapeCasts_S128x128x1x4x256_S128x128x4x256) (shapeCast S128x128x4x256 (extractStridedSlice S128x128x1x4x256 ![0, 0, 1, 0, 0] z slices_S128x128x2x4x256_S128x128x1x4x256_0_0_1_0_0) shapeCasts_S128x128x1x4x256_S128x128x4x256)))⟩, ⟨S128x128x1x4x256, (broadcastInDim S128x128x1x4x256 ![0, 1, 3, 4] bcast_S128x128x4x256_S128x128x1x4x256_0_1_3_4 (subf (shapeCast S128x128x4x256 (extractStridedSlice S128x128x1x4x256 ![0, 0, 0, 0, 0] z slices_S128x128x2x4x256_S128x128x1x4x256_0_0_0_0_0) shapeCasts_S128x128x1x4x256_S128x128x4x256) (shapeCast S128x128x4x256 (extractStridedSlice S128x128x1x4x256 ![0, 0, 1, 0, 0] z slices_S128x128x2x4x256_S128x128x1x4x256_0_0_1_0_0) shapeCasts_S128x128x1x4x256_S128x128x4x256)))⟩] concatenates_S128x128x1x4x256_S128x128x1x4x256_S128x128x2x4x256_d2) shapeCasts_S128x128x2x4x256_S128x1024x256
      = Cert.Fwht.stage 4 (shapeCast S128x1024x256 z shapeCasts_S128x128x2x4x256_S128x1024x256) := by
  funext i
  obtain ⟨b, ⟨r, hr⟩, d, rfl⟩ : ∃ (b : Fin 128) (r : Fin 1024) (d : Fin 256), i = ValueIdx.ix3 b r d :=
    ⟨i 0, i 1, i 2, ValueIdx.eq_ix3 i⟩
  -- Flattening [128, 128, 2, 4, 256] to [128, 1024, 256]: row g·8 + p·4 + q is place (g, p, q).
  have flat : ∀ (w : FVec Ideal S128x128x2x4x256 .f32) (r' : ℕ) (h' : r' < 1024) (g : Fin 128) (p : Fin 2) (q : Fin 4),
      g.val * 8 + p.val * 4 + q.val = r' →
      shapeCast S128x1024x256 w shapeCasts_S128x128x2x4x256_S128x1024x256 (ValueIdx.ix3 b ⟨r', h'⟩ d)
        = w (ValueIdx.ix5 b g p q d) := by
    intro w r' h' g p q e
    refine shapeCast_apply w _ _ _ ?_
    rw [Shape.rowMajor_val_five, Shape.rowMajor_val_three]
    show (((b.val * 128 + g.val) * 2 + p.val) * 4 + q.val) * 256 + d.val = (b.val * 1024 + r') * 256 + d.val
    omega
  -- Dropping the axis of extent one keeps the row-major position.
  have drop : ∀ (w : FVec Ideal S128x128x1x4x256 .f32) (g : Fin 128) (q : Fin 4),
      shapeCast S128x128x4x256 w shapeCasts_S128x128x1x4x256_S128x128x4x256 (ValueIdx.ix4 b g q d)
        = w (ValueIdx.ix5 b g ⟨0, Nat.one_pos⟩ q d) := by
    intro w g q
    refine shapeCast_apply w _ _ _ ?_
    rw [Shape.rowMajor_val_five, Shape.rowMajor_val_four]
    show (((b.val * 128 + g.val) * 1 + 0) * 4 + q.val) * 256 + d.val = ((b.val * 128 + g.val) * 4 + q.val) * 256 + d.val
    omega
  -- The lower half of every group is the slice at offset 0 along the axis of extent two …
  have lower : ∀ (g : Fin 128) (q : Fin 4),
      extractStridedSlice S128x128x1x4x256 ![0, 0, 0, 0, 0] z slices_S128x128x2x4x256_S128x128x1x4x256_0_0_0_0_0
          (ValueIdx.ix5 b g ⟨0, Nat.one_pos⟩ q d)
        = z (ValueIdx.ix5 b g ⟨0, Nat.two_pos⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 0 = 0 + 0; omega
    | ⟨3, _⟩ => show q.val = 0 + q.val; omega
    | ⟨4, _⟩ => show d.val = 0 + d.val; omega
  -- … and the upper half the slice at offset 1.
  have upper : ∀ (g : Fin 128) (q : Fin 4),
      extractStridedSlice S128x128x1x4x256 ![0, 0, 1, 0, 0] z slices_S128x128x2x4x256_S128x128x1x4x256_0_0_1_0_0
          (ValueIdx.ix5 b g ⟨0, Nat.one_pos⟩ q d)
        = z (ValueIdx.ix5 b g ⟨1, Nat.one_lt_two⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 1 = 1 + 0; omega
    | ⟨3, _⟩ => show q.val = 0 + q.val; omega
    | ⟨4, _⟩ => show d.val = 0 + d.val; omega
  -- Putting the axis of extent one back: the new axis is read at 0, the others are kept (an operand axis of extent
  -- one is read at 0, which is where its only coordinate is).
  have unit : ∀ (w : FVec Ideal S128x128x4x256 .f32) (g : Fin 128) (q : Fin 4),
      broadcastInDim S128x128x1x4x256 ![0, 1, 3, 4] bcast_S128x128x4x256_S128x128x1x4x256_0_1_3_4 w
          (ValueIdx.ix5 b g ⟨0, Nat.one_pos⟩ q d)
        = w (ValueIdx.ix4 b g q d) := by
    intro w g q
    refine broadcastInDim_apply _ _ w _ _ fun a => ?_
    match a with
    | ⟨0, _⟩ => show b.val = if (128 : ℕ) = 1 then 0 else b.val; split <;> omega
    | ⟨1, _⟩ => show g.val = if (128 : ℕ) = 1 then 0 else g.val; split <;> omega
    | ⟨2, _⟩ => show q.val = if (4 : ℕ) = 1 then 0 else q.val; split <;> omega
    | ⟨3, _⟩ => show d.val = if (256 : ℕ) = 1 then 0 else d.val; split <;> omega
  -- The concatenation along the axis of extent two reads its first piece at 0 and its second piece at 1.
  have catL : ∀ (w₁ w₂ : FVec Ideal S128x128x1x4x256 .f32) (g : Fin 128) (q : Fin 4),
      concatenate S128x128x2x4x256 2 [⟨S128x128x1x4x256, w₁⟩, ⟨S128x128x1x4x256, w₂⟩]
          concatenates_S128x128x1x4x256_S128x128x1x4x256_S128x128x2x4x256_d2 (ValueIdx.ix5 b g ⟨0, Nat.two_pos⟩ q d)
        = w₁ (ValueIdx.ix5 b g ⟨0, Nat.one_pos⟩ q d) := by
    intro w₁ w₂ g q
    refine concatenate_pair_apply_left (t := S128x128x2x4x256) 2 w₁ w₂ _ _ rfl _ fun a => ?_
    match a with
    | ⟨0, _⟩ => rfl
    | ⟨1, _⟩ => rfl
    | ⟨2, _⟩ => rfl
    | ⟨3, _⟩ => rfl
    | ⟨4, _⟩ => rfl
  have catR : ∀ (w₁ w₂ : FVec Ideal S128x128x1x4x256 .f32) (g : Fin 128) (q : Fin 4),
      concatenate S128x128x2x4x256 2 [⟨S128x128x1x4x256, w₁⟩, ⟨S128x128x1x4x256, w₂⟩]
          concatenates_S128x128x1x4x256_S128x128x1x4x256_S128x128x2x4x256_d2 (ValueIdx.ix5 b g ⟨1, Nat.one_lt_two⟩ q d)
        = w₂ (ValueIdx.ix5 b g ⟨0, Nat.one_pos⟩ q d) := by
    intro w₁ w₂ g q
    refine concatenate_pair_apply_right (t := S128x128x2x4x256) 2 w₁ w₂ _ _ rfl rfl _ (fun a ha => ?_) ?_
    · match a with
      | ⟨0, _⟩ => rfl
      | ⟨1, _⟩ => rfl
      | ⟨2, _⟩ => exact absurd rfl ha
      | ⟨3, _⟩ => rfl
      | ⟨4, _⟩ => rfl
    · show 0 + 1 = 1
      rfl
  -- Row r lies in group r / 8 at place r % 4 of its half, and its half is (r / 4) % 2.
  have hg : r / 8 < 128 := by omega
  have hq : r % 4 < 4 := by omega
  by_cases he : (r / 4) % 2 = 0
  · -- a lower row: the sum of the row and its partner 4 rows further on
    refine Eq.trans ?_ (if_pos he).symm
    have e0 : (⟨r / 8, hg⟩ : Fin 128).val * 8 + (⟨0, Nat.two_pos⟩ : Fin 2).val * 4 + (⟨r % 4, hq⟩ : Fin 4).val = r := by
      show r / 8 * 8 + 0 * 4 + r % 4 = r
      omega
    have e1 : (⟨r / 8, hg⟩ : Fin 128).val * 8 + (⟨1, Nat.one_lt_two⟩ : Fin 2).val * 4 + (⟨r % 4, hq⟩ : Fin 4).val
        = (r + 4) % 1024 := by
      show r / 8 * 8 + 1 * 4 + r % 4 = (r + 4) % 1024
      omega
    refine (flat _ r hr _ _ _ e0).trans ((catL _ _ _ _).trans ((unit _ _ _).trans ((ValueIdx.addf_apply _ _ _).trans ?_)))
    exact congrArg₂ (fun x y : EReal => x + y)
      ((drop _ _ _).trans ((lower _ _).trans (flat z r hr _ _ _ e0).symm))
      ((drop _ _ _).trans ((upper _ _).trans (flat z ((r + 4) % 1024) (Nat.mod_lt _ (by norm_num)) _ _ _ e1).symm))
  · -- an upper row: its partner 4 rows back, less the row
    refine Eq.trans ?_ (if_neg he).symm
    have e0 : (⟨r / 8, hg⟩ : Fin 128).val * 8 + (⟨0, Nat.two_pos⟩ : Fin 2).val * 4 + (⟨r % 4, hq⟩ : Fin 4).val
        = (r - 4) % 1024 := by
      show r / 8 * 8 + 0 * 4 + r % 4 = (r - 4) % 1024
      omega
    have e1 : (⟨r / 8, hg⟩ : Fin 128).val * 8 + (⟨1, Nat.one_lt_two⟩ : Fin 2).val * 4 + (⟨r % 4, hq⟩ : Fin 4).val = r := by
      show r / 8 * 8 + 1 * 4 + r % 4 = r
      omega
    refine (flat _ r hr _ _ _ e1).trans ((catR _ _ _ _).trans ((unit _ _ _).trans ((ValueIdx.subf_apply _ _ _).trans ?_)))
    exact congrArg₂ (fun x y : EReal => x - y)
      ((drop _ _ _).trans ((lower _ _).trans (flat z ((r - 4) % 1024) (Nat.mod_lt _ (by norm_num)) _ _ _ e0).symm))
      ((drop _ _ _).trans ((upper _ _).trans (flat z r hr _ _ _ e1).symm))

end Cert.ReferenceIdeal.Gen

end
-- ==== Proof.RefStage3.lean ====
/-
  Butterfly stage 8 of the transform, as the reference performs it: the 1024 rows are regrouped as 64 groups of
  2 × 8, the two halves of every group are taken apart, their sum and their difference are put back as the lower and
  the upper half, and the rows are flattened again. Row by row this is the stage of half-width 8.
-/
import proofs.«174154_j901943132182_2_alg».proof.Proof.Spec
import proofs.«174154_j901943132182_2_alg».proof.Proof.Gen.ReferenceIdeal
import Idealize.ShloMosaic.Lib.Pipeline.Value

noncomputable section

namespace Cert.ReferenceIdeal.Gen

open Idealize.ShloMosaic Idealize.SL.Sem

theorem ref_stage_3 (z : FVec Ideal S128x64x2x8x256 .f32) :
    shapeCast S128x1024x256 (concatenate S128x64x2x8x256 2 [⟨S128x64x1x8x256, (broadcastInDim S128x64x1x8x256 ![0, 1, 3, 4] bcast_S128x64x8x256_S128x64x1x8x256_0_1_3_4 (addf (shapeCast S128x64x8x256 (extractStridedSlice S128x64x1x8x256 ![0, 0, 0, 0, 0] z slices_S128x64x2x8x256_S128x64x1x8x256_0_0_0_0_0) shapeCasts_S128x64x1x8x256_S128x64x8x256) (shapeCast S128x64x8x256 (extractStridedSlice S128x64x1x8x256 ![0, 0, 1, 0, 0] z slices_S128x64x2x8x256_S128x64x1x8x256_0_0_1_0_0) shapeCasts_S128x64x1x8x256_S128x64x8x256)))⟩, ⟨S128x64x1x8x256, (broadcastInDim S128x64x1x8x256 ![0, 1, 3, 4] bcast_S128x64x8x256_S128x64x1x8x256_0_1_3_4 (subf (shapeCast S128x64x8x256 (extractStridedSlice S128x64x1x8x256 ![0, 0, 0, 0, 0] z slices_S128x64x2x8x256_S128x64x1x8x256_0_0_0_0_0) shapeCasts_S128x64x1x8x256_S128x64x8x256) (shapeCast S128x64x8x256 (extractStridedSlice S128x64x1x8x256 ![0, 0, 1, 0, 0] z slices_S128x64x2x8x256_S128x64x1x8x256_0_0_1_0_0) shapeCasts_S128x64x1x8x256_S128x64x8x256)))⟩] concatenates_S128x64x1x8x256_S128x64x1x8x256_S128x64x2x8x256_d2) shapeCasts_S128x64x2x8x256_S128x1024x256
      = Cert.Fwht.stage 8 (shapeCast S128x1024x256 z shapeCasts_S128x64x2x8x256_S128x1024x256) := by
  funext i
  obtain ⟨b, ⟨r, hr⟩, d, rfl⟩ : ∃ (b : Fin 128) (r : Fin 1024) (d : Fin 256), i = ValueIdx.ix3 b r d :=
    ⟨i 0, i 1, i 2, ValueIdx.eq_ix3 i⟩
  -- Flattening [128, 64, 2, 8, 256] to [128, 1024, 256]: row g·16 + p·8 + q is place (g, p, q).
  have flat : ∀ (w : FVec Ideal S128x64x2x8x256 .f32) (r' : ℕ) (h' : r' < 1024) (g : Fin 64) (p : Fin 2) (q : Fin 8),
      g.val * 16 + p.val * 8 + q.val = r' →
      shapeCast S128x1024x256 w shapeCasts_S128x64x2x8x256_S128x1024x256 (ValueIdx.ix3 b ⟨r', h'⟩ d)
        = w (ValueIdx.ix5 b g p q d) := by
    intro w r' h' g p q e
    refine shapeCast_apply w _ _ _ ?_
    rw [Shape.rowMajor_val_five, Shape.rowMajor_val_three]
    show (((b.val * 64 + g.val) * 2 + p.val) * 8 + q.val) * 256 + d.val = (b.val * 1024 + r') * 256 + d.val
    omega
  -- Dropping the axis of extent one keeps the row-major position.
  have drop : ∀ (w : FVec Ideal S128x64x1x8x256 .f32) (g : Fin 64) (q : Fin 8),
      shapeCast S128x64x8x256 w shapeCasts_S128x64x1x8x256_S128x64x8x256 (ValueIdx.ix4 b g q d)
        = w (ValueIdx.ix5 b g ⟨0, Nat.one_pos⟩ q d) := by
    intro w g q
    refine shapeCast_apply w _ _ _ ?_
    rw [Shape.rowMajor_val_five, Shape.rowMajor_val_four]
    show (((b.val * 64 + g.val) * 1 + 0) * 8 + q.val) * 256 + d.val = ((b.val * 64 + g.val) * 8 + q.val) * 256 + d.val
    omega
  -- The lower half of every group is the slice at offset 0 along the axis of extent two …
  have lower : ∀ (g : Fin 64) (q : Fin 8),
      extractStridedSlice S128x64x1x8x256 ![0, 0, 0, 0, 0] z slices_S128x64x2x8x256_S128x64x1x8x256_0_0_0_0_0
          (ValueIdx.ix5 b g ⟨0, Nat.one_pos⟩ q d)
        = z (ValueIdx.ix5 b g ⟨0, Nat.two_pos⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 0 = 0 + 0; omega
    | ⟨3, _⟩ => show q.val = 0 + q.val; omega
    | ⟨4, _⟩ => show d.val = 0 + d.val; omega
  -- … and the upper half the slice at offset 1.
  have upper : ∀ (g : Fin 64) (q : Fin 8),
      extractStridedSlice S128x64x1x8x256 ![0, 0, 1, 0, 0] z slices_S128x64x2x8x256_S128x64x1x8x256_0_0_1_0_0
          (ValueIdx.ix5 b g ⟨0, Nat.one_pos⟩ q d)
        = z (ValueIdx.ix5 b g ⟨1, Nat.one_lt_two⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 1 = 1 + 0; omega
    | ⟨3, _⟩ => show q.val = 0 + q.val; omega
    | ⟨4, _⟩ => show d.val = 0 + d.val; omega
  -- Putting the axis of extent one back: the new axis is read at 0, the others are kept (an operand axis of extent
  -- one is read at 0, which is where its only coordinate is).
  have unit : ∀ (w : FVec Ideal S128x64x8x256 .f32) (g : Fin 64) (q : Fin 8),
      broadcastInDim S128x64x1x8x256 ![0, 1, 3, 4] bcast_S128x64x8x256_S128x64x1x8x256_0_1_3_4 w
          (ValueIdx.ix5 b g ⟨0, Nat.one_pos⟩ q d)
        = w (ValueIdx.ix4 b g q d) := by
    intro w g q
    refine broadcastInDim_apply _ _ w _ _ fun a => ?_
    match a with
    | ⟨0, _⟩ => show b.val = if (128 : ℕ) = 1 then 0 else b.val; split <;> omega
    | ⟨1, _⟩ => show g.val = if (64 : ℕ) = 1 then 0 else g.val; split <;> omega
    | ⟨2, _⟩ => show q.val = if (8 : ℕ) = 1 then 0 else q.val; split <;> omega
    | ⟨3, _⟩ => show d.val = if (256 : ℕ) = 1 then 0 else d.val; split <;> omega
  -- The concatenation along the axis of extent two reads its first piece at 0 and its second piece at 1.
  have catL : ∀ (w₁ w₂ : FVec Ideal S128x64x1x8x256 .f32) (g : Fin 64) (q : Fin 8),
      concatenate S128x64x2x8x256 2 [⟨S128x64x1x8x256, w₁⟩, ⟨S128x64x1x8x256, w₂⟩]
          concatenates_S128x64x1x8x256_S128x64x1x8x256_S128x64x2x8x256_d2 (ValueIdx.ix5 b g ⟨0, Nat.two_pos⟩ q d)
        = w₁ (ValueIdx.ix5 b g ⟨0, Nat.one_pos⟩ q d) := by
    intro w₁ w₂ g q
    refine concatenate_pair_apply_left (t := S128x64x2x8x256) 2 w₁ w₂ _ _ rfl _ fun a => ?_
    match a with
    | ⟨0, _⟩ => rfl
    | ⟨1, _⟩ => rfl
    | ⟨2, _⟩ => rfl
    | ⟨3, _⟩ => rfl
    | ⟨4, _⟩ => rfl
  have catR : ∀ (w₁ w₂ : FVec Ideal S128x64x1x8x256 .f32) (g : Fin 64) (q : Fin 8),
      concatenate S128x64x2x8x256 2 [⟨S128x64x1x8x256, w₁⟩, ⟨S128x64x1x8x256, w₂⟩]
          concatenates_S128x64x1x8x256_S128x64x1x8x256_S128x64x2x8x256_d2 (ValueIdx.ix5 b g ⟨1, Nat.one_lt_two⟩ q d)
        = w₂ (ValueIdx.ix5 b g ⟨0, Nat.one_pos⟩ q d) := by
    intro w₁ w₂ g q
    refine concatenate_pair_apply_right (t := S128x64x2x8x256) 2 w₁ w₂ _ _ rfl rfl _ (fun a ha => ?_) ?_
    · match a with
      | ⟨0, _⟩ => rfl
      | ⟨1, _⟩ => rfl
      | ⟨2, _⟩ => exact absurd rfl ha
      | ⟨3, _⟩ => rfl
      | ⟨4, _⟩ => rfl
    · show 0 + 1 = 1
      rfl
  -- Row r lies in group r / 16 at place r % 8 of its half, and its half is (r / 8) % 2.
  have hg : r / 16 < 64 := by omega
  have hq : r % 8 < 8 := by omega
  by_cases he : (r / 8) % 2 = 0
  · -- a lower row: the sum of the row and its partner 8 rows further on
    refine Eq.trans ?_ (if_pos he).symm
    have e0 : (⟨r / 16, hg⟩ : Fin 64).val * 16 + (⟨0, Nat.two_pos⟩ : Fin 2).val * 8 + (⟨r % 8, hq⟩ : Fin 8).val = r := by
      show r / 16 * 16 + 0 * 8 + r % 8 = r
      omega
    have e1 : (⟨r / 16, hg⟩ : Fin 64).val * 16 + (⟨1, Nat.one_lt_two⟩ : Fin 2).val * 8 + (⟨r % 8, hq⟩ : Fin 8).val
        = (r + 8) % 1024 := by
      show r / 16 * 16 + 1 * 8 + r % 8 = (r + 8) % 1024
      omega
    refine (flat _ r hr _ _ _ e0).trans ((catL _ _ _ _).trans ((unit _ _ _).trans ((ValueIdx.addf_apply _ _ _).trans ?_)))
    exact congrArg₂ (fun x y : EReal => x + y)
      ((drop _ _ _).trans ((lower _ _).trans (flat z r hr _ _ _ e0).symm))
      ((drop _ _ _).trans ((upper _ _).trans (flat z ((r + 8) % 1024) (Nat.mod_lt _ (by norm_num)) _ _ _ e1).symm))
  · -- an upper row: its partner 8 rows back, less the row
    refine Eq.trans ?_ (if_neg he).symm
    have e0 : (⟨r / 16, hg⟩ : Fin 64).val * 16 + (⟨0, Nat.two_pos⟩ : Fin 2).val * 8 + (⟨r % 8, hq⟩ : Fin 8).val
        = (r - 8) % 1024 := by
      show r / 16 * 16 + 0 * 8 + r % 8 = (r - 8) % 1024
      omega
    have e1 : (⟨r / 16, hg⟩ : Fin 64).val * 16 + (⟨1, Nat.one_lt_two⟩ : Fin 2).val * 8 + (⟨r % 8, hq⟩ : Fin 8).val = r := by
      show r / 16 * 16 + 1 * 8 + r % 8 = r
      omega
    refine (flat _ r hr _ _ _ e1).trans ((catR _ _ _ _).trans ((unit _ _ _).trans ((ValueIdx.subf_apply _ _ _).trans ?_)))
    exact congrArg₂ (fun x y : EReal => x - y)
      ((drop _ _ _).trans ((lower _ _).trans (flat z ((r - 8) % 1024) (Nat.mod_lt _ (by norm_num)) _ _ _ e0).symm))
      ((drop _ _ _).trans ((upper _ _).trans (flat z r hr _ _ _ e1).symm))

end Cert.ReferenceIdeal.Gen

end
-- ==== Proof.RefStage4.lean ====
/-
  Butterfly stage 16 of the transform, as the reference performs it: the 1024 rows are regrouped as 32 groups of
  2 × 16, the two halves of every group are taken apart, their sum and their difference are put back as the lower and
  the upper half, and the rows are flattened again. Row by row this is the stage of half-width 16.
-/
import proofs.«174154_j901943132182_2_alg».proof.Proof.Spec
import proofs.«174154_j901943132182_2_alg».proof.Proof.Gen.ReferenceIdeal
import Idealize.ShloMosaic.Lib.Pipeline.Value

noncomputable section

namespace Cert.ReferenceIdeal.Gen

open Idealize.ShloMosaic Idealize.SL.Sem

theorem ref_stage_4 (z : FVec Ideal S128x32x2x16x256 .f32) :
    shapeCast S128x1024x256 (concatenate S128x32x2x16x256 2 [⟨S128x32x1x16x256, (broadcastInDim S128x32x1x16x256 ![0, 1, 3, 4] bcast_S128x32x16x256_S128x32x1x16x256_0_1_3_4 (addf (shapeCast S128x32x16x256 (extractStridedSlice S128x32x1x16x256 ![0, 0, 0, 0, 0] z slices_S128x32x2x16x256_S128x32x1x16x256_0_0_0_0_0) shapeCasts_S128x32x1x16x256_S128x32x16x256) (shapeCast S128x32x16x256 (extractStridedSlice S128x32x1x16x256 ![0, 0, 1, 0, 0] z slices_S128x32x2x16x256_S128x32x1x16x256_0_0_1_0_0) shapeCasts_S128x32x1x16x256_S128x32x16x256)))⟩, ⟨S128x32x1x16x256, (broadcastInDim S128x32x1x16x256 ![0, 1, 3, 4] bcast_S128x32x16x256_S128x32x1x16x256_0_1_3_4 (subf (shapeCast S128x32x16x256 (extractStridedSlice S128x32x1x16x256 ![0, 0, 0, 0, 0] z slices_S128x32x2x16x256_S128x32x1x16x256_0_0_0_0_0) shapeCasts_S128x32x1x16x256_S128x32x16x256) (shapeCast S128x32x16x256 (extractStridedSlice S128x32x1x16x256 ![0, 0, 1, 0, 0] z slices_S128x32x2x16x256_S128x32x1x16x256_0_0_1_0_0) shapeCasts_S128x32x1x16x256_S128x32x16x256)))⟩] concatenates_S128x32x1x16x256_S128x32x1x16x256_S128x32x2x16x256_d2) shapeCasts_S128x32x2x16x256_S128x1024x256
      = Cert.Fwht.stage 16 (shapeCast S128x1024x256 z shapeCasts_S128x32x2x16x256_S128x1024x256) := by
  funext i
  obtain ⟨b, ⟨r, hr⟩, d, rfl⟩ : ∃ (b : Fin 128) (r : Fin 1024) (d : Fin 256), i = ValueIdx.ix3 b r d :=
    ⟨i 0, i 1, i 2, ValueIdx.eq_ix3 i⟩
  -- Flattening [128, 32, 2, 16, 256] to [128, 1024, 256]: row g·32 + p·16 + q is place (g, p, q).
  have flat : ∀ (w : FVec Ideal S128x32x2x16x256 .f32) (r' : ℕ) (h' : r' < 1024) (g : Fin 32) (p : Fin 2) (q : Fin 16),
      g.val * 32 + p.val * 16 + q.val = r' →
      shapeCast S128x1024x256 w shapeCasts_S128x32x2x16x256_S128x1024x256 (ValueIdx.ix3 b ⟨r', h'⟩ d)
        = w (ValueIdx.ix5 b g p q d) := by
    intro w r' h' g p q e
    refine shapeCast_apply w _ _ _ ?_
    rw [Shape.rowMajor_val_five, Shape.rowMajor_val_three]
    show (((b.val * 32 + g.val) * 2 + p.val) * 16 + q.val) * 256 + d.val = (b.val * 1024 + r') * 256 + d.val
    omega
  -- Dropping the axis of extent one keeps the row-major position.
  have drop : ∀ (w : FVec Ideal S128x32x1x16x256 .f32) (g : Fin 32) (q : Fin 16),
      shapeCast S128x32x16x256 w shapeCasts_S128x32x1x16x256_S128x32x16x256 (ValueIdx.ix4 b g q d)
        = w (ValueIdx.ix5 b g ⟨0, Nat.one_pos⟩ q d) := by
    intro w g q
    refine shapeCast_apply w _ _ _ ?_
    rw [Shape.rowMajor_val_five, Shape.rowMajor_val_four]
    show (((b.val * 32 + g.val) * 1 + 0) * 16 + q.val) * 256 + d.val = ((b.val * 32 + g.val) * 16 + q.val) * 256 + d.val
    omega
  -- The lower half of every group is the slice at offset 0 along the axis of extent two …
  have lower : ∀ (g : Fin 32) (q : Fin 16),
      extractStridedSlice S128x32x1x16x256 ![0, 0, 0, 0, 0] z slices_S128x32x2x16x256_S128x32x1x16x256_0_0_0_0_0
          (ValueIdx.ix5 b g ⟨0, Nat.one_pos⟩ q d)
        = z (ValueIdx.ix5 b g ⟨0, Nat.two_pos⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 0 = 0 + 0; omega
    | ⟨3, _⟩ => show q.val = 0 + q.val; omega
    | ⟨4, _⟩ => show d.val = 0 + d.val; omega
  -- … and the upper half the slice at offset 1.
  have upper : ∀ (g : Fin 32) (q : Fin 16),
      extractStridedSlice S128x32x1x16x256 ![0, 0, 1, 0, 0] z slices_S128x32x2x16x256_S128x32x1x16x256_0_0_1_0_0
          (ValueIdx.ix5 b g ⟨0, Nat.one_pos⟩ q d)
        = z (ValueIdx.ix5 b g ⟨1, Nat.one_lt_two⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 1 = 1 + 0; omega
    | ⟨3, _⟩ => show q.val = 0 + q.val; omega
    | ⟨4, _⟩ => show d.val = 0 + d.val; omega
  -- Putting the axis of extent one back: the new axis is read at 0, the others are kept (an operand axis of extent
  -- one is read at 0, which is where its only coordinate is).
  have unit : ∀ (w : FVec Ideal S128x32x16x256 .f32) (g : Fin 32) (q : Fin 16),
      broadcastInDim S128x32x1x16x256 ![0, 1, 3, 4] bcast_S128x32x16x256_S128x32x1x16x256_0_1_3_4 w
          (ValueIdx.ix5 b g ⟨0, Nat.one_pos⟩ q d)
        = w (ValueIdx.ix4 b g q d) := by
    intro w g q
    refine broadcastInDim_apply _ _ w _ _ fun a => ?_
    match a with
    | ⟨0, _⟩ => show b.val = if (128 : ℕ) = 1 then 0 else b.val; split <;> omega
    | ⟨1, _⟩ => show g.val = if (32 : ℕ) = 1 then 0 else g.val; split <;> omega
    | ⟨2, _⟩ => show q.val = if (16 : ℕ) = 1 then 0 else q.val; split <;> omega
    | ⟨3, _⟩ => show d.val = if (256 : ℕ) = 1 then 0 else d.val; split <;> omega
  -- The concatenation along the axis of extent two reads its first piece at 0 and its second piece at 1.
  have catL : ∀ (w₁ w₂ : FVec Ideal S128x32x1x16x256 .f32) (g : Fin 32) (q : Fin 16),
      concatenate S128x32x2x16x256 2 [⟨S128x32x1x16x256, w₁⟩, ⟨S128x32x1x16x256, w₂⟩]
          concatenates_S128x32x1x16x256_S128x32x1x16x256_S128x32x2x16x256_d2 (ValueIdx.ix5 b g ⟨0, Nat.two_pos⟩ q d)
        = w₁ (ValueIdx.ix5 b g ⟨0, Nat.one_pos⟩ q d) := by
    intro w₁ w₂ g q
    refine concatenate_pair_apply_left (t := S128x32x2x16x256) 2 w₁ w₂ _ _ rfl _ fun a => ?_
    match a with
    | ⟨0, _⟩ => rfl
    | ⟨1, _⟩ => rfl
    | ⟨2, _⟩ => rfl
    | ⟨3, _⟩ => rfl
    | ⟨4, _⟩ => rfl
  have catR : ∀ (w₁ w₂ : FVec Ideal S128x32x1x16x256 .f32) (g : Fin 32) (q : Fin 16),
      concatenate S128x32x2x16x256 2 [⟨S128x32x1x16x256, w₁⟩, ⟨S128x32x1x16x256, w₂⟩]
          concatenates_S128x32x1x16x256_S128x32x1x16x256_S128x32x2x16x256_d2 (ValueIdx.ix5 b g ⟨1, Nat.one_lt_two⟩ q d)
        = w₂ (ValueIdx.ix5 b g ⟨0, Nat.one_pos⟩ q d) := by
    intro w₁ w₂ g q
    refine concatenate_pair_apply_right (t := S128x32x2x16x256) 2 w₁ w₂ _ _ rfl rfl _ (fun a ha => ?_) ?_
    · match a with
      | ⟨0, _⟩ => rfl
      | ⟨1, _⟩ => rfl
      | ⟨2, _⟩ => exact absurd rfl ha
      | ⟨3, _⟩ => rfl
      | ⟨4, _⟩ => rfl
    · show 0 + 1 = 1
      rfl
  -- Row r lies in group r / 32 at place r % 16 of its half, and its half is (r / 16) % 2.
  have hg : r / 32 < 32 := by omega
  have hq : r % 16 < 16 := by omega
  by_cases he : (r / 16) % 2 = 0
  · -- a lower row: the sum of the row and its partner 16 rows further on
    refine Eq.trans ?_ (if_pos he).symm
    have e0 : (⟨r / 32, hg⟩ : Fin 32).val * 32 + (⟨0, Nat.two_pos⟩ : Fin 2).val * 16 + (⟨r % 16, hq⟩ : Fin 16).val = r := by
      show r / 32 * 32 + 0 * 16 + r % 16 = r
      omega
    have e1 : (⟨r / 32, hg⟩ : Fin 32).val * 32 + (⟨1, Nat.one_lt_two⟩ : Fin 2).val * 16 + (⟨r % 16, hq⟩ : Fin 16).val
        = (r + 16) % 1024 := by
      show r / 32 * 32 + 1 * 16 + r % 16 = (r + 16) % 1024
      omega
    refine (flat _ r hr _ _ _ e0).trans ((catL _ _ _ _).trans ((unit _ _ _).trans ((ValueIdx.addf_apply _ _ _).trans ?_)))
    exact congrArg₂ (fun x y : EReal => x + y)
      ((drop _ _ _).trans ((lower _ _).trans (flat z r hr _ _ _ e0).symm))
      ((drop _ _ _).trans ((upper _ _).trans (flat z ((r + 16) % 1024) (Nat.mod_lt _ (by norm_num)) _ _ _ e1).symm))
  · -- an upper row: its partner 16 rows back, less the row
    refine Eq.trans ?_ (if_neg he).symm
    have e0 : (⟨r / 32, hg⟩ : Fin 32).val * 32 + (⟨0, Nat.two_pos⟩ : Fin 2).val * 16 + (⟨r % 16, hq⟩ : Fin 16).val
        = (r - 16) % 1024 := by
      show r / 32 * 32 + 0 * 16 + r % 16 = (r - 16) % 1024
      omega
    have e1 : (⟨r / 32, hg⟩ : Fin 32).val * 32 + (⟨1, Nat.one_lt_two⟩ : Fin 2).val * 16 + (⟨r % 16, hq⟩ : Fin 16).val = r := by
      show r / 32 * 32 + 1 * 16 + r % 16 = r
      omega
    refine (flat _ r hr _ _ _ e1).trans ((catR _ _ _ _).trans ((unit _ _ _).trans ((ValueIdx.subf_apply _ _ _).trans ?_)))
    exact congrArg₂ (fun x y : EReal => x - y)
      ((drop _ _ _).trans ((lower _ _).trans (flat z ((r - 16) % 1024) (Nat.mod_lt _ (by norm_num)) _ _ _ e0).symm))
      ((drop _ _ _).trans ((upper _ _).trans (flat z r hr _ _ _ e1).symm))

end Cert.ReferenceIdeal.Gen

end
-- ==== Proof.RefStage5.lean ====
/-
  Butterfly stage 32 of the transform, as the reference performs it: the 1024 rows are regrouped as 16 groups of
  2 × 32, the two halves of every group are taken apart, their sum and their difference are put back as the lower and
  the upper half, and the rows are flattened again. Row by row this is the stage of half-width 32.
-/
import proofs.«174154_j901943132182_2_alg».proof.Proof.Spec
import proofs.«174154_j901943132182_2_alg».proof.Proof.Gen.ReferenceIdeal
import Idealize.ShloMosaic.Lib.Pipeline.Value

noncomputable section

namespace Cert.ReferenceIdeal.Gen

open Idealize.ShloMosaic Idealize.SL.Sem

theorem ref_stage_5 (z : FVec Ideal S128x16x2x32x256 .f32) :
    shapeCast S128x1024x256 (concatenate S128x16x2x32x256 2 [⟨S128x16x1x32x256, (broadcastInDim S128x16x1x32x256 ![0, 1, 3, 4] bcast_S128x16x32x256_S128x16x1x32x256_0_1_3_4 (addf (shapeCast S128x16x32x256 (extractStridedSlice S128x16x1x32x256 ![0, 0, 0, 0, 0] z slices_S128x16x2x32x256_S128x16x1x32x256_0_0_0_0_0) shapeCasts_S128x16x1x32x256_S128x16x32x256) (shapeCast S128x16x32x256 (extractStridedSlice S128x16x1x32x256 ![0, 0, 1, 0, 0] z slices_S128x16x2x32x256_S128x16x1x32x256_0_0_1_0_0) shapeCasts_S128x16x1x32x256_S128x16x32x256)))⟩, ⟨S128x16x1x32x256, (broadcastInDim S128x16x1x32x256 ![0, 1, 3, 4] bcast_S128x16x32x256_S128x16x1x32x256_0_1_3_4 (subf (shapeCast S128x16x32x256 (extractStridedSlice S128x16x1x32x256 ![0, 0, 0, 0, 0] z slices_S128x16x2x32x256_S128x16x1x32x256_0_0_0_0_0) shapeCasts_S128x16x1x32x256_S128x16x32x256) (shapeCast S128x16x32x256 (extractStridedSlice S128x16x1x32x256 ![0, 0, 1, 0, 0] z slices_S128x16x2x32x256_S128x16x1x32x256_0_0_1_0_0) shapeCasts_S128x16x1x32x256_S128x16x32x256)))⟩] concatenates_S128x16x1x32x256_S128x16x1x32x256_S128x16x2x32x256_d2) shapeCasts_S128x16x2x32x256_S128x1024x256
      = Cert.Fwht.stage 32 (shapeCast S128x1024x256 z shapeCasts_S128x16x2x32x256_S128x1024x256) := by
  funext i
  obtain ⟨b, ⟨r, hr⟩, d, rfl⟩ : ∃ (b : Fin 128) (r : Fin 1024) (d : Fin 256), i = ValueIdx.ix3 b r d :=
    ⟨i 0, i 1, i 2, ValueIdx.eq_ix3 i⟩
  -- Flattening [128, 16, 2, 32, 256] to [128, 1024, 256]: row g·64 + p·32 + q is place (g, p, q).
  have flat : ∀ (w : FVec Ideal S128x16x2x32x256 .f32) (r' : ℕ) (h' : r' < 1024) (g : Fin 16) (p : Fin 2) (q : Fin 32),
      g.val * 64 + p.val * 32 + q.val = r' →
      shapeCast S128x1024x256 w shapeCasts_S128x16x2x32x256_S128x1024x256 (ValueIdx.ix3 b ⟨r', h'⟩ d)
        = w (ValueIdx.ix5 b g p q d) := by
    intro w r' h' g p q e
    refine shapeCast_apply w _ _ _ ?_
    rw [Shape.rowMajor_val_five, Shape.rowMajor_val_three]
    show (((b.val * 16 + g.val) * 2 + p.val) * 32 + q.val) * 256 + d.val = (b.val * 1024 + r') * 256 + d.val
    omega
  -- Dropping the axis of extent one keeps the row-major position.
  have drop : ∀ (w : FVec Ideal S128x16x1x32x256 .f32) (g : Fin 16) (q : Fin 32),
      shapeCast S128x16x32x256 w shapeCasts_S128x16x1x32x256_S128x16x32x256 (ValueIdx.ix4 b g q d)
        = w (ValueIdx.ix5 b g ⟨0, Nat.one_pos⟩ q d) := by
    intro w g q
    refine shapeCast_apply w _ _ _ ?_
    rw [Shape.rowMajor_val_five, Shape.rowMajor_val_four]
    show (((b.val * 16 + g.val) * 1 + 0) * 32 + q.val) * 256 + d.val = ((b.val * 16 + g.val) * 32 + q.val) * 256 + d.val
    omega
  -- The lower half of every group is the slice at offset 0 along the axis of extent two …
  have lower : ∀ (g : Fin 16) (q : Fin 32),
      extractStridedSlice S128x16x1x32x256 ![0, 0, 0, 0, 0] z slices_S128x16x2x32x256_S128x16x1x32x256_0_0_0_0_0
          (ValueIdx.ix5 b g ⟨0, Nat.one_pos⟩ q d)
        = z (ValueIdx.ix5 b g ⟨0, Nat.two_pos⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 0 = 0 + 0; omega
    | ⟨3, _⟩ => show q.val = 0 + q.val; omega
    | ⟨4, _⟩ => show d.val = 0 + d.val; omega
  -- … and the upper half the slice at offset 1.
  have upper : ∀ (g : Fin 16) (q : Fin 32),
      extractStridedSlice S128x16x1x32x256 ![0, 0, 1, 0, 0] z slices_S128x16x2x32x256_S128x16x1x32x256_0_0_1_0_0
          (ValueIdx.ix5 b g ⟨0, Nat.one_pos⟩ q d)
        = z (ValueIdx.ix5 b g ⟨1, Nat.one_lt_two⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 1 = 1 + 0; omega
    | ⟨3, _⟩ => show q.val = 0 + q.val; omega
    | ⟨4, _⟩ => show d.val = 0 + d.val; omega
  -- Putting the axis of extent one back: the new axis is read at 0, the others are kept (an operand axis of extent
  -- one is read at 0, which is where its only coordinate is).
  have unit : ∀ (w : FVec Ideal S128x16x32x256 .f32) (g : Fin 16) (q : Fin 32),
      broadcastInDim S128x16x1x32x256 ![0, 1, 3, 4] bcast_S128x16x32x256_S128x16x1x32x256_0_1_3_4 w
          (ValueIdx.ix5 b g ⟨0, Nat.one_pos⟩ q d)
        = w (ValueIdx.ix4 b g q d) := by
    intro w g q
    refine broadcastInDim_apply _ _ w _ _ fun a => ?_
    match a with
    | ⟨0, _⟩ => show b.val = if (128 : ℕ) = 1 then 0 else b.val; split <;> omega
    | ⟨1, _⟩ => show g.val = if (16 : ℕ) = 1 then 0 else g.val; split <;> omega
    | ⟨2, _⟩ => show q.val = if (32 : ℕ) = 1 then 0 else q.val; split <;> omega
    | ⟨3, _⟩ => show d.val = if (256 : ℕ) = 1 then 0 else d.val; split <;> omega
  -- The concatenation along the axis of extent two reads its first piece at 0 and its second piece at 1.
  have catL : ∀ (w₁ w₂ : FVec Ideal S128x16x1x32x256 .f32) (g : Fin 16) (q : Fin 32),
      concatenate S128x16x2x32x256 2 [⟨S128x16x1x32x256, w₁⟩, ⟨S128x16x1x32x256, w₂⟩]
          concatenates_S128x16x1x32x256_S128x16x1x32x256_S128x16x2x32x256_d2 (ValueIdx.ix5 b g ⟨0, Nat.two_pos⟩ q d)
        = w₁ (ValueIdx.ix5 b g ⟨0, Nat.one_pos⟩ q d) := by
    intro w₁ w₂ g q
    refine concatenate_pair_apply_left (t := S128x16x2x32x256) 2 w₁ w₂ _ _ rfl _ fun a => ?_
    match a with
    | ⟨0, _⟩ => rfl
    | ⟨1, _⟩ => rfl
    | ⟨2, _⟩ => rfl
    | ⟨3, _⟩ => rfl
    | ⟨4, _⟩ => rfl
  have catR : ∀ (w₁ w₂ : FVec Ideal S128x16x1x32x256 .f32) (g : Fin 16) (q : Fin 32),
      concatenate S128x16x2x32x256 2 [⟨S128x16x1x32x256, w₁⟩, ⟨S128x16x1x32x256, w₂⟩]
          concatenates_S128x16x1x32x256_S128x16x1x32x256_S128x16x2x32x256_d2 (ValueIdx.ix5 b g ⟨1, Nat.one_lt_two⟩ q d)
        = w₂ (ValueIdx.ix5 b g ⟨0, Nat.one_pos⟩ q d) := by
    intro w₁ w₂ g q
    refine concatenate_pair_apply_right (t := S128x16x2x32x256) 2 w₁ w₂ _ _ rfl rfl _ (fun a ha => ?_) ?_
    · match a with
      | ⟨0, _⟩ => rfl
      | ⟨1, _⟩ => rfl
      | ⟨2, _⟩ => exact absurd rfl ha
      | ⟨3, _⟩ => rfl
      | ⟨4, _⟩ => rfl
    · show 0 + 1 = 1
      rfl
  -- Row r lies in group r / 64 at place r % 32 of its half, and its half is (r / 32) % 2.
  have hg : r / 64 < 16 := by omega
  have hq : r % 32 < 32 := by omega
  by_cases he : (r / 32) % 2 = 0
  · -- a lower row: the sum of the row and its partner 32 rows further on
    refine Eq.trans ?_ (if_pos he).symm
    have e0 : (⟨r / 64, hg⟩ : Fin 16).val * 64 + (⟨0, Nat.two_pos⟩ : Fin 2).val * 32 + (⟨r % 32, hq⟩ : Fin 32).val = r := by
      show r / 64 * 64 + 0 * 32 + r % 32 = r
      omega
    have e1 : (⟨r / 64, hg⟩ : Fin 16).val * 64 + (⟨1, Nat.one_lt_two⟩ : Fin 2).val * 32 + (⟨r % 32, hq⟩ : Fin 32).val
        = (r + 32) % 1024 := by
      show r / 64 * 64 + 1 * 32 + r % 32 = (r + 32) % 1024
      omega
    refine (flat _ r hr _ _ _ e0).trans ((catL _ _ _ _).trans ((unit _ _ _).trans ((ValueIdx.addf_apply _ _ _).trans ?_)))
    exact congrArg₂ (fun x y : EReal => x + y)
      ((drop _ _ _).trans ((lower _ _).trans (flat z r hr _ _ _ e0).symm))
      ((drop _ _ _).trans ((upper _ _).trans (flat z ((r + 32) % 1024) (Nat.mod_lt _ (by norm_num)) _ _ _ e1).symm))
  · -- an upper row: its partner 32 rows back, less the row
    refine Eq.trans ?_ (if_neg he).symm
    have e0 : (⟨r / 64, hg⟩ : Fin 16).val * 64 + (⟨0, Nat.two_pos⟩ : Fin 2).val * 32 + (⟨r % 32, hq⟩ : Fin 32).val
        = (r - 32) % 1024 := by
      show r / 64 * 64 + 0 * 32 + r % 32 = (r - 32) % 1024
      omega
    have e1 : (⟨r / 64, hg⟩ : Fin 16).val * 64 + (⟨1, Nat.one_lt_two⟩ : Fin 2).val * 32 + (⟨r % 32, hq⟩ : Fin 32).val = r := by
      show r / 64 * 64 + 1 * 32 + r % 32 = r
      omega
    refine (flat _ r hr _ _ _ e1).trans ((catR _ _ _ _).trans ((unit _ _ _).trans ((ValueIdx.subf_apply _ _ _).trans ?_)))
    exact congrArg₂ (fun x y : EReal => x - y)
      ((drop _ _ _).trans ((lower _ _).trans (flat z ((r - 32) % 1024) (Nat.mod_lt _ (by norm_num)) _ _ _ e0).symm))
      ((drop _ _ _).trans ((upper _ _).trans (flat z r hr _ _ _ e1).symm))

end Cert.ReferenceIdeal.Gen

end
-- ==== Proof.RefStage6.lean ====
/-
  Butterfly stage 64 of the transform, as the reference performs it: the 1024 rows are regrouped as 8 groups of
  2 × 64, the two halves of every group are taken apart, their sum and their difference are put back as the lower and
  the upper half, and the rows are flattened again. Row by row this is the stage of half-width 64.
-/
import proofs.«174154_j901943132182_2_alg».proof.Proof.Spec
import proofs.«174154_j901943132182_2_alg».proof.Proof.Gen.ReferenceIdeal
import Idealize.ShloMosaic.Lib.Pipeline.Value

noncomputable section

namespace Cert.ReferenceIdeal.Gen

open Idealize.ShloMosaic Idealize.SL.Sem

theorem ref_stage_6 (z : FVec Ideal S128x8x2x64x256 .f32) :
    shapeCast S128x1024x256 (concatenate S128x8x2x64x256 2 [⟨S128x8x1x64x256, (broadcastInDim S128x8x1x64x256 ![0, 1, 3, 4] bcast_S128x8x64x256_S128x8x1x64x256_0_1_3_4 (addf (shapeCast S128x8x64x256 (extractStridedSlice S128x8x1x64x256 ![0, 0, 0, 0, 0] z slices_S128x8x2x64x256_S128x8x1x64x256_0_0_0_0_0) shapeCasts_S128x8x1x64x256_S128x8x64x256) (shapeCast S128x8x64x256 (extractStridedSlice S128x8x1x64x256 ![0, 0, 1, 0, 0] z slices_S128x8x2x64x256_S128x8x1x64x256_0_0_1_0_0) shapeCasts_S128x8x1x64x256_S128x8x64x256)))⟩, ⟨S128x8x1x64x256, (broadcastInDim S128x8x1x64x256 ![0, 1, 3, 4] bcast_S128x8x64x256_S128x8x1x64x256_0_1_3_4 (subf (shapeCast S128x8x64x256 (extractStridedSlice S128x8x1x64x256 ![0, 0, 0, 0, 0] z slices_S128x8x2x64x256_S128x8x1x64x256_0_0_0_0_0) shapeCasts_S128x8x1x64x256_S128x8x64x256) (shapeCast S128x8x64x256 (extractStridedSlice S128x8x1x64x256 ![0, 0, 1, 0, 0] z slices_S128x8x2x64x256_S128x8x1x64x256_0_0_1_0_0) shapeCasts_S128x8x1x64x256_S128x8x64x256)))⟩] concatenates_S128x8x1x64x256_S128x8x1x64x256_S128x8x2x64x256_d2) shapeCasts_S128x8x2x64x256_S128x1024x256
      = Cert.Fwht.stage 64 (shapeCast S128x1024x256 z shapeCasts_S128x8x2x64x256_S128x1024x256) := by
  funext i
  obtain ⟨b, ⟨r, hr⟩, d, rfl⟩ : ∃ (b : Fin 128) (r : Fin 1024) (d : Fin 256), i = ValueIdx.ix3 b r d :=
    ⟨i 0, i 1, i 2, ValueIdx.eq_ix3 i⟩
  -- Flattening [128, 8, 2, 64, 256] to [128, 1024, 256]: row g·128 + p·64 + q is place (g, p, q).
  have flat : ∀ (w : FVec Ideal S128x8x2x64x256 .f32) (r' : ℕ) (h' : r' < 1024) (g : Fin 8) (p : Fin 2) (q : Fin 64),
      g.val * 128 + p.val * 64 + q.val = r' →
      shapeCast S128x1024x256 w shapeCasts_S128x8x2x64x256_S128x1024x256 (ValueIdx.ix3 b ⟨r', h'⟩ d)
        = w (ValueIdx.ix5 b g p q d) := by
    intro w r' h' g p q e
    refine shapeCast_apply w _ _ _ ?_
    rw [Shape.rowMajor_val_five, Shape.rowMajor_val_three]
    show (((b.val * 8 + g.val) * 2 + p.val) * 64 + q.val) * 256 + d.val = (b.val * 1024 + r') * 256 + d.val
    omega
  -- Dropping the axis of extent one keeps the row-major position.
  have drop : ∀ (w : FVec Ideal S128x8x1x64x256 .f32) (g : Fin 8) (q : Fin 64),
      shapeCast S128x8x64x256 w shapeCasts_S128x8x1x64x256_S128x8x64x256 (ValueIdx.ix4 b g q d)
        = w (ValueIdx.ix5 b g ⟨0, Nat.one_pos⟩ q d) := by
    intro w g q
    refine shapeCast_apply w _ _ _ ?_
    rw [Shape.rowMajor_val_five, Shape.rowMajor_val_four]
    show (((b.val * 8 + g.val) * 1 + 0) * 64 + q.val) * 256 + d.val = ((b.val * 8 + g.val) * 64 + q.val) * 256 + d.val
    omega
  -- The lower half of every group is the slice at offset 0 along the axis of extent two …
  have lower : ∀ (g : Fin 8) (q : Fin 64),
      extractStridedSlice S128x8x1x64x256 ![0, 0, 0, 0, 0] z slices_S128x8x2x64x256_S128x8x1x64x256_0_0_0_0_0
          (ValueIdx.ix5 b g ⟨0, Nat.one_pos⟩ q d)
        = z (ValueIdx.ix5 b g ⟨0, Nat.two_pos⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 0 = 0 + 0; omega
    | ⟨3, _⟩ => show q.val = 0 + q.val; omega
    | ⟨4, _⟩ => show d.val = 0 + d.val; omega
  -- … and the upper half the slice at offset 1.
  have upper : ∀ (g : Fin 8) (q : Fin 64),
      extractStridedSlice S128x8x1x64x256 ![0, 0, 1, 0, 0] z slices_S128x8x2x64x256_S128x8x1x64x256_0_0_1_0_0
          (ValueIdx.ix5 b g ⟨0, Nat.one_pos⟩ q d)
        = z (ValueIdx.ix5 b g ⟨1, Nat.one_lt_two⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 1 = 1 + 0; omega
    | ⟨3, _⟩ => show q.val = 0 + q.val; omega
    | ⟨4, _⟩ => show d.val = 0 + d.val; omega
  -- Putting the axis of extent one back: the new axis is read at 0, the others are kept (an operand axis of extent
  -- one is read at 0, which is where its only coordinate is).
  have unit : ∀ (w : FVec Ideal S128x8x64x256 .f32) (g : Fin 8) (q : Fin 64),
      broadcastInDim S128x8x1x64x256 ![0, 1, 3, 4] bcast_S128x8x64x256_S128x8x1x64x256_0_1_3_4 w
          (ValueIdx.ix5 b g ⟨0, Nat.one_pos⟩ q d)
        = w (ValueIdx.ix4 b g q d) := by
    intro w g q
    refine broadcastInDim_apply _ _ w _ _ fun a => ?_
    match a with
    | ⟨0, _⟩ => show b.val = if (128 : ℕ) = 1 then 0 else b.val; split <;> omega
    | ⟨1, _⟩ => show g.val = if (8 : ℕ) = 1 then 0 else g.val; split <;> omega
    | ⟨2, _⟩ => show q.val = if (64 : ℕ) = 1 then 0 else q.val; split <;> omega
    | ⟨3, _⟩ => show d.val = if (256 : ℕ) = 1 then 0 else d.val; split <;> omega
  -- The concatenation along the axis of extent two reads its first piece at 0 and its second piece at 1.
  have catL : ∀ (w₁ w₂ : FVec Ideal S128x8x1x64x256 .f32) (g : Fin 8) (q : Fin 64),
      concatenate S128x8x2x64x256 2 [⟨S128x8x1x64x256, w₁⟩, ⟨S128x8x1x64x256, w₂⟩]
          concatenates_S128x8x1x64x256_S128x8x1x64x256_S128x8x2x64x256_d2 (ValueIdx.ix5 b g ⟨0, Nat.two_pos⟩ q d)
        = w₁ (ValueIdx.ix5 b g ⟨0, Nat.one_pos⟩ q d) := by
    intro w₁ w₂ g q
    refine concatenate_pair_apply_left (t := S128x8x2x64x256) 2 w₁ w₂ _ _ rfl _ fun a => ?_
    match a with
    | ⟨0, _⟩ => rfl
    | ⟨1, _⟩ => rfl
    | ⟨2, _⟩ => rfl
    | ⟨3, _⟩ => rfl
    | ⟨4, _⟩ => rfl
  have catR : ∀ (w₁ w₂ : FVec Ideal S128x8x1x64x256 .f32) (g : Fin 8) (q : Fin 64),
      concatenate S128x8x2x64x256 2 [⟨S128x8x1x64x256, w₁⟩, ⟨S128x8x1x64x256, w₂⟩]
          concatenates_S128x8x1x64x256_S128x8x1x64x256_S128x8x2x64x256_d2 (ValueIdx.ix5 b g ⟨1, Nat.one_lt_two⟩ q d)
        = w₂ (ValueIdx.ix5 b g ⟨0, Nat.one_pos⟩ q d) := by
    intro w₁ w₂ g q
    refine concatenate_pair_apply_right (t := S128x8x2x64x256) 2 w₁ w₂ _ _ rfl rfl _ (fun a ha => ?_) ?_
    · match a with
      | ⟨0, _⟩ => rfl
      | ⟨1, _⟩ => rfl
      | ⟨2, _⟩ => exact absurd rfl ha
      | ⟨3, _⟩ => rfl
      | ⟨4, _⟩ => rfl
    · show 0 + 1 = 1
      rfl
  -- Row r lies in group r / 128 at place r % 64 of its half, and its half is (r / 64) % 2.
  have hg : r / 128 < 8 := by omega
  have hq : r % 64 < 64 := by omega
  by_cases he : (r / 64) % 2 = 0
  · -- a lower row: the sum of the row and its partner 64 rows further on
    refine Eq.trans ?_ (if_pos he).symm
    have e0 : (⟨r / 128, hg⟩ : Fin 8).val * 128 + (⟨0, Nat.two_pos⟩ : Fin 2).val * 64 + (⟨r % 64, hq⟩ : Fin 64).val = r := by
      show r / 128 * 128 + 0 * 64 + r % 64 = r
      omega
    have e1 : (⟨r / 128, hg⟩ : Fin 8).val * 128 + (⟨1, Nat.one_lt_two⟩ : Fin 2).val * 64 + (⟨r % 64, hq⟩ : Fin 64).val
        = (r + 64) % 1024 := by
      show r / 128 * 128 + 1 * 64 + r % 64 = (r + 64) % 1024
      omega
    refine (flat _ r hr _ _ _ e0).trans ((catL _ _ _ _).trans ((unit _ _ _).trans ((ValueIdx.addf_apply _ _ _).trans ?_)))
    exact congrArg₂ (fun x y : EReal => x + y)
      ((drop _ _ _).trans ((lower _ _).trans (flat z r hr _ _ _ e0).symm))
      ((drop _ _ _).trans ((upper _ _).trans (flat z ((r + 64) % 1024) (Nat.mod_lt _ (by norm_num)) _ _ _ e1).symm))
  · -- an upper row: its partner 64 rows back, less the row
    refine Eq.trans ?_ (if_neg he).symm
    have e0 : (⟨r / 128, hg⟩ : Fin 8).val * 128 + (⟨0, Nat.two_pos⟩ : Fin 2).val * 64 + (⟨r % 64, hq⟩ : Fin 64).val
        = (r - 64) % 1024 := by
      show r / 128 * 128 + 0 * 64 + r % 64 = (r - 64) % 1024
      omega
    have e1 : (⟨r / 128, hg⟩ : Fin 8).val * 128 + (⟨1, Nat.one_lt_two⟩ : Fin 2).val * 64 + (⟨r % 64, hq⟩ : Fin 64).val = r := by
      show r / 128 * 128 + 1 * 64 + r % 64 = r
      omega
    refine (flat _ r hr _ _ _ e1).trans ((catR _ _ _ _).trans ((unit _ _ _).trans ((ValueIdx.subf_apply _ _ _).trans ?_)))
    exact congrArg₂ (fun x y : EReal => x - y)
      ((drop _ _ _).trans ((lower _ _).trans (flat z ((r - 64) % 1024) (Nat.mod_lt _ (by norm_num)) _ _ _ e0).symm))
      ((drop _ _ _).trans ((upper _ _).trans (flat z r hr _ _ _ e1).symm))

end Cert.ReferenceIdeal.Gen

end
-- ==== Proof.RefStage7.lean ====
/-
  Butterfly stage 128 of the transform, as the reference performs it: the 1024 rows are regrouped as 4 groups of
  2 × 128, the two halves of every group are taken apart, their sum and their difference are put back as the lower and
  the upper half, and the rows are flattened again. Row by row this is the stage of half-width 128.
-/
import proofs.«174154_j901943132182_2_alg».proof.Proof.Spec
import proofs.«174154_j901943132182_2_alg».proof.Proof.Gen.ReferenceIdeal
import Idealize.ShloMosaic.Lib.Pipeline.Value

noncomputable section

namespace Cert.ReferenceIdeal.Gen

open Idealize.ShloMosaic Idealize.SL.Sem

theorem ref_stage_7 (z : FVec Ideal S128x4x2x128x256 .f32) :
    shapeCast S128x1024x256 (concatenate S128x4x2x128x256 2 [⟨S128x4x1x128x256, (broadcastInDim S128x4x1x128x256 ![0, 1, 3, 4] bcast_S128x4x128x256_S128x4x1x128x256_0_1_3_4 (addf (shapeCast S128x4x128x256 (extractStridedSlice S128x4x1x128x256 ![0, 0, 0, 0, 0] z slices_S128x4x2x128x256_S128x4x1x128x256_0_0_0_0_0) shapeCasts_S128x4x1x128x256_S128x4x128x256) (shapeCast S128x4x128x256 (extractStridedSlice S128x4x1x128x256 ![0, 0, 1, 0, 0] z slices_S128x4x2x128x256_S128x4x1x128x256_0_0_1_0_0) shapeCasts_S128x4x1x128x256_S128x4x128x256)))⟩, ⟨S128x4x1x128x256, (broadcastInDim S128x4x1x128x256 ![0, 1, 3, 4] bcast_S128x4x128x256_S128x4x1x128x256_0_1_3_4 (subf (shapeCast S128x4x128x256 (extractStridedSlice S128x4x1x128x256 ![0, 0, 0, 0, 0] z slices_S128x4x2x128x256_S128x4x1x128x256_0_0_0_0_0) shapeCasts_S128x4x1x128x256_S128x4x128x256) (shapeCast S128x4x128x256 (extractStridedSlice S128x4x1x128x256 ![0, 0, 1, 0, 0] z slices_S128x4x2x128x256_S128x4x1x128x256_0_0_1_0_0) shapeCasts_S128x4x1x128x256_S128x4x128x256)))⟩] concatenates_S128x4x1x128x256_S128x4x1x128x256_S128x4x2x128x256_d2) shapeCasts_S128x4x2x128x256_S128x1024x256
      = Cert.Fwht.stage 128 (shapeCast S128x1024x256 z shapeCasts_S128x4x2x128x256_S128x1024x256) := by
  funext i
  obtain ⟨b, ⟨r, hr⟩, d, rfl⟩ : ∃ (b : Fin 128) (r : Fin 1024) (d : Fin 256), i = ValueIdx.ix3 b r d :=
    ⟨i 0, i 1, i 2, ValueIdx.eq_ix3 i⟩
  -- Flattening [128, 4, 2, 128, 256] to [128, 1024, 256]: row g·256 + p·128 + q is place (g, p, q).
  have flat : ∀ (w : FVec Ideal S128x4x2x128x256 .f32) (r' : ℕ) (h' : r' < 1024) (g : Fin 4) (p : Fin 2) (q : Fin 128),
      g.val * 256 + p.val * 128 + q.val = r' →
      shapeCast S128x1024x256 w shapeCasts_S128x4x2x128x256_S128x1024x256 (ValueIdx.ix3 b ⟨r', h'⟩ d)
        = w (ValueIdx.ix5 b g p q d) := by
    intro w r' h' g p q e
    refine shapeCast_apply w _ _ _ ?_
    rw [Shape.rowMajor_val_five, Shape.rowMajor_val_three]
    show (((b.val * 4 + g.val) * 2 + p.val) * 128 + q.val) * 256 + d.val = (b.val * 1024 + r') * 256 + d.val
    omega
  -- Dropping the axis of extent one keeps the row-major position.
  have drop : ∀ (w : FVec Ideal S128x4x1x128x256 .f32) (g : Fin 4) (q : Fin 128),
      shapeCast S128x4x128x256 w shapeCasts_S128x4x1x128x256_S128x4x128x256 (ValueIdx.ix4 b g q d)
        = w (ValueIdx.ix5 b g ⟨0, Nat.one_pos⟩ q d) := by
    intro w g q
    refine shapeCast_apply w _ _ _ ?_
    rw [Shape.rowMajor_val_five, Shape.rowMajor_val_four]
    show (((b.val * 4 + g.val) * 1 + 0) * 128 + q.val) * 256 + d.val = ((b.val * 4 + g.val) * 128 + q.val) * 256 + d.val
    omega
  -- The lower half of every group is the slice at offset 0 along the axis of extent two …
  have lower : ∀ (g : Fin 4) (q : Fin 128),
      extractStridedSlice S128x4x1x128x256 ![0, 0, 0, 0, 0] z slices_S128x4x2x128x256_S128x4x1x128x256_0_0_0_0_0
          (ValueIdx.ix5 b g ⟨0, Nat.one_pos⟩ q d)
        = z (ValueIdx.ix5 b g ⟨0, Nat.two_pos⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 0 = 0 + 0; omega
    | ⟨3, _⟩ => show q.val = 0 + q.val; omega
    | ⟨4, _⟩ => show d.val = 0 + d.val; omega
  -- … and the upper half the slice at offset 1.
  have upper : ∀ (g : Fin 4) (q : Fin 128),
      extractStridedSlice S128x4x1x128x256 ![0, 0, 1, 0, 0] z slices_S128x4x2x128x256_S128x4x1x128x256_0_0_1_0_0
          (ValueIdx.ix5 b g ⟨0, Nat.one_pos⟩ q d)
        = z (ValueIdx.ix5 b g ⟨1, Nat.one_lt_two⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 1 = 1 + 0; omega
    | ⟨3, _⟩ => show q.val = 0 + q.val; omega
    | ⟨4, _⟩ => show d.val = 0 + d.val; omega
  -- Putting the axis of extent one back: the new axis is read at 0, the others are kept (an operand axis of extent
  -- one is read at 0, which is where its only coordinate is).
  have unit : ∀ (w : FVec Ideal S128x4x128x256 .f32) (g : Fin 4) (q : Fin 128),
      broadcastInDim S128x4x1x128x256 ![0, 1, 3, 4] bcast_S128x4x128x256_S128x4x1x128x256_0_1_3_4 w
          (ValueIdx.ix5 b g ⟨0, Nat.one_pos⟩ q d)
        = w (ValueIdx.ix4 b g q d) := by
    intro w g q
    refine broadcastInDim_apply _ _ w _ _ fun a => ?_
    match a with
    | ⟨0, _⟩ => show b.val = if (128 : ℕ) = 1 then 0 else b.val; split <;> omega
    | ⟨1, _⟩ => show g.val = if (4 : ℕ) = 1 then 0 else g.val; split <;> omega
    | ⟨2, _⟩ => show q.val = if (128 : ℕ) = 1 then 0 else q.val; split <;> omega
    | ⟨3, _⟩ => show d.val = if (256 : ℕ) = 1 then 0 else d.val; split <;> omega
  -- The concatenation along the axis of extent two reads its first piece at 0 and its second piece at 1.
  have catL : ∀ (w₁ w₂ : FVec Ideal S128x4x1x128x256 .f32) (g : Fin 4) (q : Fin 128),
      concatenate S128x4x2x128x256 2 [⟨S128x4x1x128x256, w₁⟩, ⟨S128x4x1x128x256, w₂⟩]
          concatenates_S128x4x1x128x256_S128x4x1x128x256_S128x4x2x128x256_d2 (ValueIdx.ix5 b g ⟨0, Nat.two_pos⟩ q d)
        = w₁ (ValueIdx.ix5 b g ⟨0, Nat.one_pos⟩ q d) := by
    intro w₁ w₂ g q
    refine concatenate_pair_apply_left (t := S128x4x2x128x256) 2 w₁ w₂ _ _ rfl _ fun a => ?_
    match a with
    | ⟨0, _⟩ => rfl
    | ⟨1, _⟩ => rfl
    | ⟨2, _⟩ => rfl
    | ⟨3, _⟩ => rfl
    | ⟨4, _⟩ => rfl
  have catR : ∀ (w₁ w₂ : FVec Ideal S128x4x1x128x256 .f32) (g : Fin 4) (q : Fin 128),
      concatenate S128x4x2x128x256 2 [⟨S128x4x1x128x256, w₁⟩, ⟨S128x4x1x128x256, w₂⟩]
          concatenates_S128x4x1x128x256_S128x4x1x128x256_S128x4x2x128x256_d2 (ValueIdx.ix5 b g ⟨1, Nat.one_lt_two⟩ q d)
        = w₂ (ValueIdx.ix5 b g ⟨0, Nat.one_pos⟩ q d) := by
    intro w₁ w₂ g q
    refine concatenate_pair_apply_right (t := S128x4x2x128x256) 2 w₁ w₂ _ _ rfl rfl _ (fun a ha => ?_) ?_
    · match a with
      | ⟨0, _⟩ => rfl
      | ⟨1, _⟩ => rfl
      | ⟨2, _⟩ => exact absurd rfl ha
      | ⟨3, _⟩ => rfl
      | ⟨4, _⟩ => rfl
    · show 0 + 1 = 1
      rfl
  -- Row r lies in group r / 256 at place r % 128 of its half, and its half is (r / 128) % 2.
  have hg : r / 256 < 4 := by omega
  have hq : r % 128 < 128 := by omega
  by_cases he : (r / 128) % 2 = 0
  · -- a lower row: the sum of the row and its partner 128 rows further on
    refine Eq.trans ?_ (if_pos he).symm
    have e0 : (⟨r / 256, hg⟩ : Fin 4).val * 256 + (⟨0, Nat.two_pos⟩ : Fin 2).val * 128 + (⟨r % 128, hq⟩ : Fin 128).val = r := by
      show r / 256 * 256 + 0 * 128 + r % 128 = r
      omega
    have e1 : (⟨r / 256, hg⟩ : Fin 4).val * 256 + (⟨1, Nat.one_lt_two⟩ : Fin 2).val * 128 + (⟨r % 128, hq⟩ : Fin 128).val
        = (r + 128) % 1024 := by
      show r / 256 * 256 + 1 * 128 + r % 128 = (r + 128) % 1024
      omega
    refine (flat _ r hr _ _ _ e0).trans ((catL _ _ _ _).trans ((unit _ _ _).trans ((ValueIdx.addf_apply _ _ _).trans ?_)))
    exact congrArg₂ (fun x y : EReal => x + y)
      ((drop _ _ _).trans ((lower _ _).trans (flat z r hr _ _ _ e0).symm))
      ((drop _ _ _).trans ((upper _ _).trans (flat z ((r + 128) % 1024) (Nat.mod_lt _ (by norm_num)) _ _ _ e1).symm))
  · -- an upper row: its partner 128 rows back, less the row
    refine Eq.trans ?_ (if_neg he).symm
    have e0 : (⟨r / 256, hg⟩ : Fin 4).val * 256 + (⟨0, Nat.two_pos⟩ : Fin 2).val * 128 + (⟨r % 128, hq⟩ : Fin 128).val
        = (r - 128) % 1024 := by
      show r / 256 * 256 + 0 * 128 + r % 128 = (r - 128) % 1024
      omega
    have e1 : (⟨r / 256, hg⟩ : Fin 4).val * 256 + (⟨1, Nat.one_lt_two⟩ : Fin 2).val * 128 + (⟨r % 128, hq⟩ : Fin 128).val = r := by
      show r / 256 * 256 + 1 * 128 + r % 128 = r
      omega
    refine (flat _ r hr _ _ _ e1).trans ((catR _ _ _ _).trans ((unit _ _ _).trans ((ValueIdx.subf_apply _ _ _).trans ?_)))
    exact congrArg₂ (fun x y : EReal => x - y)
      ((drop _ _ _).trans ((lower _ _).trans (flat z ((r - 128) % 1024) (Nat.mod_lt _ (by norm_num)) _ _ _ e0).symm))
      ((drop _ _ _).trans ((upper _ _).trans (flat z r hr _ _ _ e1).symm))

end Cert.ReferenceIdeal.Gen

end
-- ==== Proof.RefStage8.lean ====
/-
  Butterfly stage 256 of the transform, as the reference performs it: the 1024 rows are regrouped as 2 groups of
  2 × 256, the two halves of every group are taken apart, their sum and their difference are put back as the lower and
  the upper half, and the rows are flattened again. Row by row this is the stage of half-width 256.
-/
import proofs.«174154_j901943132182_2_alg».proof.Proof.Spec
import proofs.«174154_j901943132182_2_alg».proof.Proof.Gen.ReferenceIdeal
import Idealize.ShloMosaic.Lib.Pipeline.Value

noncomputable section

namespace Cert.ReferenceIdeal.Gen

open Idealize.ShloMosaic Idealize.SL.Sem

theorem ref_stage_8 (z : FVec Ideal S128x2x2x256x256 .f32) :
    shapeCast S128x1024x256 (concatenate S128x2x2x256x256 2 [⟨S128x2x1x256x256, (broadcastInDim S128x2x1x256x256 ![0, 1, 3, 4] bcast_S128x2x256x256_S128x2x1x256x256_0_1_3_4 (addf (shapeCast S128x2x256x256 (extractStridedSlice S128x2x1x256x256 ![0, 0, 0, 0, 0] z slices_S128x2x2x256x256_S128x2x1x256x256_0_0_0_0_0) shapeCasts_S128x2x1x256x256_S128x2x256x256) (shapeCast S128x2x256x256 (extractStridedSlice S128x2x1x256x256 ![0, 0, 1, 0, 0] z slices_S128x2x2x256x256_S128x2x1x256x256_0_0_1_0_0) shapeCasts_S128x2x1x256x256_S128x2x256x256)))⟩, ⟨S128x2x1x256x256, (broadcastInDim S128x2x1x256x256 ![0, 1, 3, 4] bcast_S128x2x256x256_S128x2x1x256x256_0_1_3_4 (subf (shapeCast S128x2x256x256 (extractStridedSlice S128x2x1x256x256 ![0, 0, 0, 0, 0] z slices_S128x2x2x256x256_S128x2x1x256x256_0_0_0_0_0) shapeCasts_S128x2x1x256x256_S128x2x256x256) (shapeCast S128x2x256x256 (extractStridedSlice S128x2x1x256x256 ![0, 0, 1, 0, 0] z slices_S128x2x2x256x256_S128x2x1x256x256_0_0_1_0_0) shapeCasts_S128x2x1x256x256_S128x2x256x256)))⟩] concatenates_S128x2x1x256x256_S128x2x1x256x256_S128x2x2x256x256_d2) shapeCasts_S128x2x2x256x256_S128x1024x256
      = Cert.Fwht.stage 256 (shapeCast S128x1024x256 z shapeCasts_S128x2x2x256x256_S128x1024x256) := by
  funext i
  obtain ⟨b, ⟨r, hr⟩, d, rfl⟩ : ∃ (b : Fin 128) (r : Fin 1024) (d : Fin 256), i = ValueIdx.ix3 b r d :=
    ⟨i 0, i 1, i 2, ValueIdx.eq_ix3 i⟩
  -- Flattening [128, 2, 2, 256, 256] to [128, 1024, 256]: row g·512 + p·256 + q is place (g, p, q).
  have flat : ∀ (w : FVec Ideal S128x2x2x256x256 .f32) (r' : ℕ) (h' : r' < 1024) (g : Fin 2) (p : Fin 2) (q : Fin 256),
      g.val * 512 + p.val * 256 + q.val = r' →
      shapeCast S128x1024x256 w shapeCasts_S128x2x2x256x256_S128x1024x256 (ValueIdx.ix3 b ⟨r', h'⟩ d)
        = w (ValueIdx.ix5 b g p q d) := by
    intro w r' h' g p q e
    refine shapeCast_apply w _ _ _ ?_
    rw [Shape.rowMajor_val_five, Shape.rowMajor_val_three]
    show (((b.val * 2 + g.val) * 2 + p.val) * 256 + q.val) * 256 + d.val = (b.val * 1024 + r') * 256 + d.val
    omega
  -- Dropping the axis of extent one keeps the row-major position.
  have drop : ∀ (w : FVec Ideal S128x2x1x256x256 .f32) (g : Fin 2) (q : Fin 256),
      shapeCast S128x2x256x256 w shapeCasts_S128x2x1x256x256_S128x2x256x256 (ValueIdx.ix4 b g q d)
        = w (ValueIdx.ix5 b g ⟨0, Nat.one_pos⟩ q d) := by
    intro w g q
    refine shapeCast_apply w _ _ _ ?_
    rw [Shape.rowMajor_val_five, Shape.rowMajor_val_four]
    show (((b.val * 2 + g.val) * 1 + 0) * 256 + q.val) * 256 + d.val = ((b.val * 2 + g.val) * 256 + q.val) * 256 + d.val
    omega
  -- The lower half of every group is the slice at offset 0 along the axis of extent two …
  have lower : ∀ (g : Fin 2) (q : Fin 256),
      extractStridedSlice S128x2x1x256x256 ![0, 0, 0, 0, 0] z slices_S128x2x2x256x256_S128x2x1x256x256_0_0_0_0_0
          (ValueIdx.ix5 b g ⟨0, Nat.one_pos⟩ q d)
        = z (ValueIdx.ix5 b g ⟨0, Nat.two_pos⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 0 = 0 + 0; omega
    | ⟨3, _⟩ => show q.val = 0 + q.val; omega
    | ⟨4, _⟩ => show d.val = 0 + d.val; omega
  -- … and the upper half the slice at offset 1.
  have upper : ∀ (g : Fin 2) (q : Fin 256),
      extractStridedSlice S128x2x1x256x256 ![0, 0, 1, 0, 0] z slices_S128x2x2x256x256_S128x2x1x256x256_0_0_1_0_0
          (ValueIdx.ix5 b g ⟨0, Nat.one_pos⟩ q d)
        = z (ValueIdx.ix5 b g ⟨1, Nat.one_lt_two⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 1 = 1 + 0; omega
    | ⟨3, _⟩ => show q.val = 0 + q.val; omega
    | ⟨4, _⟩ => show d.val = 0 + d.val; omega
  -- Putting the axis of extent one back: the new axis is read at 0, the others are kept (an operand axis of extent
  -- one is read at 0, which is where its only coordinate is).
  have unit : ∀ (w : FVec Ideal S128x2x256x256 .f32) (g : Fin 2) (q : Fin 256),
      broadcastInDim S128x2x1x256x256 ![0, 1, 3, 4] bcast_S128x2x256x256_S128x2x1x256x256_0_1_3_4 w
          (ValueIdx.ix5 b g ⟨0, Nat.one_pos⟩ q d)
        = w (ValueIdx.ix4 b g q d) := by
    intro w g q
    refine broadcastInDim_apply _ _ w _ _ fun a => ?_
    match a with
    | ⟨0, _⟩ => show b.val = if (128 : ℕ) = 1 then 0 else b.val; split <;> omega
    | ⟨1, _⟩ => show g.val = if (2 : ℕ) = 1 then 0 else g.val; split <;> omega
    | ⟨2, _⟩ => show q.val = if (256 : ℕ) = 1 then 0 else q.val; split <;> omega
    | ⟨3, _⟩ => show d.val = if (256 : ℕ) = 1 then 0 else d.val; split <;> omega
  -- The concatenation along the axis of extent two reads its first piece at 0 and its second piece at 1.
  have catL : ∀ (w₁ w₂ : FVec Ideal S128x2x1x256x256 .f32) (g : Fin 2) (q : Fin 256),
      concatenate S128x2x2x256x256 2 [⟨S128x2x1x256x256, w₁⟩, ⟨S128x2x1x256x256, w₂⟩]
          concatenates_S128x2x1x256x256_S128x2x1x256x256_S128x2x2x256x256_d2 (ValueIdx.ix5 b g ⟨0, Nat.two_pos⟩ q d)
        = w₁ (ValueIdx.ix5 b g ⟨0, Nat.one_pos⟩ q d) := by
    intro w₁ w₂ g q
    refine concatenate_pair_apply_left (t := S128x2x2x256x256) 2 w₁ w₂ _ _ rfl _ fun a => ?_
    match a with
    | ⟨0, _⟩ => rfl
    | ⟨1, _⟩ => rfl
    | ⟨2, _⟩ => rfl
    | ⟨3, _⟩ => rfl
    | ⟨4, _⟩ => rfl
  have catR : ∀ (w₁ w₂ : FVec Ideal S128x2x1x256x256 .f32) (g : Fin 2) (q : Fin 256),
      concatenate S128x2x2x256x256 2 [⟨S128x2x1x256x256, w₁⟩, ⟨S128x2x1x256x256, w₂⟩]
          concatenates_S128x2x1x256x256_S128x2x1x256x256_S128x2x2x256x256_d2 (ValueIdx.ix5 b g ⟨1, Nat.one_lt_two⟩ q d)
        = w₂ (ValueIdx.ix5 b g ⟨0, Nat.one_pos⟩ q d) := by
    intro w₁ w₂ g q
    refine concatenate_pair_apply_right (t := S128x2x2x256x256) 2 w₁ w₂ _ _ rfl rfl _ (fun a ha => ?_) ?_
    · match a with
      | ⟨0, _⟩ => rfl
      | ⟨1, _⟩ => rfl
      | ⟨2, _⟩ => exact absurd rfl ha
      | ⟨3, _⟩ => rfl
      | ⟨4, _⟩ => rfl
    · show 0 + 1 = 1
      rfl
  -- Row r lies in group r / 512 at place r % 256 of its half, and its half is (r / 256) % 2.
  have hg : r / 512 < 2 := by omega
  have hq : r % 256 < 256 := by omega
  by_cases he : (r / 256) % 2 = 0
  · -- a lower row: the sum of the row and its partner 256 rows further on
    refine Eq.trans ?_ (if_pos he).symm
    have e0 : (⟨r / 512, hg⟩ : Fin 2).val * 512 + (⟨0, Nat.two_pos⟩ : Fin 2).val * 256 + (⟨r % 256, hq⟩ : Fin 256).val = r := by
      show r / 512 * 512 + 0 * 256 + r % 256 = r
      omega
    have e1 : (⟨r / 512, hg⟩ : Fin 2).val * 512 + (⟨1, Nat.one_lt_two⟩ : Fin 2).val * 256 + (⟨r % 256, hq⟩ : Fin 256).val
        = (r + 256) % 1024 := by
      show r / 512 * 512 + 1 * 256 + r % 256 = (r + 256) % 1024
      omega
    refine (flat _ r hr _ _ _ e0).trans ((catL _ _ _ _).trans ((unit _ _ _).trans ((ValueIdx.addf_apply _ _ _).trans ?_)))
    exact congrArg₂ (fun x y : EReal => x + y)
      ((drop _ _ _).trans ((lower _ _).trans (flat z r hr _ _ _ e0).symm))
      ((drop _ _ _).trans ((upper _ _).trans (flat z ((r + 256) % 1024) (Nat.mod_lt _ (by norm_num)) _ _ _ e1).symm))
  · -- an upper row: its partner 256 rows back, less the row
    refine Eq.trans ?_ (if_neg he).symm
    have e0 : (⟨r / 512, hg⟩ : Fin 2).val * 512 + (⟨0, Nat.two_pos⟩ : Fin 2).val * 256 + (⟨r % 256, hq⟩ : Fin 256).val
        = (r - 256) % 1024 := by
      show r / 512 * 512 + 0 * 256 + r % 256 = (r - 256) % 1024
      omega
    have e1 : (⟨r / 512, hg⟩ : Fin 2).val * 512 + (⟨1, Nat.one_lt_two⟩ : Fin 2).val * 256 + (⟨r % 256, hq⟩ : Fin 256).val = r := by
      show r / 512 * 512 + 1 * 256 + r % 256 = r
      omega
    refine (flat _ r hr _ _ _ e1).trans ((catR _ _ _ _).trans ((unit _ _ _).trans ((ValueIdx.subf_apply _ _ _).trans ?_)))
    exact congrArg₂ (fun x y : EReal => x - y)
      ((drop _ _ _).trans ((lower _ _).trans (flat z ((r - 256) % 1024) (Nat.mod_lt _ (by norm_num)) _ _ _ e0).symm))
      ((drop _ _ _).trans ((upper _ _).trans (flat z r hr _ _ _ e1).symm))

end Cert.ReferenceIdeal.Gen

end
-- ==== Proof.RefStage9.lean ====
/-
  Butterfly stage 512 of the transform, as the reference performs it: the 1024 rows are regrouped as 1 groups of
  2 × 512, the two halves of every group are taken apart, their sum and their difference are put back as the lower and
  the upper half, and the rows are flattened again. Row by row this is the stage of half-width 512.
-/
import proofs.«174154_j901943132182_2_alg».proof.Proof.Spec
import proofs.«174154_j901943132182_2_alg».proof.Proof.Gen.ReferenceIdeal
import Idealize.ShloMosaic.Lib.Pipeline.Value

noncomputable section

namespace Cert.ReferenceIdeal.Gen

open Idealize.ShloMosaic Idealize.SL.Sem

theorem ref_stage_9 (z : FVec Ideal S128x1x2x512x256 .f32) :
    shapeCast S128x1024x256 (concatenate S128x1x2x512x256 2 [⟨S128x1x1x512x256, (broadcastInDim S128x1x1x512x256 ![0, 1, 3, 4] bcast_S128x1x512x256_S128x1x1x512x256_0_1_3_4 (addf (shapeCast S128x1x512x256 (extractStridedSlice S128x1x1x512x256 ![0, 0, 0, 0, 0] z slices_S128x1x2x512x256_S128x1x1x512x256_0_0_0_0_0) shapeCasts_S128x1x1x512x256_S128x1x512x256) (shapeCast S128x1x512x256 (extractStridedSlice S128x1x1x512x256 ![0, 0, 1, 0, 0] z slices_S128x1x2x512x256_S128x1x1x512x256_0_0_1_0_0) shapeCasts_S128x1x1x512x256_S128x1x512x256)))⟩, ⟨S128x1x1x512x256, (broadcastInDim S128x1x1x512x256 ![0, 1, 3, 4] bcast_S128x1x512x256_S128x1x1x512x256_0_1_3_4 (subf (shapeCast S128x1x512x256 (extractStridedSlice S128x1x1x512x256 ![0, 0, 0, 0, 0] z slices_S128x1x2x512x256_S128x1x1x512x256_0_0_0_0_0) shapeCasts_S128x1x1x512x256_S128x1x512x256) (shapeCast S128x1x512x256 (extractStridedSlice S128x1x1x512x256 ![0, 0, 1, 0, 0] z slices_S128x1x2x512x256_S128x1x1x512x256_0_0_1_0_0) shapeCasts_S128x1x1x512x256_S128x1x512x256)))⟩] concatenates_S128x1x1x512x256_S128x1x1x512x256_S128x1x2x512x256_d2) shapeCasts_S128x1x2x512x256_S128x1024x256
      = Cert.Fwht.stage 512 (shapeCast S128x1024x256 z shapeCasts_S128x1x2x512x256_S128x1024x256) := by
  funext i
  obtain ⟨b, ⟨r, hr⟩, d, rfl⟩ : ∃ (b : Fin 128) (r : Fin 1024) (d : Fin 256), i = ValueIdx.ix3 b r d :=
    ⟨i 0, i 1, i 2, ValueIdx.eq_ix3 i⟩
  -- Flattening [128, 1, 2, 512, 256] to [128, 1024, 256]: row g·1024 + p·512 + q is place (g, p, q).
  have flat : ∀ (w : FVec Ideal S128x1x2x512x256 .f32) (r' : ℕ) (h' : r' < 1024) (g : Fin 1) (p : Fin 2) (q : Fin 512),
      g.val * 1024 + p.val * 512 + q.val = r' →
      shapeCast S128x1024x256 w shapeCasts_S128x1x2x512x256_S128x1024x256 (ValueIdx.ix3 b ⟨r', h'⟩ d)
        = w (ValueIdx.ix5 b g p q d) := by
    intro w r' h' g p q e
    refine shapeCast_apply w _ _ _ ?_
    rw [Shape.rowMajor_val_five, Shape.rowMajor_val_three]
    show (((b.val * 1 + g.val) * 2 + p.val) * 512 + q.val) * 256 + d.val = (b.val * 1024 + r') * 256 + d.val
    omega
  -- Dropping the axis of extent one keeps the row-major position.
  have drop : ∀ (w : FVec Ideal S128x1x1x512x256 .f32) (g : Fin 1) (q : Fin 512),
      shapeCast S128x1x512x256 w shapeCasts_S128x1x1x512x256_S128x1x512x256 (ValueIdx.ix4 b g q d)
        = w (ValueIdx.ix5 b g ⟨0, Nat.one_pos⟩ q d) := by
    intro w g q
    refine shapeCast_apply w _ _ _ ?_
    rw [Shape.rowMajor_val_five, Shape.rowMajor_val_four]
    show (((b.val * 1 + g.val) * 1 + 0) * 512 + q.val) * 256 + d.val = ((b.val * 1 + g.val) * 512 + q.val) * 256 + d.val
    omega
  -- The lower half of every group is the slice at offset 0 along the axis of extent two …
  have lower : ∀ (g : Fin 1) (q : Fin 512),
      extractStridedSlice S128x1x1x512x256 ![0, 0, 0, 0, 0] z slices_S128x1x2x512x256_S128x1x1x512x256_0_0_0_0_0
          (ValueIdx.ix5 b g ⟨0, Nat.one_pos⟩ q d)
        = z (ValueIdx.ix5 b g ⟨0, Nat.two_pos⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 0 = 0 + 0; omega
    | ⟨3, _⟩ => show q.val = 0 + q.val; omega
    | ⟨4, _⟩ => show d.val = 0 + d.val; omega
  -- … and the upper half the slice at offset 1.
  have upper : ∀ (g : Fin 1) (q : Fin 512),
      extractStridedSlice S128x1x1x512x256 ![0, 0, 1, 0, 0] z slices_S128x1x2x512x256_S128x1x1x512x256_0_0_1_0_0
          (ValueIdx.ix5 b g ⟨0, Nat.one_pos⟩ q d)
        = z (ValueIdx.ix5 b g ⟨1, Nat.one_lt_two⟩ q d) := by
    intro g q
    refine extractStridedSlice_apply _ z _ _ _ fun a => ?_
    match a with
    | ⟨0, _⟩ => show b.val = 0 + b.val; omega
    | ⟨1, _⟩ => show g.val = 0 + g.val; omega
    | ⟨2, _⟩ => show 1 = 1 + 0; omega
    | ⟨3, _⟩ => show q.val = 0 + q.val; omega
    | ⟨4, _⟩ => show d.val = 0 + d.val; omega
  -- Putting the axis of extent one back: the new axis is read at 0, the others are kept (an operand axis of extent
  -- one is read at 0, which is where its only coordinate is).
  have unit : ∀ (w : FVec Ideal S128x1x512x256 .f32) (g : Fin 1) (q : Fin 512),
      broadcastInDim S128x1x1x512x256 ![0, 1, 3, 4] bcast_S128x1x512x256_S128x1x1x512x256_0_1_3_4 w
          (ValueIdx.ix5 b g ⟨0, Nat.one_pos⟩ q d)
        = w (ValueIdx.ix4 b g q d) := by
    intro w g q
    refine broadcastInDim_apply _ _ w _ _ fun a => ?_
    match a with
    | ⟨0, _⟩ => show b.val = if (128 : ℕ) = 1 then 0 else b.val; split <;> omega
    | ⟨1, _⟩ => show g.val = if (1 : ℕ) = 1 then 0 else g.val; split <;> omega
    | ⟨2, _⟩ => show q.val = if (512 : ℕ) = 1 then 0 else q.val; split <;> omega
    | ⟨3, _⟩ => show d.val = if (256 : ℕ) = 1 then 0 else d.val; split <;> omega
  -- The concatenation along the axis of extent two reads its first piece at 0 and its second piece at 1.
  have catL : ∀ (w₁ w₂ : FVec Ideal S128x1x1x512x256 .f32) (g : Fin 1) (q : Fin 512),
      concatenate S128x1x2x512x256 2 [⟨S128x1x1x512x256, w₁⟩, ⟨S128x1x1x512x256, w₂⟩]
          concatenates_S128x1x1x512x256_S128x1x1x512x256_S128x1x2x512x256_d2 (ValueIdx.ix5 b g ⟨0, Nat.two_pos⟩ q d)
        = w₁ (ValueIdx.ix5 b g ⟨0, Nat.one_pos⟩ q d) := by
    intro w₁ w₂ g q
    refine concatenate_pair_apply_left (t := S128x1x2x512x256) 2 w₁ w₂ _ _ rfl _ fun a => ?_
    match a with
    | ⟨0, _⟩ => rfl
    | ⟨1, _⟩ => rfl
    | ⟨2, _⟩ => rfl
    | ⟨3, _⟩ => rfl
    | ⟨4, _⟩ => rfl
  have catR : ∀ (w₁ w₂ : FVec Ideal S128x1x1x512x256 .f32) (g : Fin 1) (q : Fin 512),
      concatenate S128x1x2x512x256 2 [⟨S128x1x1x512x256, w₁⟩, ⟨S128x1x1x512x256, w₂⟩]
          concatenates_S128x1x1x512x256_S128x1x1x512x256_S128x1x2x512x256_d2 (ValueIdx.ix5 b g ⟨1, Nat.one_lt_two⟩ q d)
        = w₂ (ValueIdx.ix5 b g ⟨0, Nat.one_pos⟩ q d) := by
    intro w₁ w₂ g q
    refine concatenate_pair_apply_right (t := S128x1x2x512x256) 2 w₁ w₂ _ _ rfl rfl _ (fun a ha => ?_) ?_
    · match a with
      | ⟨0, _⟩ => rfl
      | ⟨1, _⟩ => rfl
      | ⟨2, _⟩ => exact absurd rfl ha
      | ⟨3, _⟩ => rfl
      | ⟨4, _⟩ => rfl
    · show 0 + 1 = 1
      rfl
  -- Row r lies in group r / 1024 at place r % 512 of its half, and its half is (r / 512) % 2.
  have hg : r / 1024 < 1 := by omega
  have hq : r % 512 < 512 := by omega
  by_cases he : (r / 512) % 2 = 0
  · -- a lower row: the sum of the row and its partner 512 rows further on
    refine Eq.trans ?_ (if_pos he).symm
    have e0 : (⟨r / 1024, hg⟩ : Fin 1).val * 1024 + (⟨0, Nat.two_pos⟩ : Fin 2).val * 512 + (⟨r % 512, hq⟩ : Fin 512).val = r := by
      show r / 1024 * 1024 + 0 * 512 + r % 512 = r
      omega
    have e1 : (⟨r / 1024, hg⟩ : Fin 1).val * 1024 + (⟨1, Nat.one_lt_two⟩ : Fin 2).val * 512 + (⟨r % 512, hq⟩ : Fin 512).val
        = (r + 512) % 1024 := by
      show r / 1024 * 1024 + 1 * 512 + r % 512 = (r + 512) % 1024
      omega
    refine (flat _ r hr _ _ _ e0).trans ((catL _ _ _ _).trans ((unit _ _ _).trans ((ValueIdx.addf_apply _ _ _).trans ?_)))
    exact congrArg₂ (fun x y : EReal => x + y)
      ((drop _ _ _).trans ((lower _ _).trans (flat z r hr _ _ _ e0).symm))
      ((drop _ _ _).trans ((upper _ _).trans (flat z ((r + 512) % 1024) (Nat.mod_lt _ (by norm_num)) _ _ _ e1).symm))
  · -- an upper row: its partner 512 rows back, less the row
    refine Eq.trans ?_ (if_neg he).symm
    have e0 : (⟨r / 1024, hg⟩ : Fin 1).val * 1024 + (⟨0, Nat.two_pos⟩ : Fin 2).val * 512 + (⟨r % 512, hq⟩ : Fin 512).val
        = (r - 512) % 1024 := by
      show r / 1024 * 1024 + 0 * 512 + r % 512 = (r - 512) % 1024
      omega
    have e1 : (⟨r / 1024, hg⟩ : Fin 1).val * 1024 + (⟨1, Nat.one_lt_two⟩ : Fin 2).val * 512 + (⟨r % 512, hq⟩ : Fin 512).val = r := by
      show r / 1024 * 1024 + 1 * 512 + r % 512 = r
      omega
    refine (flat _ r hr _ _ _ e1).trans ((catR _ _ _ _).trans ((unit _ _ _).trans ((ValueIdx.subf_apply _ _ _).trans ?_)))
    exact congrArg₂ (fun x y : EReal => x - y)
      ((drop _ _ _).trans ((lower _ _).trans (flat z ((r - 512) % 1024) (Nat.mod_lt _ (by norm_num)) _ _ _ e0).symm))
      ((drop _ _ _).trans ((upper _ _).trans (flat z r hr _ _ _ e1).symm))

end Cert.ReferenceIdeal.Gen

end
-- ==== Proof.RefRun.lean ====
/-
  The reference's result is the transform of its argument: its ten groups of eleven operations are the ten butterfly
  stages, each flattening what it made and the next regrouping it, and a regrouping undone by the flattening before it
  is the identity.
-/
import proofs.«174154_j901943132182_2_alg».proof.Proof.RefStage0
import proofs.«174154_j901943132182_2_alg».proof.Proof.RefStage1
import proofs.«174154_j901943132182_2_alg».proof.Proof.RefStage2
import proofs.«174154_j901943132182_2_alg».proof.Proof.RefStage3
import proofs.«174154_j901943132182_2_alg».proof.Proof.RefStage4
import proofs.«174154_j901943132182_2_alg».proof.Proof.RefStage5
import proofs.«174154_j901943132182_2_alg».proof.Proof.RefStage6
import proofs.«174154_j901943132182_2_alg».proof.Proof.RefStage7
import proofs.«174154_j901943132182_2_alg».proof.Proof.RefStage8
import proofs.«174154_j901943132182_2_alg».proof.Proof.RefStage9
import proofs.«174154_j901943132182_2_alg».proof.Proof.RefOps
import Idealize.ShloMosaic.Lib.StableHlo.Run
import Idealize.ShloMosaic.Lib.Pipeline.Frame

noncomputable section

namespace Cert.ReferenceIdeal.FwhtValue

open Cert.ReferenceIdeal Cert.ReferenceIdeal.Gen Cert.ReferenceIdeal.Ops Idealize.ShloMosaic Idealize.ShloMosaic.TcCoe Idealize.SL.Sem Idealize.ShloMosaic.StableHlo

/-! ## One stretch of eleven operations is one butterfly stage

A stretch regroups its operand [128, 1024, 256] as [128, G, 2, h, 256], takes the two halves of every group apart,
puts their sum and their difference back as the lower and the upper half, and flattens the rows again. Read off the
list, the stretch's last buffer holds exactly the term of the stage lemma at the regrouped operand, and flattening a
regrouping gives the operand back. This holds from ANY contents of the buffers, so the stretches compose. -/

/-- The first stretch: its last buffer ends at stage 1 of the argument. -/
theorem stretch_0 (W : Valuation τ sig (Elt Ideal)) :
    after (ops_0 (F := Ideal)) W (Proc.devRef .tc main_v10) = Cert.Fwht.stage 1 (W (Proc.devRef .tc main_arg0)) := by
  after_results
  exact (ref_stage_0 (shapeCast S128x512x2x1x256 (W (Proc.devRef .tc main_arg0)) shapeCasts_S128x1024x256_S128x512x2x1x256)).trans
    (by rw [shapeCast_shapeCast])

/-- The second stretch: its last buffer ends at stage 2 of what the first left. -/
theorem stretch_1 (W : Valuation τ sig (Elt Ideal)) :
    after (ops_1 (F := Ideal)) W (Proc.devRef .tc main_v21) = Cert.Fwht.stage 2 (W (Proc.devRef .tc main_v10)) := by
  after_results
  exact (ref_stage_1 (shapeCast S128x256x2x2x256 (W (Proc.devRef .tc main_v10)) shapeCasts_S128x1024x256_S128x256x2x2x256)).trans
    (by rw [shapeCast_shapeCast])

/-- The third stretch: its last buffer ends at stage 4 of what the second left. -/
theorem stretch_2 (W : Valuation τ sig (Elt Ideal)) :
    after (ops_2 (F := Ideal)) W (Proc.devRef .tc main_v32) = Cert.Fwht.stage 4 (W (Proc.devRef .tc main_v21)) := by
  after_results
  exact (ref_stage_2 (shapeCast S128x128x2x4x256 (W (Proc.devRef .tc main_v21)) shapeCasts_S128x1024x256_S128x128x2x4x256)).trans
    (by rw [shapeCast_shapeCast])

/-- The fourth stretch: its last buffer ends at stage 8 of what the third left. -/
theorem stretch_3 (W : Valuation τ sig (Elt Ideal)) :
    after (ops_3 (F := Ideal)) W (Proc.devRef .tc main_v43) = Cert.Fwht.stage 8 (W (Proc.devRef .tc main_v32)) := by
  after_results
  exact (ref_stage_3 (shapeCast S128x64x2x8x256 (W (Proc.devRef .tc main_v32)) shapeCasts_S128x1024x256_S128x64x2x8x256)).trans
    (by rw [shapeCast_shapeCast])

/-- The fifth stretch: its last buffer ends at stage 16 of what the fourth left. -/
theorem stretch_4 (W : Valuation τ sig (Elt Ideal)) :
    after (ops_4 (F := Ideal)) W (Proc.devRef .tc main_v54) = Cert.Fwht.stage 16 (W (Proc.devRef .tc main_v43)) := by
  after_results
  exact (ref_stage_4 (shapeCast S128x32x2x16x256 (W (Proc.devRef .tc main_v43)) shapeCasts_S128x1024x256_S128x32x2x16x256)).trans
    (by rw [shapeCast_shapeCast])

/-- The sixth stretch: its last buffer ends at stage 32 of what the fifth left. -/
theorem stretch_5 (W : Valuation τ sig (Elt Ideal)) :
    after (ops_5 (F := Ideal)) W (Proc.devRef .tc main_v65) = Cert.Fwht.stage 32 (W (Proc.devRef .tc main_v54)) := by
  after_results
  exact (ref_stage_5 (shapeCast S128x16x2x32x256 (W (Proc.devRef .tc main_v54)) shapeCasts_S128x1024x256_S128x16x2x32x256)).trans
    (by rw [shapeCast_shapeCast])

/-- The seventh stretch: its last buffer ends at stage 64 of what the sixth left. -/
theorem stretch_6 (W : Valuation τ sig (Elt Ideal)) :
    after (ops_6 (F := Ideal)) W (Proc.devRef .tc main_v76) = Cert.Fwht.stage 64 (W (Proc.devRef .tc main_v65)) := by
  after_results
  exact (ref_stage_6 (shapeCast S128x8x2x64x256 (W (Proc.devRef .tc main_v65)) shapeCasts_S128x1024x256_S128x8x2x64x256)).trans
    (by rw [shapeCast_shapeCast])

/-- The eighth stretch: its last buffer ends at stage 128 of what the seventh left. -/
theorem stretch_7 (W : Valuation τ sig (Elt Ideal)) :
    after (ops_7 (F := Ideal)) W (Proc.devRef .tc main_v87) = Cert.Fwht.stage 128 (W (Proc.devRef .tc main_v76)) := by
  after_results
  exact (ref_stage_7 (shapeCast S128x4x2x128x256 (W (Proc.devRef .tc main_v76)) shapeCasts_S128x1024x256_S128x4x2x128x256)).trans
    (by rw [shapeCast_shapeCast])

/-- The ninth stretch: its last buffer ends at stage 256 of what the eighth left. -/
theorem stretch_8 (W : Valuation τ sig (Elt Ideal)) :
    after (ops_8 (F := Ideal)) W (Proc.devRef .tc main_v98) = Cert.Fwht.stage 256 (W (Proc.devRef .tc main_v87)) := by
  after_results
  exact (ref_stage_8 (shapeCast S128x2x2x256x256 (W (Proc.devRef .tc main_v87)) shapeCasts_S128x1024x256_S128x2x2x256x256)).trans
    (by rw [shapeCast_shapeCast])

/-- The tenth stretch: its last buffer, the result, ends at stage 512 of what the ninth left. -/
theorem stretch_9 (W : Valuation τ sig (Elt Ideal)) :
    after (ops_9 (F := Ideal)) W (Proc.devRef .tc main_v109) = Cert.Fwht.stage 512 (W (Proc.devRef .tc main_v98)) := by
  after_results
  exact (ref_stage_9 (shapeCast S128x1x2x512x256 (W (Proc.devRef .tc main_v98)) shapeCasts_S128x1024x256_S128x1x2x512x256)).trans
    (by rw [shapeCast_shapeCast])

/-! ## The whole list -/

/-- After all 110 operations the result buffer holds the transform of the argument: the list is its ten stretches in
    a row, each hands its last buffer to the next, and the ten stages narrowest first are the transform. -/
theorem result (V : Valuation τ sig (Elt Ideal)) :
    after (ops (F := Ideal)) V (Proc.devRef .tc main_v109) = Cert.Fwht.fwht (V (Proc.devRef .tc main_arg0)) := by
  rw [ops_cut, StableHlo.after_append, StableHlo.after_append, StableHlo.after_append, StableHlo.after_append,
    StableHlo.after_append, StableHlo.after_append, StableHlo.after_append, StableHlo.after_append, StableHlo.after_append,
    stretch_9, stretch_8, stretch_7, stretch_6, stretch_5, stretch_4, stretch_3, stretch_2, stretch_1, stretch_0]
  rfl

set_option maxRecDepth 8192 in
/-- No operation writes the argument: it is unchanged. -/
theorem kept (V : Valuation τ sig (Elt Ideal)) :
    after (ops (F := Ideal)) V (Proc.devRef .tc main_arg0) = V (Proc.devRef .tc main_arg0) := by
  after_results_simp <;> rfl

set_option maxRecDepth 8192 in
set_option maxHeartbeats 44000000 in
/-- THE REFERENCE'S RUN: every weakly fair execution of @main terminates with the result buffer holding the transform of
    the argument's launch contents, and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v109) = Cert.Fwht.fwht (m ((c.tc : Thread nD τ).loc main_arg0))
      ∧ r.2.mem ((c.tc : Thread nD τ).loc main_arg0) = m ((c.tc : Thread nD τ).loc main_arg0) :=
  (θ_run defs _ _).mono (fun _ h c => ⟨(h c main_v109).trans (result (launchContents m c)),
      (h c main_arg0).trans (kept (launchContents m c))⟩)
    (run_seq scopedRefs_eq scopedSems_eq defs main (fun _ => ops) main_eq (fun _ => ops_sub) m ρ)

/-- The run with the result dropped: the argument is unchanged. -/
theorem frame_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0) :=
  (θ_run defs _ _).mono (fun _ h c => (h c).2) (run m ρ)

end Cert.ReferenceIdeal.FwhtValue

end
-- ==== Proof.lean ====
/-
  The kernel and its reference compute the same function over the extended reals: the unnormalised Walsh–Hadamard
  transform along axis 1 of an array of shape [128, 1024, 256]. Both do it by the ten butterfly stages of half-widths
  1, 2, 4, …, 512 — within each group of 2 h consecutive rows the lower half becomes lower + upper and the upper half
  lower − upper — and both perform the same additions and subtractions in the same order, so the two results agree
  element by element with no condition on the inputs (infinite entries included: no law of the reals is used, only
  that both sides are the same expression).

  The reference regroups the rows as [groups, 2, h], takes the two halves apart, and puts sum and difference back
  (one module per stage, and their chain). The kernel works block by block over axis 0 (4 slabs a grid point): it does
  stages 1, 2, 4 at once on groups of 8 rows, stages 8 … 256 by loops that update the output block in place one group
  a trip, and stage 512 by one last pair of stores; read back, its stores compose to the ten stages, and since a stage
  acts along axis 1 only, the transform of a block of slabs is the block of the transform.

  The three frames: the two kernels' are the generated frame certificates; the reference's is its run with the result
  dropped. The idealised kernel is the kernel's own text read over the extended reals (no rewrite was applied), so
  there is nothing to preserve.
-/
import proofs.«174154_j901943132182_2_alg».proof.Defs
import proofs.«174154_j901943132182_2_alg».proof.Proof.Gen.Kernel
import proofs.«174154_j901943132182_2_alg».proof.Proof.Gen.Kernel.Skeleton
import proofs.«174154_j901943132182_2_alg».proof.Proof.Gen.Kernel.Loops
import proofs.«174154_j901943132182_2_alg».proof.Proof.Gen.Kernel.Launch
import proofs.«174154_j901943132182_2_alg».proof.Proof.Gen.Kernel.Points
import proofs.«174154_j901943132182_2_alg».proof.Proof.Gen.Kernel.Frame
import proofs.«174154_j901943132182_2_alg».proof.Proof.Gen.KernelIdeal
import proofs.«174154_j901943132182_2_alg».proof.Proof.Gen.KernelIdeal.Skeleton
import proofs.«174154_j901943132182_2_alg».proof.Proof.Gen.KernelIdeal.Loops
import proofs.«174154_j901943132182_2_alg».proof.Proof.Gen.KernelIdeal.Launch
import proofs.«174154_j901943132182_2_alg».proof.Proof.Gen.KernelIdeal.Points
import proofs.«174154_j901943132182_2_alg».proof.Proof.Gen.KernelIdeal.Frame
import proofs.«174154_j901943132182_2_alg».proof.Proof.Gen.ReferenceIdeal
import proofs.«174154_j901943132182_2_alg».proof.Proof.Gen.Pre_finite_inputs
import proofs.«174154_j901943132182_2_alg».proof.Proof.KernelValue
import proofs.«174154_j901943132182_2_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs to the end and leaves its argument alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs to the end and leaves its argument alone: its run, the result dropped. -/
theorem frame_reference : Cert.frame_ReferenceIdeal := fun m ρ _ => Cert.ReferenceIdeal.FwhtValue.frame_run m ρ

/-- Both programs end with the transform of the argument; the arguments agree, so the results do. -/
theorem algebraic : Cert.algebraic_KernelIdeal_ReferenceIdeal := by
  intro m ρ m' ρ' _ hagree
  refine ⟨_, Cert.KernelIdeal.FwhtValue.run m ρ, ?_⟩
  refine (θ_run Cert.ReferenceIdeal.defs _ _).mono (fun _ h c => ⟨(h c).1.trans ?_, (h c).2⟩)
    (Cert.ReferenceIdeal.FwhtValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
